-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S2x128x256 : Shape := ⟨3, ![2, 128, 256]⟩
abbrev S2 : Shape := ⟨1, ![2]⟩
abbrev S_ : Shape := ⟨0, ![]⟩
abbrev S128x256 : Shape := ⟨2, ![128, 256]⟩
abbrev S1x128x256 : Shape := ⟨3, ![1, 128, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S2x128x256, .bf16⟩
  | .local _ .vmem, ⟨3, _⟩ => ⟨S2x128x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v23 : BitVec 32 := Scalar.muli v2 c4_i32_17
  let v24 : BitVec 32 := Scalar.addi c0_i32_18 v23
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_19 : BitVec 32 := 2#32
  let v25 : BitVec 32 := Scalar.muli v9 c2_i32_19
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v27 : BitVec 32 := Scalar.muli v8 c1_i32_20
  let v28 : BitVec 32 := Scalar.addi v26 v27
  v28.toNat
def k0_dev3 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v43 : BitVec 32 := Scalar.muli v2 c4_i32_32
  let v44 : BitVec 32 := Scalar.addi c0_i32_33 v43
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_34 : BitVec 32 := 2#32
  let v45 : BitVec 32 := Scalar.muli v9 c2_i32_34
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v47 : BitVec 32 := Scalar.muli v8 c1_i32_35
  let v48 : BitVec 32 := Scalar.addi v46 v47
  v48.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S128x256_0_0 : ∀ a, (![0, 0] : Fin 2 → Nat) a + S128x256.size a ≤ S256x256.size a
  h_S128x256 : 0 < S128x256.numel
  shapeCasts_S128x256_S128x256 : S128x256.ShapeCasts S128x256
  bitsLt_bf16_f32 : FTy.bits .bf16 < FTy.bits .f32
  inb_S2x128x256_S1x128x256_0_0_0 : ∀ a, (![0, 0, 0] : Fin 3 → Nat) a + S1x128x256.size a ≤ S2x128x256.size a
  h_S1x128x256 : 0 < S1x128x256.numel
  shapeCasts_S1x128x256_S128x256 : S1x128x256.ShapeCasts S128x256
  shapeCasts_S128x256_S1x128x256 : S128x256.ShapeCasts S1x128x256
  packedbf16_S2x128x256_S1x128x256_0_0_0 : (Rect.unit (s := S2x128x256) ![0, 0, 0] S1x128x256.size inb_S2x128x256_S1x128x256_0_0_0).PackedRows (EltTy.packing .bf16)
  inb_S2_S1_0 : ∀ a, (![0] : Fin 1 → Nat) a + S1.size a ≤ S2.size a
  squeezes_S1_S_ : S1.Squeezes S_
  squeezes_S1x128x256_S128x256 : S1x128x256.Squeezes S128x256
  wordsbf16_S2x128x256_S1x128x256_0_0_0 : (Rect.unit (s := S2x128x256) ![0, 0, 0] S1x128x256.size inb_S2x128x256_S1x128x256_0_0_0).WholeWords (EltTy.packing .bf16)
  inb_S256x256_S128x256_128_0 : ∀ a, (![128, 0] : Fin 2 → Nat) a + S128x256.size a ≤ S256x256.size a
  inb_S2x128x256_S1x128x256_1_0_0 : ∀ a, (![1, 0, 0] : Fin 3 → Nat) a + S1x128x256.size a ≤ S2x128x256.size a
  packedbf16_S2x128x256_S1x128x256_1_0_0 : (Rect.unit (s := S2x128x256) ![1, 0, 0] S1x128x256.size inb_S2x128x256_S1x128x256_1_0_0).PackedRows (EltTy.packing .bf16)
  inb_S2_S1_1 : ∀ a, (![1] : Fin 1 → Nat) a + S1.size a ≤ S2.size a
  wordsbf16_S2x128x256_S1x128x256_1_0_0 : (Rect.unit (s := S2x128x256) ![1, 0, 0] S1x128x256.size inb_S2x128x256_S1x128x256_1_0_0).WholeWords (EltTy.packing .bf16)
  hcc0_scratch2 : 2 + S2.numel ≤ 6
  hcc0_scratch3 : 4 + S2.numel ≤ 6
  k0_dev1_lt : ∀ d0 : Dev nD, (k0_dev1 d0) < nD
  k0_dev2_lt : ∀ d0 : Dev nD, (k0_dev2 d0) < nD
  k0_dev3_lt : ∀ d0 : Dev nD, (k0_dev3 d0) < nD
  hstage0_0 : ∀ j, (stage0_0 j).IsWhole
  hstage0_1 : ∀ j, (stage0_1 j).IsWhole

variable [Facts₀]

abbrev cc0_scratch2 : DmaSems sig S2 := SemArray.consecutive 2 S2 hcc0_scratch2
abbrev cc0_scratch3 : DmaSems sig S2 := SemArray.consecutive 4 S2 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S512x256_S2x256x256 : S512x256.ShapeCasts S2x256x256
  reducesTo_S2x256x256_S256x256_d0 : S2x256x256.ReducesTo [0] S256x256
  h_S_ : 0 < S_.numel

variable [Facts₀]

class Facts : Prop extends Facts₀ where

variable [Facts]
-- ==== Proof.Spec.lean ====
/-
  The mathematics of the kernel, free of any protocol.

  The eight devices form the mesh x = 2, y = 2, z = 2, device `c` at (c / 4, c / 2 % 2, c % 2); the input array
  f32[512, 256] is cut along its rows in two blocks by the y coordinate, so device `c` holds rows
  [256 (c / 2 % 2), 256 (c / 2 % 2) + 256). Each device exchanges its block, narrowed to bf16, with the one device that
  differs from it in the y coordinate alone (`peer`, an involution), and ends with its own block plus the block it
  received, widened back: on every device the sum of the two row blocks.
-/
import proofs.«900502_g7700000000000503_dist_ar_v7x_xyz2x2x2_y_m256_n256_bf16_1_alg».proof.Proof.Gen.KernelIdeal

noncomputable section

namespace Cert.KernelIdeal.Spec

open Cert.KernelIdeal Cert.KernelIdeal.Gen
open Idealize.ShloMosaic Idealize.ShloMosaic.TcCoe Idealize.SL.Sem

variable {F : FTy → Type} [FloatOps F]

/-- The device that differs from `c` in the y coordinate alone: `c` with bit 1 flipped. -/
def peer (c : Dev nD) : Dev nD :=
  ⟨(4 * (c.val / 4) + (c.val % 2) + 2) - 2 * ((c.val / 2) % 2), by have h : c.val < 8 := c.isLt; show _ < 8; omega⟩

theorem peer_peer (c : Dev nD) : peer (peer c) = c := by revert c; decide
theorem peer_ne (c : Dev nD) : peer c ≠ c := by revert c; decide

/-- The three device chains of the kernel all name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

variable (m : (ℓ : Loc nD τ sig) → Buf (Elt F) ℓ)

/-- Device `c`'s block of the input, as launched. -/
def xarr (c : Dev nD) : Vec F S256x256 .f32 := m ((c : Thread nD τ).loc main_arg0)

/-- What device `c` ends with: its own block plus its peer's block narrowed to bf16 and widened back, entry by entry. -/
def outVal (c : Dev nD) : Vec F S256x256 .f32 :=
  addf (xarr m c) (extf .f32 (truncf .bf16 (xarr m (peer c)) bitsLt_bf16_f32) bitsLt_bf16_f32)

end Cert.KernelIdeal.Spec

end
-- ==== Proof.Contents.lean ====
/-
  The buffers of one device's kernel and what they hold.

  A device stages its block of the input (256 rows) and its result, and has two scratch buffers of two slots of 128
  rows in bf16: the one it sends from and the one its peer's transfers land in. Slot k of the send buffer is rows
  [128 k, 128 k + 128) of the device's block narrowed to bf16; the peer's slot k lands in slot k of the landing
  buffer; half k of the result is half k of the block plus the landed slot k widened.
-/
import proofs.«900502_g7700000000000503_dist_ar_v7x_xyz2x2x2_y_m256_n256_bf16_1_alg».proof.Proof.Spec
import proofs.«900502_g7700000000000503_dist_ar_v7x_xyz2x2x2_y_m256_n256_bf16_1_alg».proof.Proof.Gen.KernelIdeal.Skeleton

noncomputable section

namespace Cert.KernelIdeal.Proto

open Cert.KernelIdeal Cert.KernelIdeal.Gen Cert.KernelIdeal.Spec
open Idealize.ShloMosaic Idealize.ShloMosaic.TcCoe Idealize.SL.Sem

variable {F : FTy → Type} [FloatOps F]

/-! ## The memrefs the body is called with, the two halves and the two slots -/

abbrev xM : Memref sig .tc .vmem S256x256 .f32 := Memref.whole cc0_stg0_0
abbrev oM : Memref sig .tc .vmem S256x256 .f32 := Memref.whole cc0_stg1_0
abbrev sM : Memref sig .tc .vmem S2x128x256 .bf16 := Memref.whole cc0_scratch0
abbrev rM : Memref sig .tc .vmem S2x128x256 .bf16 := Memref.whole cc0_scratch1

/-- Rows [0, 128) and rows [128, 256) of a staged block. -/
abbrev r0 : Rect S256x256 := Rect.unit (s := S256x256) ![0, 0] S128x256.size inb_S256x256_S128x256_0_0
abbrev r1 : Rect S256x256 := Rect.unit (s := S256x256) ![128, 0] S128x256.size inb_S256x256_S128x256_128_0
/-- Slot 0 and slot 1 of a scratch buffer. -/
abbrev q0 : Rect S2x128x256 := Rect.unit (s := S2x128x256) ![0, 0, 0] S1x128x256.size inb_S2x128x256_S1x128x256_0_0_0
abbrev q1 : Rect S2x128x256 := Rect.unit (s := S2x128x256) ![1, 0, 0] S1x128x256.size inb_S2x128x256_S1x128x256_1_0_0

/-- The transfers' ends: slot k of the send buffer, slot k of the landing buffer, as 128 x 256 memrefs. -/
abbrev src0 : Memref sig .tc .vmem S128x256 .bf16 := (sM.slice q0 (fun _ => rfl)).squeeze S128x256 squeezes_S1x128x256_S128x256
abbrev src1 : Memref sig .tc .vmem S128x256 .bf16 := (sM.slice q1 (fun _ => rfl)).squeeze S128x256 squeezes_S1x128x256_S128x256
abbrev dst0 : Memref sig .tc .vmem S128x256 .bf16 := (rM.slice q0 (fun _ => rfl)).squeeze S128x256 squeezes_S1x128x256_S128x256
abbrev dst1 : Memref sig .tc .vmem S128x256 .bf16 := (rM.slice q1 (fun _ => rfl)).squeeze S128x256 squeezes_S1x128x256_S128x256

/-! ## Contents -/

variable (m : (ℓ : Loc nD τ sig) → Buf (Elt F) ℓ)

/-- The staged block of device `c`: its block of the input as launched. -/
def xstg (c : Dev nD) : (cc0_stg0_0 : Ref sig .tc).ty.Contents (Elt F) :=
  (win0_0.blk (0 : Fin 1)).view.read (Elt F) (m ((c : Thread nD τ).loc main_arg0))

/-- Rows [0, 128) and rows [128, 256) of the staged block, as the body's loads read them. -/
def a0 (c : Dev nD) : Vec F S128x256 .f32 := (xM : Memref sig .tc .vmem S256x256 .f32).view.readAt (Elt F) r0.toLoadRect (xstg m c)
def a1 (c : Dev nD) : Vec F S128x256 .f32 := (xM : Memref sig .tc .vmem S256x256 .f32).view.readAt (Elt F) r1.toLoadRect (xstg m c)

/-- Some contents, to lay the two slots over. -/
def base0 : (cc0_scratch0 : Ref sig .tc).ty.Contents (Elt F) := fun _ => Classical.arbitrary _

/-- The send buffer of device `c` once both slots are written: slot k is half k of its block narrowed to bf16. -/
def sendBuf (c : Dev nD) : (cc0_scratch0 : Ref sig .tc).ty.Contents (Elt F) :=
  (sM.access q1 : View sig .tc _ _ _).write (Elt F)
    ((sM.access q0 : View sig .tc _ _ _).write (Elt F) base0 (k0_pay2 (a0 m c)) Finset.univ) (k0_pay3 (a1 m c)) Finset.univ

/-- The landing buffer of device `c` once both transfers have landed: its peer's send buffer. -/
def landBuf (c : Dev nD) : (cc0_scratch1 : Ref sig .tc).ty.Contents (Elt F) := sendBuf m (peer c)

/-- The two halves of the result of device `c`. -/
def half0 (c : Dev nD) : FVec F S128x256 .f32 := k0_pay4 (a0 m c) (k0_pay2 (a0 m (peer c)))
def half1 (c : Dev nD) : FVec F S128x256 .f32 := k0_pay1 (a1 m c) (k0_pay3 (a1 m (peer c)))

end Cert.KernelIdeal.Proto

end
-- ==== Proof.Proto.lean ====
/-
  The protocol of the exchange, under the rounds discipline.

  Every device has five cells: the runtime's barrier semaphore (entry handshake), two send semaphores and two
  receive semaphores (one pair per slot). Each cell has ONE round of ONE duty:
  * the barrier cell of device `c` is paid one unit by its peer's signal, which hands `c` the peer's landing buffer,
    slot by slot: what `c`'s transfers into the peer need;
  * receive cell k of `c` is paid the slot's credit by the peer's transfer k, which hands `c` slot k of its landing
    buffer holding the peer's slot k;
  * send cell k of `c` is paid by `c`'s own transfer k, which hands slot k of the send buffer back.
  A device waits on its barrier cell owing only receive credit of its peer, and on its receive and send cells owing
  nothing: barrier cells sit at level 1, receive cells at level 2, everything else at level 0.
-/
import proofs.«900502_g7700000000000503_dist_ar_v7x_xyz2x2x2_y_m256_n256_bf16_1_alg».proof.Proof.Contents
import proofs.«900502_g7700000000000503_dist_ar_v7x_xyz2x2x2_y_m256_n256_bf16_1_alg».proof.Proof.Gen.KernelIdeal.Launch
import proofs.«900502_g7700000000000503_dist_ar_v7x_xyz2x2x2_y_m256_n256_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, both with duties `Unit` -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

def peerEquiv : Dev nD ≃ Dev nD := ⟨peer, peer, peer_peer, peer_peer⟩

/-! ## The semaphores and the cells -/

/-- The runtime's barrier semaphore of collective id 0 (unscoped); the send and receive DMA semaphores of the two slots. -/
abbrev barS : Sem sig := (SemArray.scalar (sig.barrier 0 rfl) : Sems sig S_).sem
abbrev sS0 : DmaSem sig := ((cc0_scratch2.slice (Rect.unit (s := S2) ![0] S1.size inb_S2_S1_0)).squeeze S_ squeezes_S1_S_).sem
abbrev sS1 : DmaSem sig := ((cc0_scratch2.slice (Rect.unit (s := S2) ![1] S1.size inb_S2_S1_1)).squeeze S_ squeezes_S1_S_).sem
abbrev rS0 : DmaSem sig := ((cc0_scratch3.slice (Rect.unit (s := S2) ![0] S1.size inb_S2_S1_0)).squeeze S_ squeezes_S1_S_).sem
abbrev rS1 : DmaSem sig := ((cc0_scratch3.slice (Rect.unit (s := S2) ![1] S1.size inb_S2_S1_1)).squeeze S_ squeezes_S1_S_).sem

abbrev barCell (c : Dev nD) : GSem nD τ sig := ((c : Thread nD τ), .reg barS)
abbrev sendCell0 (c : Dev nD) : GSem nD τ sig := ((c : Thread nD τ), .dma sS0)
abbrev sendCell1 (c : Dev nD) : GSem nD τ sig := ((c : Thread nD τ), .dma sS1)
abbrev recvCell0 (c : Dev nD) : GSem nD τ sig := ((c : Thread nD τ), .dma rS0)
abbrev recvCell1 (c : Dev nD) : GSem nD τ sig := ((c : Thread nD τ), .dma rS1)

/-- The kernel's OWN (scoped) semaphores, as the launch theorem indexes them; -/
abbrev osem : Fin 4 → SemLoc sig := fun | 0 => .dma sS0 | 1 => .dma sS1 | 2 => .dma rS0 | 3 => .dma rS1
/-- all five of the exchange's, as this proof indexes them. -/
abbrev csem : Fin 5 → SemLoc sig := fun | 0 => .reg barS | 1 => .dma sS0 | 2 => .dma sS1 | 3 => .dma rS0 | 4 => .dma rS1
abbrev kcell (ck : Dev nD × Fin 5) : GSem nD τ sig := ((ck.1 : Thread nD τ), csem ck.2)

/-- The credit of one slot's transfer. -/
abbrev N : ℕ := (dst0 : Memref sig .tc .vmem S128x256 .bf16).view.dmaCredit
theorem N_pos : 0 < N := View.dmaCredit_pos _ (by decide)

/-! ## The points-to's of the slots -/

def sPts0 (c : Dev nD) (f : Buf (Elt F) ((src0 : Memref sig .tc .vmem S128x256 .bf16).view.loc (c : Thread nD τ))) : sProp 𝕄 :=
  (src0 : Memref sig .tc .vmem S128x256 .bf16).view.loc (c : Thread nD τ) ↦[(src0 : Memref sig .tc .vmem S128x256 .bf16).view.set]{fullShare} f
def sPts1 (c : Dev nD) (f : Buf (Elt F) ((src1 : Memref sig .tc .vmem S128x256 .bf16).view.loc (c : Thread nD τ))) : sProp 𝕄 :=
  (src1 : Memref sig .tc .vmem S128x256 .bf16).view.loc (c : Thread nD τ) ↦[(src1 : Memref sig .tc .vmem S128x256 .bf16).view.set]{fullShare} f
def rPts0 (c : Dev nD) (f : Buf (Elt F) ((dst0 : Memref sig .tc .vmem S128x256 .bf16).view.loc (c : Thread nD τ))) : sProp 𝕄 :=
  (dst0 : Memref sig .tc .vmem S128x256 .bf16).view.loc (c : Thread nD τ) ↦[(dst0 : Memref sig .tc .vmem S128x256 .bf16).view.set]{fullShare} f
def rPts1 (c : Dev nD) (f : Buf (Elt F) ((dst1 : Memref sig .tc .vmem S128x256 .bf16).view.loc (c : Thread nD τ))) : sProp 𝕄 :=
  (dst1 : Memref sig .tc .vmem S128x256 .bf16).view.loc (c : Thread nD τ) ↦[(dst1 : Memref sig .tc .vmem S128x256 .bf16).view.set]{fullShare} f

omit [FloatOps F] in
instance sPts0_storable (c : Dev nD) (f) : BI.Storable (upEmb : UEmb _ 𝕄) (sPts0 (F := F) c f) := by unfold sPts0; infer_instance
omit [FloatOps F] in
instance sPts1_storable (c : Dev nD) (f) : BI.Storable (upEmb : UEmb _ 𝕄) (sPts1 (F := F) c f) := by unfold sPts1; infer_instance
omit [FloatOps F] in
instance rPts0_storable (c : Dev nD) (f) : BI.Storable (upEmb : UEmb _ 𝕄) (rPts0 (F := F) c f) := by unfold rPts0; infer_instance
omit [FloatOps F] in
instance rPts1_storable (c : Dev nD) (f) : BI.Storable (upEmb : UEmb _ 𝕄) (rPts1 (F := F) c f) := by unfold rPts1; infer_instance

/-! ## The schedule -/

/-- What the peer's signal hands `c`: the peer's landing buffer, slot by slot. -/
def barPay (c : Dev nD) : sProp 𝕄 :=
  iprop((∃ f, rPts0 (peer c) f) ∗ (∃ f, rPts1 (peer c) f))
def sendPay0 (c : Dev nD) : sProp 𝕄 := sPts0 c (sendBuf m c)
def sendPay1 (c : Dev nD) : sProp 𝕄 := sPts1 c (sendBuf m c)
def recvPay0 (c : Dev nD) : sProp 𝕄 := rPts0 c (landBuf m c)
def recvPay1 (c : Dev nD) : sProp 𝕄 := rPts1 c (landBuf m c)

abbrev IsBar (g : GSem nD τ sig) : Prop := g.1.2 = .tc ∧ g.2 = .reg barS
abbrev IsXfer (g : GSem nD τ sig) : Prop := g.1.2 = .tc ∧ (g.2 = .dma sS0 ∨ g.2 = .dma sS1 ∨ g.2 = .dma rS0 ∨ g.2 = .dma rS1)

/-- One round, round 0, one duty a cell: a barrier cell one unit, a send or receive cell the slot's credit. -/
def sched : Rounds.Schedule (GSem nD τ sig) Unit 𝕄 where
  duties g r := if r = 0 ∧ (IsBar g ∨ IsXfer g) then {()} else ∅
  amount g _ _ := if g.2 = .reg barS then 1 else N
  payload g _ _ :=
    if g.2 = .reg barS then barPay g.1.1
    else if g.2 = .dma sS0 then sendPay0 m g.1.1
    else if g.2 = .dma sS1 then sendPay1 m g.1.1
    else if g.2 = .dma rS0 then recvPay0 m g.1.1
    else if g.2 = .dma rS1 then recvPay1 m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1
    else if g.2 = .dma sS0 then sendPay0 m g.1.1
    else if g.2 = .dma sS1 then sendPay1 m g.1.1
    else if g.2 = .dma rS0 then recvPay0 m g.1.1
    else if g.2 = .dma rS1 then recvPay1 m g.1.1
    else iprop(emp))
  unfold barPay sendPay0 sendPay1 recvPay0 recvPay1
  (repeat' split) <;> infer_instance

section Sched
variable (c : Dev nD)

theorem s0_ne_bar : (SemLoc.dma sS0 : SemLoc sig) ≠ .reg barS := fun h => by cases h
theorem s1_ne_bar : (SemLoc.dma sS1 : SemLoc sig) ≠ .reg barS := fun h => by cases h
theorem r0_ne_bar : (SemLoc.dma rS0 : SemLoc sig) ≠ .reg barS := fun h => by cases h
theorem r1_ne_bar : (SemLoc.dma rS1 : SemLoc sig) ≠ .reg barS := fun h => by cases h
theorem s1_ne_s0 : (SemLoc.dma sS1 : SemLoc sig) ≠ .dma sS0 := by decide
theorem r0_ne_s0 : (SemLoc.dma rS0 : SemLoc sig) ≠ .dma sS0 := by decide
theorem r0_ne_s1 : (SemLoc.dma rS0 : SemLoc sig) ≠ .dma sS1 := by decide
theorem r1_ne_s0 : (SemLoc.dma rS1 : SemLoc sig) ≠ .dma sS0 := by decide
theorem r1_ne_s1 : (SemLoc.dma rS1 : SemLoc sig) ≠ .dma sS1 := by decide
theorem r1_ne_r0 : (SemLoc.dma rS1 : SemLoc sig) ≠ .dma rS0 := by decide

theorem duties_bar : (sched (F := F) m).duties (barCell c) 0 = {()} := by dsimp only [sched]; exact if_pos ⟨rfl, .inl ⟨rfl, rfl⟩⟩
theorem duties_send0 : (sched (F := F) m).duties (sendCell0 c) 0 = {()} := by dsimp only [sched]; exact if_pos ⟨rfl, .inr ⟨rfl, .inl rfl⟩⟩
theorem duties_send1 : (sched (F := F) m).duties (sendCell1 c) 0 = {()} := by dsimp only [sched]; exact if_pos ⟨rfl, .inr ⟨rfl, .inr (.inl rfl)⟩⟩
theorem duties_recv0 : (sched (F := F) m).duties (recvCell0 c) 0 = {()} := by dsimp only [sched]; exact if_pos ⟨rfl, .inr ⟨rfl, .inr (.inr (.inl rfl))⟩⟩
theorem duties_recv1 : (sched (F := F) m).duties (recvCell1 c) 0 = {()} := by dsimp only [sched]; exact if_pos ⟨rfl, .inr ⟨rfl, .inr (.inr (.inr rfl))⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send0 (d : Unit) : (sched (F := F) m).amount (sendCell0 c) 0 d = N := by dsimp only [sched]; exact if_neg s0_ne_bar
theorem amount_send1 (d : Unit) : (sched (F := F) m).amount (sendCell1 c) 0 d = N := by dsimp only [sched]; exact if_neg s1_ne_bar
theorem amount_recv0 (d : Unit) : (sched (F := F) m).amount (recvCell0 c) 0 d = N := by dsimp only [sched]; exact if_neg r0_ne_bar
theorem amount_recv1 (d : Unit) : (sched (F := F) m).amount (recvCell1 c) 0 d = N := by dsimp only [sched]; exact if_neg r1_ne_bar

theorem expect_bar : (sched (F := F) m).expect (barCell c) 0 = 1 := by
  unfold Schedule.expect Schedule.amountOf; rw [duties_bar, Finset.sum_singleton, amount_bar]
theorem expect_send0 : (sched (F := F) m).expect (sendCell0 c) 0 = N := by
  unfold Schedule.expect Schedule.amountOf; rw [duties_send0, Finset.sum_singleton, amount_send0]
theorem expect_send1 : (sched (F := F) m).expect (sendCell1 c) 0 = N := by
  unfold Schedule.expect Schedule.amountOf; rw [duties_send1, Finset.sum_singleton, amount_send1]
theorem expect_recv0 : (sched (F := F) m).expect (recvCell0 c) 0 = N := by
  unfold Schedule.expect Schedule.amountOf; rw [duties_recv0, Finset.sum_singleton, amount_recv0]
theorem expect_recv1 : (sched (F := F) m).expect (recvCell1 c) 0 = N := by
  unfold Schedule.expect Schedule.amountOf; rw [duties_recv1, Finset.sum_singleton, amount_recv1]

theorem payload_bar (d : Unit) : (sched (F := F) m).payload (barCell c) 0 d = barPay c := by dsimp only [sched]; rw [if_pos rfl]
/-- The payload of the peer's barrier cell, which `c` pays: `c`'s own landing buffer. -/
theorem payload_bar_peer (d : Unit) : (sched (F := F) m).payload (barCell (peer c)) 0 d
    = iprop((∃ f, rPts0 c f) ∗ (∃ f, rPts1 c f)) := by
  rw [payload_bar]; unfold barPay; rw [peer_peer]
theorem payload_send0 (d : Unit) : (sched (F := F) m).payload (sendCell0 c) 0 d = sendPay0 m c := by
  dsimp only [sched]; rw [if_neg s0_ne_bar, if_pos rfl]
theorem payload_send1 (d : Unit) : (sched (F := F) m).payload (sendCell1 c) 0 d = sendPay1 m c := by
  dsimp only [sched]; rw [if_neg s1_ne_bar, if_neg s1_ne_s0, if_pos rfl]
theorem payload_recv0 (d : Unit) : (sched (F := F) m).payload (recvCell0 c) 0 d = recvPay0 m c := by
  dsimp only [sched]; rw [if_neg r0_ne_bar, if_neg r0_ne_s0, if_neg r0_ne_s1, if_pos rfl]
theorem payload_recv1 (d : Unit) : (sched (F := F) m).payload (recvCell1 c) 0 d = recvPay1 m c := by
  dsimp only [sched]; rw [if_neg r1_ne_bar, if_neg r1_ne_s0, if_neg r1_ne_s1, if_neg r1_ne_r0, if_pos rfl]

/-- The rest of a cell's round, no duty taken, is its one payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_send0 : bigSep ((sched (F := F) m).duties (sendCell0 c) 0 \ ∅) (fun d => (sched (F := F) m).payload (sendCell0 c) 0 d) = sendPay0 m c := by
  rw [Finset.sdiff_empty, duties_send0, bigSep_singleton, payload_send0]
theorem rest_send1 : bigSep ((sched (F := F) m).duties (sendCell1 c) 0 \ ∅) (fun d => (sched (F := F) m).payload (sendCell1 c) 0 d) = sendPay1 m c := by
  rw [Finset.sdiff_empty, duties_send1, bigSep_singleton, payload_send1]
theorem rest_recv0 : bigSep ((sched (F := F) m).duties (recvCell0 c) 0 \ ∅) (fun d => (sched (F := F) m).payload (recvCell0 c) 0 d) = recvPay0 m c := by
  rw [Finset.sdiff_empty, duties_recv0, bigSep_singleton, payload_recv0]
theorem rest_recv1 : bigSep ((sched (F := F) m).duties (recvCell1 c) 0 \ ∅) (fun d => (sched (F := F) m).payload (recvCell1 c) 0 d) = recvPay1 m c := by
  rw [Finset.sdiff_empty, duties_recv1, bigSep_singleton, payload_recv1]

end Sched

/-! ## What each device owes at launch; the levels -/

/-- Device `c` owes its peer's two receive cells the slot's credit each and its peer's barrier cell one unit. -/
def O₂ (c : Dev nD) : CellTallies nD τ sig Unit := tallyAt (recvCell1 (peer c)) () N + tallyAt (recvCell0 (peer c)) () N
def O₀ (c : Dev nD) : CellTallies nD τ sig Unit := O₂ c + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma rS0 ∨ g.2 = .dma rS1 then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) :
    g = recvCell1 (peer c) ∨ g = recvCell0 (peer c) := by
  unfold O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = recvCell1 (peer c) ∨ g = recvCell0 (peer c) ∨ g = barCell (peer c) := by
  unfold O₀ at h
  rw [Pi.add_apply, Finsupp.add_apply, tallyAt_apply] at h
  by_cases hb : g = barCell (peer c)
  · exact .inr (.inr hb)
  · rw [if_neg (fun h' => hb h'.1), Nat.add_zero] at h
    rcases O₂_pos h with h | h
    · exact .inl h
    · exact .inr (.inl h)

theorem lv_recv0 (c : Dev nD) (u : Unit) : lv (recvCell0 c) u = 2 := by
  dsimp only [lv]; rw [if_neg r0_ne_bar, if_pos (.inl rfl)]
theorem lv_recv1 (c : Dev nD) (u : Unit) : lv (recvCell1 c) u = 2 := by
  dsimp only [lv]; rw [if_neg r1_ne_bar, if_pos (.inr rfl)]
theorem lv_bar (c : Dev nD) (u : Unit) : lv (barCell c) u = 1 := by
  dsimp only [lv]; rw [if_pos rfl]

omit [FloatOps F] in
theorem mayWait_stage (c : Dev nD) (q : DmaSem sig) (hq0 : SemLoc.dma q ≠ .dma rS0) (hq1 : SemLoc.dma q ≠ .dma rS1)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => by rcases h with h | h; exact hq0 h; exact hq1 h)])
      (fun g u hg => by
        rcases O₀_pos hg with rfl | rfl | rfl
        · rw [lv_recv1]; decide
        · rw [lv_recv0]; decide
        · rw [lv_bar]; decide)
  · rw [MayWait_zero]; iintro -; iempintro

omit [FloatOps F] in
/-- At its barrier wait a device owes its peer's receive credit only: receive cells, above its barrier cell. -/
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; dsimp only [lv]; rw [if_pos rfl])
    (fun g u hg => by
      rcases O₂_pos hg with rfl | rfl
      · rw [lv_recv1]; decide
      · rw [lv_recv0]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its block plus its peer's, narrowed and widened (`Spec.outVal`). -/
def outStg (c : Dev nD) : (cc0_stg1_0 : Ref sig .tc).ty.Contents (Elt F) := Spec.outVal m c

/-- The cells' invariants device `c`'s body opens, under the names `K` the launch allocated them at: its own five, its
    peer's barrier cell (its signal) and its peer's two receive cells (its transfers). -/
def invs (K : Dev nD × Fin 5 → ℕ) (c : Dev nD) : sProp 𝕄 :=
  iprop(cellInv ER (sched m) (K (c, 0)) (barCell c) ∗ cellInv ER (sched m) (K (c, 1)) (sendCell0 c) ∗ cellInv ER (sched m) (K (c, 2)) (sendCell1 c)
    ∗ cellInv ER (sched m) (K (c, 3)) (recvCell0 c) ∗ cellInv ER (sched m) (K (c, 4)) (recvCell1 c)
    ∗ cellInv ER (sched m) (K (peer c, 0)) (barCell (peer c))
    ∗ cellInv ER (sched m) (K (peer c, 3)) (recvCell0 (peer c)) ∗ cellInv ER (sched m) (K (peer c, 4)) (recvCell1 (peer c)))

instance invs_persistent (K : Dev nD × Fin 5 → ℕ) (c : Dev nD) : BI.Persistent (invs m K c) := by unfold invs; infer_instance

/-- The exchange's ghost state device `c` starts from: the invariants; its positions at round 0 of its five cells; the
    reached-marks of the cells it pays and of its own; the five duty tokens it pays with — its peer's barrier duty, its
    peer's two receive duties, its own two send duties. -/
def ghost (K : Dev nD × Fin 5 → ℕ) (c : Dev nD) : sProp 𝕄 :=
  iprop(invs m K c
    ∗ atPos ER (barCell c) 0 ∅ 0 ∗ atPos ER (sendCell0 c) 0 ∅ 0 ∗ atPos ER (sendCell1 c) 0 ∅ 0 ∗ atPos ER (recvCell0 c) 0 ∅ 0 ∗ atPos ER (recvCell1 c) 0 ∅ 0
    ∗ reached ER (barCell (peer c)) 0 ∗ reached ER (recvCell0 (peer c)) 0 ∗ reached ER (recvCell1 (peer c)) 0
    ∗ reached ER (sendCell0 c) 0 ∗ reached ER (sendCell1 c) 0
    ∗ dutyTok ER (barCell (peer c)) 0 () ∗ dutyTok ER (recvCell0 (peer c)) 0 () ∗ dutyTok ER (recvCell1 (peer c)) 0 ()
    ∗ dutyTok ER (sendCell0 c) 0 () ∗ dutyTok ER (sendCell1 c) 0 ())

/-- What device `c`'s body starts from: that at some names, its three credit tokens (its barrier's unit, its receive
    cells' credit) and the level facts. -/
def start (c : Dev nD) : sProp 𝕄 :=
  iprop((∃ K, ghost m K c) ∗ cred (tallyAt (barCell c) () 1) ∗ cred (tallyAt (recvCell0 c) () N) ∗ cred (tallyAt (recvCell1 c) () N) ∗ levAts L lv)

/-- Before the point: that and the two scratch buffers, at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: the two scratch buffers back, the four OWN cells at zero, closed (the barrier cell is the
    runtime's: nothing to hand back). -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ semVal (sendCell0 c) 0 ∗ semVal (sendCell1 c) 0 ∗ semVal (recvCell0 c) 0 ∗ semVal (recvCell1 c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outStg m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdeal.Proto

end
-- ==== Proof.Data.lean ====
import proofs.«900502_g7700000000000503_dist_ar_v7x_xyz2x2x2_y_m256_n256_bf16_1_alg».proof.Proof.Contents
import Idealize.ShloMosaic.Lib.Pipeline.Value

/-
  View and index algebra of one device's buffers. A scratch buffer of shape [2, 128, 256] is the disjoint union of its
  two slots; a slot seen as a 128 x 256 memref has the same elements as the slot's rectangle. A store through a slot
  fixes the contents on that slot whatever lay under it; a transfer between the same slot of two such buffers carries the
  contents over entry by entry; a load of a slot reads what was stored there. The result block [256, 256] is the disjoint
  union of its two halves of 128 rows, and the two half stores leave, entry by entry, the device's block plus its peer's
  block narrowed and widened back.
-/

noncomputable section

namespace Cert.KernelIdeal.Proto

open Cert.KernelIdeal Cert.KernelIdeal.Gen Cert.KernelIdeal.Spec
open Idealize.ShloMosaic Idealize.ShloMosaic.TcCoe Idealize.SL.Sem

variable {F : FTy → Type} [FloatOps F]
variable (m : (ℓ : Loc nD τ sig) → Buf (Elt F) ℓ)

theorem xstg_eq (c : Dev nD) : xstg m c = Spec.xarr m c :=
  Memref.read_access_unit_zero (Elt F) main_arg0 (funext fun _ => Nat.zero_mul _) _ _

/-! the element sets of the slots -/

/-- The two slots of a [2, 128, 256] shape cover it -/
private theorem q_union : (q0 : Rect S2x128x256).set ∪ (q1 : Rect S2x128x256).set = Finset.univ := by
  ext i
  have h0 : (i 0).val < 2 := (i 0).isLt
  have h1 : (i 1).val < 128 := (i 1).isLt
  have h2 : (i 2).val < 256 := (i 2).isLt
  simp only [Finset.mem_union, Finset.mem_univ, iff_true, Rect.mem_set_unit]
  by_cases h : (i 0).val = 0
  · refine Or.inl fun a => ?_
    match a with
    | ⟨0, _⟩ => exact ⟨Nat.zero_le _, by show (i 0).val < 0 + 1; omega⟩
    | ⟨1, _⟩ => exact ⟨Nat.zero_le _, by show (i 1).val < 0 + 128; omega⟩
    | ⟨2, _⟩ => exact ⟨Nat.zero_le _, by show (i 2).val < 0 + 256; omega⟩
  · refine Or.inr fun a => ?_
    match a with
    | ⟨0, _⟩ => exact ⟨by show 1 ≤ (i 0).val; omega, by show (i 0).val < 1 + 1; omega⟩
    | ⟨1, _⟩ => exact ⟨Nat.zero_le _, by show (i 1).val < 0 + 128; omega⟩
    | ⟨2, _⟩ => exact ⟨Nat.zero_le _, by show (i 2).val < 0 + 256; omega⟩

/-- and are disjoint: they differ on the leading axis. -/
private theorem q_disj : Disjoint (q0 : Rect S2x128x256).set (q1 : Rect S2x128x256).set :=
  Rect.unit_disjoint (0 : Fin S2x128x256.rank) (Or.inl (Nat.le_refl 1))

private theorem sacc_q0_rect : (sM.access q0 : View sig .tc _ _ _).set = (q0 : Rect S2x128x256).set := View.set_slice_whole cc0_scratch0 q0
private theorem sacc_q1_rect : (sM.access q1 : View sig .tc _ _ _).set = (q1 : Rect S2x128x256).set := View.set_slice_whole cc0_scratch0 q1
private theorem racc_q0_rect : (rM.access q0 : View sig .tc _ _ _).set = (q0 : Rect S2x128x256).set := View.set_slice_whole cc0_scratch1 q0
private theorem racc_q1_rect : (rM.access q1 : View sig .tc _ _ _).set = (q1 : Rect S2x128x256).set := View.set_slice_whole cc0_scratch1 q1

theorem sacc_q0_set : (sM.access q0 : View sig .tc _ _ _).set = (src0 : Memref sig .tc .vmem S128x256 .bf16).view.set :=
  (View.set_reshape (sM.access q0 : View sig .tc _ _ _) _).symm
theorem sacc_q1_set : (sM.access q1 : View sig .tc _ _ _).set = (src1 : Memref sig .tc .vmem S128x256 .bf16).view.set :=
  (View.set_reshape (sM.access q1 : View sig .tc _ _ _) _).symm
theorem racc_q0_set : (rM.access q0 : View sig .tc _ _ _).set = (dst0 : Memref sig .tc .vmem S128x256 .bf16).view.set :=
  (View.set_reshape (rM.access q0 : View sig .tc _ _ _) _).symm
theorem racc_q1_set : (rM.access q1 : View sig .tc _ _ _).set = (dst1 : Memref sig .tc .vmem S128x256 .bf16).view.set :=
  (View.set_reshape (rM.access q1 : View sig .tc _ _ _) _).symm
theorem src_union : (src0 : Memref sig .tc .vmem S128x256 .bf16).view.set ∪ (src1 : Memref sig .tc .vmem S128x256 .bf16).view.set = Finset.univ := by
  rw [← sacc_q0_set, ← sacc_q1_set, sacc_q0_rect, sacc_q1_rect]; exact q_union
theorem src_disj : Disjoint (src0 : Memref sig .tc .vmem S128x256 .bf16).view.set (src1 : Memref sig .tc .vmem S128x256 .bf16).view.set := by
  rw [← sacc_q0_set, ← sacc_q1_set, sacc_q0_rect, sacc_q1_rect]; exact q_disj
theorem dst_union : (dst0 : Memref sig .tc .vmem S128x256 .bf16).view.set ∪ (dst1 : Memref sig .tc .vmem S128x256 .bf16).view.set = Finset.univ := by
  rw [← racc_q0_set, ← racc_q1_set, racc_q0_rect, racc_q1_rect]; exact q_union
theorem dst_disj : Disjoint (dst0 : Memref sig .tc .vmem S128x256 .bf16).view.set (dst1 : Memref sig .tc .vmem S128x256 .bf16).view.set := by
  rw [← racc_q0_set, ← racc_q1_set, racc_q0_rect, racc_q1_rect]; exact q_disj

/-! what the slots hold -/

private theorem not_mem_q1_of_mem_q0 {i : (cc0_scratch0 : Ref sig .tc).ty.Idx}
    (hi : i ∈ (src0 : Memref sig .tc .vmem S128x256 .bf16).view.set) :
    i ∉ (sM.access q1 : View sig .tc _ _ _).setOn Finset.univ := by
  rw [View.setOn_univ, sacc_q1_set]
  exact Finset.disjoint_left.mp src_disj hi

theorem send0_agree (c : Dev nD) (f0 : (cc0_scratch0 : Ref sig .tc).ty.Contents (Elt F)) :
    ∀ i ∈ (src0 : Memref sig .tc .vmem S128x256 .bf16).view.set,
      (sM.access q0 : View sig .tc _ _ _).write (Elt F) f0 (k0_pay2 (a0 m c)) Finset.univ i = sendBuf m c i := by
  intro i hi
  unfold sendBuf
  rw [View.write_of_not_mem _ _ _ (not_mem_q1_of_mem_q0 hi)]
  refine View.write_congr (fun _ _ _ => rfl) fun hn => absurd ?_ hn
  rw [View.setOn_univ, sacc_q0_set]; exact hi

theorem send1_agree (c : Dev nD) (f1 : (cc0_scratch0 : Ref sig .tc).ty.Contents (Elt F)) :
    ∀ i ∈ (src1 : Memref sig .tc .vmem S128x256 .bf16).view.set,
      (sM.access q1 : View sig .tc _ _ _).write (Elt F) f1 (k0_pay3 (a1 m c)) Finset.univ i = sendBuf m c i := by
  intro i hi
  unfold sendBuf
  refine View.write_congr (fun _ _ _ => rfl) fun hn => absurd ?_ hn
  rw [View.setOn_univ, sacc_q1_set]; exact hi

/-- The same slot of the two scratch buffers: the same entry of the common shape. -/
private theorem dst0_emb (y : S128x256.Idx) :
    (dst0 : Memref sig .tc .vmem S128x256 .bf16).view.emb y = (src0 : Memref sig .tc .vmem S128x256 .bf16).view.emb y := rfl
private theorem dst1_emb (y : S128x256.Idx) :
    (dst1 : Memref sig .tc .vmem S128x256 .bf16).view.emb y = (src1 : Memref sig .tc .vmem S128x256 .bf16).view.emb y := rfl

theorem land0_agree (c : Dev nD) (fs : (cc0_scratch0 : Ref sig .tc).ty.Contents (Elt F)) (fd : (cc0_scratch1 : Ref sig .tc).ty.Contents (Elt F))
    (h : ∀ i ∈ (src0 : Memref sig .tc .vmem S128x256 .bf16).view.set, fs i = sendBuf m c i) :
    ∀ i ∈ (dst0 : Memref sig .tc .vmem S128x256 .bf16).view.set,
      (dst0 : Memref sig .tc .vmem S128x256 .bf16).view.write (Elt F) fd ((src0 : Memref sig .tc .vmem S128x256 .bf16).view.read (Elt F) fs) Finset.univ i = landBuf m (peer c) i := by
  intro i hi
  obtain ⟨y, rfl⟩ := View.exists_emb_of_mem_set _ hi
  rw [View.write_emb_of_mem _ _ (Finset.mem_univ y), View.read_apply, h _ (View.emb_mem_set _ y)]
  unfold landBuf
  rw [Spec.peer_peer, cast_cast, cast_eq, dst0_emb]

theorem land1_agree (c : Dev nD) (fs : (cc0_scratch0 : Ref sig .tc).ty.Contents (Elt F)) (fd : (cc0_scratch1 : Ref sig .tc).ty.Contents (Elt F))
    (h : ∀ i ∈ (src1 : Memref sig .tc .vmem S128x256 .bf16).view.set, fs i = sendBuf m c i) :
    ∀ i ∈ (dst1 : Memref sig .tc .vmem S128x256 .bf16).view.set,
      (dst1 : Memref sig .tc .vmem S128x256 .bf16).view.write (Elt F) fd ((src1 : Memref sig .tc .vmem S128x256 .bf16).view.read (Elt F) fs) Finset.univ i = landBuf m (peer c) i := by
  intro i hi
  obtain ⟨y, rfl⟩ := View.exists_emb_of_mem_set _ hi
  rw [View.write_emb_of_mem _ _ (Finset.mem_univ y), View.read_apply, h _ (View.emb_mem_set _ y)]
  unfold landBuf
  rw [Spec.peer_peer, cast_cast, cast_eq, dst1_emb]

/-- Slot 0 of the send buffer, read back: the first half narrowed. -/
private theorem read_send0 (c : Dev nD) :
    (sM.access q0 : View sig .tc _ _ _).read (Elt F) (sendBuf m c) = k0_pay2 (a0 m c) := by
  unfold sendBuf
  rw [View.read_slice_write_slice_of_disjoint (v := (sM : Memref sig .tc .vmem S2x128x256 .bf16).view) q0 q1 _ _ _
    (by rw [View.setOn_univ, sacc_q0_rect, sacc_q1_rect]; exact q_disj), View.read_write_univ]

/-- Slot 1 of the send buffer, read back: the second half narrowed. -/
private theorem read_send1 (c : Dev nD) :
    (sM.access q1 : View sig .tc _ _ _).read (Elt F) (sendBuf m c) = k0_pay3 (a1 m c) := by
  unfold sendBuf
  rw [View.read_write_univ]

theorem read_land0 (c : Dev nD) (g : (cc0_scratch1 : Ref sig .tc).ty.Contents (Elt F))
    (h : ∀ i ∈ (dst0 : Memref sig .tc .vmem S128x256 .bf16).view.set, g i = landBuf m c i) :
    (rM : Memref sig .tc .vmem S2x128x256 .bf16).view.readAt (Elt F) q0.toLoadRect g = k0_pay2 (a0 m (peer c)) := by
  rw [View.readAt_rect, View.read_congr (v := (rM.access q0 : View sig .tc _ _ _)) (g := landBuf m c) fun i hi => h i (by rw [← racc_q0_set]; exact hi)]
  exact read_send0 m (peer c)

theorem read_land1 (c : Dev nD) (g : (cc0_scratch1 : Ref sig .tc).ty.Contents (Elt F))
    (h : ∀ i ∈ (dst1 : Memref sig .tc .vmem S128x256 .bf16).view.set, g i = landBuf m c i) :
    (rM : Memref sig .tc .vmem S2x128x256 .bf16).view.readAt (Elt F) q1.toLoadRect g = k0_pay3 (a1 m (peer c)) := by
  rw [View.readAt_rect, View.read_congr (v := (rM.access q1 : View sig .tc _ _ _)) (g := landBuf m c) fun i hi => h i (by rw [← racc_q1_set]; exact hi)]
  exact read_send1 m (peer c)

/-! the result -/

/-- The two halves of a [256, 256] block cover it -/
private theorem r_union : (r0 : Rect S256x256).set ∪ (r1 : Rect S256x256).set = Finset.univ := by
  ext i
  have h0 : (i 0).val < 256 := (i 0).isLt
  have h1 : (i 1).val < 256 := (i 1).isLt
  simp only [Finset.mem_union, Finset.mem_univ, iff_true, Rect.mem_set_unit]
  by_cases h : (i 0).val < 128
  · refine Or.inl fun a => ?_
    match a with
    | ⟨0, _⟩ => exact ⟨Nat.zero_le _, by show (i 0).val < 0 + 128; omega⟩
    | ⟨1, _⟩ => exact ⟨Nat.zero_le _, by show (i 1).val < 0 + 256; omega⟩
  · refine Or.inr fun a => ?_
    match a with
    | ⟨0, _⟩ => exact ⟨by show 128 ≤ (i 0).val; omega, by show (i 0).val < 128 + 128; omega⟩
    | ⟨1, _⟩ => exact ⟨Nat.zero_le _, by show (i 1).val < 0 + 256; omega⟩

private theorem oacc_r0_rect : (oM.access r0 : View sig .tc _ _ _).set = (r0 : Rect S256x256).set := View.set_slice_whole cc0_stg1_0 r0
private theorem oacc_r1_rect : (oM.access r1 : View sig .tc _ _ _).set = (r1 : Rect S256x256).set := View.set_slice_whole cc0_stg1_0 r1

/-- The shape casts of the payloads cancel: half 0 of the result is the first half of the block plus the peer's first half
    narrowed and widened back, -/
private theorem half0_eq (c : Dev nD) :
    half0 m c = addf (a0 m c) (extf .f32 (truncf .bf16 (a0 m (peer c)) bitsLt_bf16_f32) bitsLt_bf16_f32) := by
  simp only [half0, k0_pay4, k0_pay2, shapeCast_self, shapeCast_shapeCast]

/-- and half 1 the same of the second halves. -/
private theorem half1_eq (c : Dev nD) :
    half1 m c = addf (a1 m c) (extf .f32 (truncf .bf16 (a1 m (peer c)) bitsLt_bf16_f32) bitsLt_bf16_f32) := by
  simp only [half1, k0_pay1, k0_pay3, shapeCast_self, shapeCast_shapeCast]

/-- A load of half k of the staged block reads the device's block at that half's entries. -/
private theorem a0_apply (c : Dev nD) (y : S128x256.Idx) : a0 m c y = Spec.xarr m c ((r0 : Rect S256x256).emb y) := by
  unfold a0; rw [xstg_eq]; rfl
private theorem a1_apply (c : Dev nD) (y : S128x256.Idx) : a1 m c y = Spec.xarr m c ((r1 : Rect S256x256).emb y) := by
  unfold a1; rw [xstg_eq]; rfl

private theorem half0_apply (c : Dev nD) (y : S128x256.Idx) : half0 m c y = Spec.outVal m c ((r0 : Rect S256x256).emb y) := by
  rw [half0_eq]
  simp only [Spec.outVal, addf, extf, truncf, a0_apply]
private theorem half1_apply (c : Dev nD) (y : S128x256.Idx) : half1 m c y = Spec.outVal m c ((r1 : Rect S256x256).emb y) := by
  rw [half1_eq]
  simp only [Spec.outVal, addf, extf, truncf, a1_apply]

theorem out_eq (c : Dev nD) (g : (cc0_stg1_0 : Ref sig .tc).ty.Contents (Elt F)) :
    (oM.access r1 : View sig .tc _ _ _).write (Elt F) ((oM.access r0 : View sig .tc _ _ _).write (Elt F) g (half0 m c) Finset.univ) (half1 m c) Finset.univ
      = Spec.outVal m c := by
  funext i
  by_cases hi : i ∈ (oM.access r1 : View sig .tc _ _ _).set
  · obtain ⟨y, rfl⟩ := View.exists_emb_of_mem_set _ hi
    rw [View.write_emb_of_mem _ _ (Finset.mem_univ y), half1_apply]
    rfl
  · rw [View.write_of_not_mem _ _ _ (by rw [View.setOn_univ]; exact hi)]
    have hi0 : i ∈ (oM.access r0 : View sig .tc _ _ _).set := by
      have hu := Finset.mem_univ i
      rw [← r_union, Finset.mem_union, ← oacc_r0_rect, ← oacc_r1_rect] at hu
      exact hu.resolve_right hi
    obtain ⟨y, rfl⟩ := View.exists_emb_of_mem_set _ hi0
    rw [View.write_emb_of_mem _ _ (Finset.mem_univ y), half0_apply]
    rfl

/-- info: 'Cert.KernelIdeal.Proto.xstg_eq' depends on axioms: [propext, Classical.choice, Quot.sound] -/
#guard_msgs in #print axioms xstg_eq
/-- info: 'Cert.KernelIdeal.Proto.sacc_q0_set' depends on axioms: [propext, Classical.choice, Quot.sound] -/
#guard_msgs in #print axioms sacc_q0_set
/-- info: 'Cert.KernelIdeal.Proto.sacc_q1_set' depends on axioms: [propext, Classical.choice, Quot.sound] -/
#guard_msgs in #print axioms sacc_q1_set
/-- info: 'Cert.KernelIdeal.Proto.racc_q0_set' depends on axioms: [propext, Classical.choice, Quot.sound] -/
#guard_msgs in #print axioms racc_q0_set
/-- info: 'Cert.KernelIdeal.Proto.racc_q1_set' depends on axioms: [propext, Classical.choice, Quot.sound] -/
#guard_msgs in #print axioms racc_q1_set
/-- info: 'Cert.KernelIdeal.Proto.src_union' depends on axioms: [propext, Classical.choice, Quot.sound] -/
#guard_msgs in #print axioms src_union
/-- info: 'Cert.KernelIdeal.Proto.src_disj' depends on axioms: [propext, Classical.choice, Quot.sound] -/
#guard_msgs in #print axioms src_disj
/-- info: 'Cert.KernelIdeal.Proto.dst_union' depends on axioms: [propext, Classical.choice, Quot.sound] -/
#guard_msgs in #print axioms dst_union
/-- info: 'Cert.KernelIdeal.Proto.dst_disj' depends on axioms: [propext, Classical.choice, Quot.sound] -/
#guard_msgs in #print axioms dst_disj
/-- info: 'Cert.KernelIdeal.Proto.send0_agree' depends on axioms: [propext, Classical.choice, Quot.sound] -/
#guard_msgs in #print axioms send0_agree
/-- info: 'Cert.KernelIdeal.Proto.send1_agree' depends on axioms: [propext, Classical.choice, Quot.sound] -/
#guard_msgs in #print axioms send1_agree
/-- info: 'Cert.KernelIdeal.Proto.land0_agree' depends on axioms: [propext, Classical.choice, Quot.sound] -/
#guard_msgs in #print axioms land0_agree
/-- info: 'Cert.KernelIdeal.Proto.land1_agree' depends on axioms: [propext, Classical.choice, Quot.sound] -/
#guard_msgs in #print axioms land1_agree
/-- info: 'Cert.KernelIdeal.Proto.read_land0' depends on axioms: [propext, Classical.choice, Quot.sound] -/
#guard_msgs in #print axioms read_land0
/-- info: 'Cert.KernelIdeal.Proto.read_land1' depends on axioms: [propext, Classical.choice, Quot.sound] -/
#guard_msgs in #print axioms read_land1
/-- info: 'Cert.KernelIdeal.Proto.out_eq' depends on axioms: [propext, Classical.choice, Quot.sound] -/
#guard_msgs in #print axioms out_eq

end Cert.KernelIdeal.Proto

end
-- ==== Proof.Body.lean ====
/-
  One device's body, stepped once at a symbolic device `c`.

  In program order: the signal to the peer's barrier cell (handing over the landing buffer, slot by slot); half 0 of the
  block narrowed into slot 0 of the send buffer; the wait on the own barrier cell (the peer's landing buffer comes with
  it); transfer 0 of slot 0 into the peer's slot 0; half 1 narrowed into slot 1 while transfer 0 reads slot 0; transfer
  1; the wait on receive cell 0 and half 0 of the result; the wait on receive cell 1 and half 1 of the result; the two
  waits on the send cells, which hand the send buffer's slots back. The body is cut where the printed program is cut.
-/
import proofs.«900502_g7700000000000503_dist_ar_v7x_xyz2x2x2_y_m256_n256_bf16_1_alg».proof.Proof.Proto
import proofs.«900502_g7700000000000503_dist_ar_v7x_xyz2x2x2_y_m256_n256_bf16_1_alg».proof.Proof.Data

noncomputable section

namespace Cert.KernelIdeal.Proto

open Cert.KernelIdeal Cert.KernelIdeal.Gen Cert.KernelIdeal.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Buffers held whole, and slot by slot -/

/-- A whole buffer `b` of device `c` at contents `f`, through the whole memref's view. -/
abbrev wPts (c : Dev nD) (b : Ref sig .tc) (f : Buf (Elt F) ((c : Thread nD τ).loc b)) : sProp 𝕄 :=
  (Memref.whole b : Memref sig .tc _ _ _).view.loc (c : Thread nD τ) ↦[(Memref.whole b : Memref sig .tc _ _ _).view.set]{fullShare} f

omit [FloatOps F] in
theorem whole_pts_eq (c : Dev nD) (b : Ref sig .tc) (f : Buf (Elt F) ((c : Thread nD τ).loc b)) :
    ((((c : Thread nD τ).loc b) ↦{fullShare} f) : sProp 𝕄) = wPts c b f := by
  unfold wPts; rw [View.set_whole]

omit [FloatOps F] in
/-- The landing buffer held whole is its two slots. -/
theorem rcv_split (c : Dev nD) (f : Buf (Elt F) ((c : Thread nD τ).loc cc0_scratch1)) :
    ((((c : Thread nD τ).loc cc0_scratch1) ↦{fullShare} f) : sProp 𝕄) ⊣⊢ iprop(rPts0 c f ∗ rPts1 c f) := by
  unfold rPts0 rPts1
  have h := pointsTo_union (Val := Elt F) (Ix := Unit) (Name := ℕ) (U := UU) (Lvl := ℕ)
    (ℓ := (dst0 : Memref sig .tc .vmem S128x256 .bf16).view.loc (c : Thread nD τ)) (q := fullShare) (f := f) dst_disj
  rw [dst_union] at h
  exact h

omit [FloatOps F] in
/-- The send buffer held whole is its two slots. -/
theorem snd_split (c : Dev nD) (f : Buf (Elt F) ((c : Thread nD τ).loc cc0_scratch0)) :
    ((((c : Thread nD τ).loc cc0_scratch0) ↦{fullShare} f) : sProp 𝕄) ⊣⊢ iprop(sPts0 c f ∗ sPts1 c f) := by
  unfold sPts0 sPts1
  have h := pointsTo_union (Val := Elt F) (Ix := Unit) (Name := ℕ) (U := UU) (Lvl := ℕ)
    (ℓ := (src0 : Memref sig .tc .vmem S128x256 .bf16).view.loc (c : Thread nD τ)) (q := fullShare) (f := f) src_disj
  rw [src_union] at h
  exact h

/-! ## What every stage keeps: the invariants, the rounds reached, the levels -/

def pers (K : Dev nD × Fin 5 → ℕ) (c : Dev nD) : sProp 𝕄 :=
  iprop(invs m K c ∗ reached ER (barCell (peer c)) 0 ∗ reached ER (recvCell0 (peer c)) 0 ∗ reached ER (recvCell1 (peer c)) 0
    ∗ reached ER (sendCell0 c) 0 ∗ reached ER (sendCell1 c) 0 ∗ levAts L lv)

instance pers_persistent (K : Dev nD × Fin 5 → ℕ) (c : Dev nD) : BI.Persistent (pers m K c) := by unfold pers; infer_instance

/-! ## Statements 1 to 60: the signal, slot 0 written, the barrier wait -/

theorem payload_bar_peer' (c : Dev nD) (d : Unit) : (sched (F := F) m).payload (barCell (peer c)) 0 d
    = iprop((∃ f, ((dst0 : Memref sig .tc .vmem S128x256 .bf16).view.loc (c : Thread nD τ) ↦[(dst0 : Memref sig .tc .vmem S128x256 .bf16).view.set]{fullShare} f))
        ∗ (∃ f, ((dst1 : Memref sig .tc .vmem S128x256 .bf16).view.loc (c : Thread nD τ) ↦[(dst1 : Memref sig .tc .vmem S128x256 .bf16).view.set]{fullShare} f))) := by
  rw [payload_bar_peer]; rfl

section Part1

attribute [local sl_canon] dev1_eq dev2_eq dev3_eq
attribute [local sl_rounds] duties_bar amount_bar expect_bar payload_bar_peer'

set_option maxHeartbeats 1600000 in
theorem run_part1 (K : Dev nD × Fin 5 → ℕ) (c : Dev nD) (W : Waits sig Unit)
    (fs0 : Buf (Elt F) ((c : Thread nD τ).loc cc0_scratch0)) (fr0 : Buf (Elt F) ((c : Thread nD τ).loc cc0_scratch1))
    (Kt : (Σ' (d0 : Dev nD) (v2 : BitVec 32) (v8 : BitVec 32), BitVec 32) → sProp 𝕄) :
    iprop(pers m K c
        ∗ atPos ER (barCell c) 0 ∅ 0 ∗ dutyTok ER (barCell (peer c)) 0 () ∗ cred (tallyAt (barCell c) () 1)
        ∗ wPts c cc0_scratch0 fs0 ∗ rPts0 c fr0 ∗ rPts1 c fr0 ∗ wPts c cc0_stg0_0 (xstg m c)
        ∗ owes (c : Thread nD τ) (tallyAt (recvCell1 (peer c)) () N + tallyAt (recvCell0 (peer c)) () N + tallyAt (barCell (peer c)) () 1) W
        ∗ (∀ v2 v8 v9, iprop(wPts c cc0_scratch0 ((sM.access q0 : View sig .tc _ _ _).write (Elt F) fs0 (k0_pay2 (a0 m c)) Finset.univ)
              ∗ barPay (F := F) c ∗ wPts c cc0_stg0_0 (xstg m c)
              ∗ owes (c : Thread nD τ) (tallyAt (recvCell1 (peer c)) () N + tallyAt (recvCell0 (peer c)) () N) (insert (SemLoc.reg barS, ()) W))
            -∗ Kt ⟨c, v2, v8, v9⟩))
      ⊢ wp frame (wpE (defs₀ (F := F)) 𝒱₀ c none) Set.univ
          (k0_part1 (Memref.whole cc0_stg0_0) (hstage0_0 0) (Memref.whole cc0_stg1_0) (hstage0_1 0)
            (Memref.whole cc0_scratch0) (Memref.isWhole_whole _) (Memref.whole cc0_scratch1) (Memref.isWhole_whole _) cc0_scratch2 cc0_scratch3) Kt := by
  unfold pers invs rPts0 rPts1
  iintro ⟨⟨⟨#HIbar, #HIs0, #HIs1, #HIr0, #HIr1, #HIbarP, #HIr0P, #HIr1P⟩, #HrBP, #HrR0P, #HrR1P, #HrS0, #HrS1, #Hlev⟩,
    HatB, HtBP, HcB, Hsnd, Hr0, Hr1, Hx, HO, Hk⟩
  sl_unfold [k0_part1]
  sl_exec (disch := simp only [dev1_eq, dev2_eq, dev3_eq])
  -- the wait on the own barrier cell, owing the peer's receive credit only: the peer's landing buffer comes with it
  have hmw := mayWait_bar (F := F) c
  unfold O₂ at hmw
  iapply (Rounds.wp_wait_rest_token 𝒱₀ ER (sched m) (c : Thread nD τ) none (κ := K (c, 0))
      (wpE_semWait_eq 𝒱₀ (c : Thread nD τ) none Set.univ) (Set.mem_univ _) ()
      (O := tallyAt (recvCell1 (peer c)) () N + tallyAt (recvCell0 (peer c)) () N) (W := W) (R := 0) (m := 0) (T := ∅)
      (by rw [expect_bar]; rfl)) $$ [HcB HO HatB]
  · isplitr; · iexact HIbar
    isplitl [HcB]; · iexact HcB
    isplitl [HO]; · iexact HO
    isplitr; · iapply hmw; iexact Hlev
    iexact HatB
  iintro ⟨HO, HatB, -, Hpay⟩
  ihave Hp := (Entails.of_eq (rest_bar m c)) $$ Hpay
  simp only [wp_ret, Prog.pure_eq_ret]
  imodintro; imodintro
  iapply Hk
  isplitl [Hsnd]; · iexact Hsnd
  isplitl [Hp]; · iexact Hp
  isplitl [Hx]; · iexact Hx
  iexact HO

end Part1

/-! ## The two transfers, at the exchange's cells

The transfer of slot k is addressed to a device \`n\` the program computes; that it is the peer is substituted, not
rewritten (the transfer's evidence depends on the device). The source may hold anything that agrees with the send
buffer's contents on slot k; what lands agrees with the peer's landing contents on slot k. -/

theorem wp_send0 (K : Dev nD × Fin 5 → ℕ) (c n : Dev nD) (hn : n = peer c)
    {hsc : (dst0 : Memref sig (Dev.tc n : Thread nD τ).2.kind .vmem S128x256 .bf16).view.ref.isScScratch = false}
    {hsrc : (src0 : Memref sig .tc .vmem S128x256 .bf16).view.WordExact} {hdst : (dst0 : Memref sig .tc .vmem S128x256 .bf16).view.WordExact}
    {hsem : DmaTarget.Typed .vmem (.dma rS0) (.remote (Dev.tc n : Thread nD τ) (dst0 : Memref sig .tc .vmem S128x256 .bf16) (.dma sS0) hsc)}
    {α : Type} {Q : α → sProp 𝕄} {k : PUnit → Prog (TpuEff nD τ sig (Elt F) Λ₀ .tc) α}
    (fs : Buf (Elt F) ((src0 : Memref sig .tc .vmem S128x256 .bf16).view.loc (c : Thread nD τ)))
    (fd : Buf (Elt F) ((dst0 : Memref sig .tc .vmem S128x256 .bf16).view.loc (peer c : Thread nD τ)))
    (h0 : ∀ i ∈ (src0 : Memref sig .tc .vmem S128x256 .bf16).view.set, fs i = sendBuf m c i)
    (O : CellTallies nD τ sig Unit) (W : Waits sig Unit) :
    iprop(cellInv ER (sched m) (K (c, 1)) (sendCell0 c) ∗ cellInv ER (sched m) (K (peer c, 3)) (recvCell0 (peer c))
        ∗ sPts0 c fs ∗ rPts0 (peer c) fd
        ∗ owes (c : Thread nD τ) (O + tallyAt (recvCell0 (peer c)) () N) W
        ∗ dutyTok ER (sendCell0 c) 0 () ∗ reached ER (sendCell0 c) 0
        ∗ dutyTok ER (recvCell0 (peer c)) 0 () ∗ reached ER (recvCell0 (peer c)) 0)
      ⊢ iprop(((cred (tallyAt (sendCell0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src0 (.remote (Dev.tc n : Thread nD τ) dst0 (.dma sS0) hsc) (.dma rS0) hsrc hdst hsem) k) Q) := by
  subst hn
  unfold sPts0 rPts0
  exact Rounds.wp_send_pointsTo 𝒱₀ ER (sched m) (c : Thread nD τ) none (κ₁ := K (c, 1)) (κ₂ := K (peer c, 3))
    (r₁ := 0) (r₂ := 0) (d₁ := ()) (d₂ := ()) (fd := fd)
    (by rw [duties_send0]; exact Finset.mem_singleton_self _) (by rw [duties_recv0]; exact Finset.mem_singleton_self _)
    () () N rfl (amount_send0 m c ()) (amount_recv0 m (peer c) ()) O rfl (W := W)
    (by rw [payload_send0]; unfold sendPay0 sPts0; exact Entails.of_eq (pointsTo_congr h0))
    (by rw [payload_recv0]; unfold recvPay0 rPts0; exact Entails.of_eq (pointsTo_congr (land0_agree m c fs fd h0)))

theorem wp_send1 (K : Dev nD × Fin 5 → ℕ) (c n : Dev nD) (hn : n = peer c)
    {hsc : (dst1 : Memref sig (Dev.tc n : Thread nD τ).2.kind .vmem S128x256 .bf16).view.ref.isScScratch = false}
    {hsrc : (src1 : Memref sig .tc .vmem S128x256 .bf16).view.WordExact} {hdst : (dst1 : Memref sig .tc .vmem S128x256 .bf16).view.WordExact}
    {hsem : DmaTarget.Typed .vmem (.dma rS1) (.remote (Dev.tc n : Thread nD τ) (dst1 : Memref sig .tc .vmem S128x256 .bf16) (.dma sS1) hsc)}
    {α : Type} {Q : α → sProp 𝕄} {k : PUnit → Prog (TpuEff nD τ sig (Elt F) Λ₀ .tc) α}
    (fs : Buf (Elt F) ((src1 : Memref sig .tc .vmem S128x256 .bf16).view.loc (c : Thread nD τ)))
    (fd : Buf (Elt F) ((dst1 : Memref sig .tc .vmem S128x256 .bf16).view.loc (peer c : Thread nD τ)))
    (h1 : ∀ i ∈ (src1 : Memref sig .tc .vmem S128x256 .bf16).view.set, fs i = sendBuf m c i)
    (O : CellTallies nD τ sig Unit) (W : Waits sig Unit) :
    iprop(cellInv ER (sched m) (K (c, 2)) (sendCell1 c) ∗ cellInv ER (sched m) (K (peer c, 4)) (recvCell1 (peer c))
        ∗ sPts1 c fs ∗ rPts1 (peer c) fd
        ∗ owes (c : Thread nD τ) (O + tallyAt (recvCell1 (peer c)) () N) W
        ∗ dutyTok ER (sendCell1 c) 0 () ∗ reached ER (sendCell1 c) 0
        ∗ dutyTok ER (recvCell1 (peer c)) 0 () ∗ reached ER (recvCell1 (peer c)) 0)
      ⊢ iprop(((cred (tallyAt (sendCell1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src1 (.remote (Dev.tc n : Thread nD τ) dst1 (.dma sS1) hsc) (.dma rS1) hsrc hdst hsem) k) Q) := by
  subst hn
  unfold sPts1 rPts1
  exact Rounds.wp_send_pointsTo 𝒱₀ ER (sched m) (c : Thread nD τ) none (κ₁ := K (c, 2)) (κ₂ := K (peer c, 4))
    (r₁ := 0) (r₂ := 0) (d₁ := ()) (d₂ := ()) (fd := fd)
    (by rw [duties_send1]; exact Finset.mem_singleton_self _) (by rw [duties_recv1]; exact Finset.mem_singleton_self _)
    () () N rfl (amount_send1 m c ()) (amount_recv1 m (peer c) ()) O rfl (W := W)
    (by rw [payload_send1]; unfold sendPay1 sPts1; exact Entails.of_eq (pointsTo_congr h1))
    (by rw [payload_recv1]; unfold recvPay1 rPts1; exact Entails.of_eq (pointsTo_congr (land1_agree m c fs fd h1)))

/-! ## Statements 61 to 120: transfer 0, slot 1 written, transfer 1 -/

set_option maxHeartbeats 1600000 in
theorem run_part2 (K : Dev nD × Fin 5 → ℕ) (c : Dev nD) (W : Waits sig Unit)
    (fs1 : Buf (Elt F) ((c : Thread nD τ).loc cc0_scratch0))
    (h0 : ∀ i ∈ (src0 : Memref sig .tc .vmem S128x256 .bf16).view.set, fs1 i = sendBuf m c i)
    (v2 v8 v9 : BitVec 32) (Kt : BitVec 32 → sProp 𝕄) :
    iprop(pers m K c
        ∗ dutyTok ER (sendCell0 c) 0 () ∗ dutyTok ER (sendCell1 c) 0 () ∗ dutyTok ER (recvCell0 (peer c)) 0 () ∗ dutyTok ER (recvCell1 (peer c)) 0 ()
        ∗ wPts c cc0_scratch0 fs1 ∗ barPay (F := F) c ∗ wPts c cc0_stg0_0 (xstg m c)
        ∗ owes (c : Thread nD τ) (tallyAt (recvCell1 (peer c)) () N + tallyAt (recvCell0 (peer c)) () N) W
        ∗ (∀ v58, iprop(cred (tallyAt (sendCell0 c) () N) ∗ cred (tallyAt (sendCell1 c) () N) ∗ wPts c cc0_stg0_0 (xstg m c)
              ∗ owes (c : Thread nD τ) 0 W)
            -∗ Kt v58))
      ⊢ wp frame (wpE (defs₀ (F := F)) 𝒱₀ c none) Set.univ
          (k0_part2 (Memref.whole cc0_stg0_0) (hstage0_0 0) (Memref.whole cc0_stg1_0) (hstage0_1 0)
            (Memref.whole cc0_scratch0) (Memref.isWhole_whole _) (Memref.whole cc0_scratch1) (Memref.isWhole_whole _) cc0_scratch2 cc0_scratch3
            c v2 v8 v9) Kt := by
  rw [k0_part2_eq_skeleton]; unfold k0_part2_skel
  simp only [Prog.lift, Prog.bind_op, Prog.bind_ret, Prog.pure_eq_ret]
  unfold pers invs barPay
  iintro ⟨⟨⟨#HIbar, #HIs0, #HIs1, #HIr0, #HIr1, #HIbarP, #HIr0P, #HIr1P⟩, #HrBP, #HrR0P, #HrR1P, #HrS0, #HrS1, #Hlev⟩,
    HtS0, HtS1, HtR0P, HtR1P, Hsnd, ⟨⟨%fd0, Hd0⟩, ⟨%fd1, Hd1⟩⟩, Hx, HO, Hk⟩
  -- the send buffer, slot by slot
  ihave Hsnd := (Entails.of_eq (whole_pts_eq c cc0_scratch0 fs1).symm) $$ Hsnd
  ihave Hsnd := (snd_split c fs1).1 $$ Hsnd
  icases Hsnd with ⟨Hs0, Hs1⟩
  -- TRANSFER 0: slot 0 into the peer's slot 0
  iapply (wp_send0 m K c _ (dev2_eq c) fs1 fd0 h0 (tallyAt (recvCell1 (peer c)) () N) W) $$ [Hs0 Hd0 HO HtS0 HtR0P]
  · isplitr; · iexact HIs0
    isplitr; · iexact HIr0P
    isplitl [Hs0]; · iexact Hs0
    isplitl [Hd0]; · iexact Hd0
    isplitl [HO]; · iexact HO
    isplitl [HtS0]; · iexact HtS0
    isplitr; · iexact HrS0
    isplitl [HtR0P]; · iexact HtR0P
    iexact HrR0P
  iintro ⟨HcS0, HO⟩
  -- half 1 of the block, narrowed, into slot 1 (slot 0 is being read by transfer 0)
  iapply (wp_load 𝒱₀ (c : Thread nD τ) none Set.univ (m := xM) (by rw [View.set_whole]; exact Finset.subset_univ _)) $$ Hx; iintro Hx
  unfold sPts1
  iapply (wp_load_rect 𝒱₀ (c : Thread nD τ) none Set.univ (m := sM) (r := q1) (by rw [sacc_q1_set])) $$ Hs1; iintro Hs1
  iapply (wp_store 𝒱₀ (c : Thread nD τ) none Set.univ (m := sM) (r := q1) (Mk := Finset.univ) (by rw [← sacc_q1_set]; exact subset_rfl)) $$ Hs1; iintro Hs1
  -- TRANSFER 1: slot 1 into the peer's slot 1
  iapply (wp_send1 m K c _ (dev3_eq c) ((sM.access q1 : View sig .tc _ _ _).write (Elt F) fs1 (k0_pay3 (a1 m c)) Finset.univ) fd1
      (send1_agree m c fs1) 0 W) $$ [Hs1 Hd1 HO HtS1 HtR1P]
  · isplitr; · iexact HIs1
    isplitr; · iexact HIr1P
    isplitl [Hs1]; · unfold sPts1 a1; iexact Hs1
    isplitl [Hd1]; · iexact Hd1
    isplitl [HO]; · rw [zero_add]; iexact HO
    isplitl [HtS1]; · iexact HtS1
    isplitr; · iexact HrS1
    isplitl [HtR1P]; · iexact HtR1P
    iexact HrR1P
  iintro ⟨HcS1, HO⟩
  rw [wp_ret]; imodintro
  iapply Hk
  isplitl [HcS0]; · iexact HcS0
  isplitl [HcS1]; · iexact HcS1
  isplitl [Hx]; · iexact Hx
  iexact HO

/-! ## Statements 121 to 180: the two receive waits, half 0 of the result -/

set_option maxHeartbeats 1600000 in
theorem run_part3 (K : Dev nD × Fin 5 → ℕ) (c : Dev nD) (W : Waits sig Unit)
    (g1 : Buf (Elt F) ((c : Thread nD τ).loc cc0_stg1_0))
    (v2 v8 v9 v58 : BitVec 32) (Kt : Vec F S128x256 .f32 → sProp 𝕄) :
    iprop(pers m K c
        ∗ atPos ER (recvCell0 c) 0 ∅ 0 ∗ atPos ER (recvCell1 c) 0 ∅ 0
        ∗ cred (tallyAt (recvCell0 c) () N) ∗ cred (tallyAt (recvCell1 c) () N)
        ∗ wPts c cc0_stg0_0 (xstg m c) ∗ wPts c cc0_stg1_0 g1
        ∗ owes (c : Thread nD τ) 0 W
        ∗ (iprop(rPts0 c (landBuf m c) ∗ rPts1 c (landBuf m c)
              ∗ atPos ER (recvCell0 c) 1 ∅ 0 ∗ atPos ER (recvCell1 c) 1 ∅ 0
              ∗ wPts c cc0_stg0_0 (xstg m c)
              ∗ wPts c cc0_stg1_0 ((oM.access r0 : View sig .tc _ _ _).write (Elt F) g1 (half0 m c) Finset.univ)
              ∗ owes (c : Thread nD τ) 0 (insert (SemLoc.dma rS1, ()) (insert (SemLoc.dma rS0, ()) W)))
            -∗ Kt (a1 m c)))
      ⊢ wp frame (wpE (defs₀ (F := F)) 𝒱₀ c none) Set.univ
          (k0_part3 (Memref.whole cc0_stg0_0) (hstage0_0 0) (Memref.whole cc0_stg1_0) (hstage0_1 0)
            (Memref.whole cc0_scratch0) (Memref.isWhole_whole _) (Memref.whole cc0_scratch1) (Memref.isWhole_whole _) cc0_scratch2 cc0_scratch3
            v2 v8 v9 v58) Kt := by
  rw [k0_part3_eq_skeleton]; unfold k0_part3_skel
  simp only [Prog.lift, Prog.bind_op, Prog.bind_ret, Prog.pure_eq_ret]
  unfold pers invs
  iintro ⟨⟨⟨#HIbar, #HIs0, #HIs1, #HIr0, #HIr1, #HIbarP, #HIr0P, #HIr1P⟩, #HrBP, #HrR0P, #HrR1P, #HrS0, #HrS1, #Hlev⟩,
    HatR0, HatR1, HcR0, HcR1, Hx, Hout, HO, Hk⟩
  -- the wait on receive cell 0: slot 0 of the landing buffer, holding the peer's slot 0
  iapply (Rounds.wp_wait_rest_token 𝒱₀ ER (sched m) (c : Thread nD τ) none (κ := K (c, 3))
      (wpE_waitDma2_eq 𝒱₀ (c : Thread nD τ) none Set.univ) (Set.mem_univ _) () (O := 0) (W := W) (R := 0) (m := 0) (T := ∅)
      (by rw [Nat.zero_add, expect_recv0])) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hl0 := (Entails.of_eq (rest_recv0 m c)) $$ Hpay
  unfold recvPay0
  -- half 0 of the result: half 0 of the block plus the landed slot 0 widened
  iapply (wp_load 𝒱₀ (c : Thread nD τ) none Set.univ (m := xM) (by rw [View.set_whole]; exact Finset.subset_univ _)) $$ Hx; iintro Hx
  unfold rPts0
  iapply (wp_load_rect 𝒱₀ (c : Thread nD τ) none Set.univ (m := rM) (r := q0) (by rw [racc_q0_set])) $$ Hl0; iintro Hl0
  iapply (wp_load 𝒱₀ (c : Thread nD τ) none Set.univ (m := oM) (by rw [View.set_whole]; exact Finset.subset_univ _)) $$ Hout; iintro Hout
  iapply (wp_store 𝒱₀ (c : Thread nD τ) none Set.univ (m := oM) (r := r0) (Mk := Finset.univ) (by rw [View.set_whole]; exact Finset.subset_univ _)) $$ Hout; iintro Hout
  -- the wait on receive cell 1
  iapply (Rounds.wp_wait_rest_token 𝒱₀ ER (sched m) (c : Thread nD τ) none (κ := K (c, 4))
      (wpE_waitDma2_eq 𝒱₀ (c : Thread nD τ) none Set.univ) (Set.mem_univ _) () (O := 0) (W := insert (SemLoc.dma rS0, ()) W) (R := 0) (m := 0) (T := ∅)
      (by rw [Nat.zero_add, expect_recv1])) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hl1 := (Entails.of_eq (rest_recv1 m c)) $$ Hpay
  unfold recvPay1
  iapply (wp_load 𝒱₀ (c : Thread nD τ) none Set.univ (m := xM) (by rw [View.set_whole]; exact Finset.subset_univ _)) $$ Hx; iintro Hx
  rw [wp_ret]; imodintro
  have ha0 : (xM : Memref sig .tc .vmem S256x256 .f32).view.readAt (Elt F) r0.toLoadRect (xstg m c) = a0 m c := rfl
  have hl0 := read_land0 m c (landBuf m c) (fun _ _ => rfl)
  unfold a1
  iapply Hk
  isplitl [Hl0]; · iexact Hl0
  isplitl [Hl1]; · iexact Hl1
  isplitl [HatR0]; · iexact HatR0
  isplitl [HatR1]; · iexact HatR1
  isplitl [Hx]; · iexact Hx
  isplitl [Hout]
  · unfold half0; rw [← hl0, ← ha0]
    iexact Hout
  iexact HO

/-! ## The whole body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, regrouped: what every stage keeps; the positions; the tokens of the duties the device
    pays; its launch credit; the two scratch buffers; what it owes; the two staged blocks. -/
def bodyPre (K : Dev nD × Fin 5 → ℕ) (c : Dev nD) : sProp 𝕄 :=
  iprop(pers m K c
    ∗ (atPos ER (barCell c) 0 ∅ 0 ∗ atPos ER (sendCell0 c) 0 ∅ 0 ∗ atPos ER (sendCell1 c) 0 ∅ 0 ∗ atPos ER (recvCell0 c) 0 ∅ 0 ∗ atPos ER (recvCell1 c) 0 ∅ 0)
    ∗ (dutyTok ER (barCell (peer c)) 0 () ∗ dutyTok ER (recvCell0 (peer c)) 0 () ∗ dutyTok ER (recvCell1 (peer c)) 0 ()
        ∗ dutyTok ER (sendCell0 c) 0 () ∗ dutyTok ER (sendCell1 c) 0 ())
    ∗ (cred (tallyAt (barCell c) () 1) ∗ cred (tallyAt (recvCell0 c) () N) ∗ cred (tallyAt (recvCell1 c) () N))
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outStg m c))

set_option maxHeartbeats 1600000 in
/-- The body, from \`bodyPre\` to \`bodyPost\`: the three printed parts, then half 1 of the result and the two send waits. -/
theorem sound_body (K : Dev nD × Fin 5 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (hstage0_0 0) (Memref.whole cc0_stg1_0) (hstage0_1 0)
            (Memref.whole cc0_scratch0) (Memref.isWhole_whole _) (Memref.whole cc0_scratch1) (Memref.isWhole_whole _) cc0_scratch2 cc0_scratch3) Kt := by
  rw [cc0_body_eq_skeleton]; unfold cc0_body_skel
  unfold bodyPre
  iintro ⟨⟨#Hpers, ⟨HatB, HatS0, HatS1, HatR0, HatR1⟩, ⟨HtBP, HtR0P, HtR1P, HtS0, HtS1⟩, ⟨HcB, HcR0, HcR1⟩, ⟨%fs0, Hsnd⟩, ⟨%fr0, Hrcv⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ O₂
  -- the buffers through their memrefs' views; the landing buffer slot by slot
  ihave Hx := (Entails.of_eq (whole_pts_eq c cc0_stg0_0 _)) $$ Hx
  ihave Hout := (Entails.of_eq (whole_pts_eq c cc0_stg1_0 _)) $$ Hout
  ihave Hsnd := (Entails.of_eq (whole_pts_eq c cc0_scratch0 _)) $$ Hsnd
  ihave Hrcv := (rcv_split c fr0).1 $$ Hrcv
  icases Hrcv with ⟨Hr0, Hr1⟩
  -- statements 1 to 60
  rw [wp_bind]
  iapply (run_part1 m K c W fs0 fr0 _)
  isplitr; · iexact Hpers
  isplitl [HatB]; · iexact HatB
  isplitl [HtBP]; · iexact HtBP
  isplitl [HcB]; · iexact HcB
  isplitl [Hsnd]; · iexact Hsnd
  isplitl [Hr0]; · iexact Hr0
  isplitl [Hr1]; · iexact Hr1
  isplitl [Hx]; · iexact Hx
  isplitl [HO]; · iexact HO
  iintro %v2 %v8 %v9 ⟨Hsnd, Hbp, Hx, HO⟩
  -- statements 61 to 120
  dsimp only
  rw [wp_bind]
  iapply (run_part2 m K c (insert (SemLoc.reg barS, ()) W) _ (send0_agree m c fs0) v2 v8 v9 _)
  isplitr; · iexact Hpers
  isplitl [HtS0]; · iexact HtS0
  isplitl [HtS1]; · iexact HtS1
  isplitl [HtR0P]; · iexact HtR0P
  isplitl [HtR1P]; · iexact HtR1P
  isplitl [Hsnd]; · iexact Hsnd
  isplitl [Hbp]; · iexact Hbp
  isplitl [Hx]; · iexact Hx
  isplitl [HO]; · iexact HO
  iintro %v58 ⟨HcS0, HcS1, Hx, HO⟩
  -- statements 121 to 180
  rw [wp_bind]
  iapply (run_part3 m K c (insert (SemLoc.reg barS, ()) W) g1 v2 v8 v9 v58 _)
  isplitr; · iexact Hpers
  isplitl [HatR0]; · iexact HatR0
  isplitl [HatR1]; · iexact HatR1
  isplitl [HcR0]; · iexact HcR0
  isplitl [HcR1]; · iexact HcR1
  isplitl [Hx]; · iexact Hx
  isplitl [Hout]; · iexact Hout
  isplitl [HO]; · iexact HO
  iintro ⟨Hl0, Hl1, HatR0, HatR1, Hx, Hout, HO⟩
  -- half 1 of the result: half 1 of the block plus the landed slot 1 widened
  simp only [Prog.lift, Prog.bind_op, Prog.bind_ret, Prog.pure_eq_ret]
  ihave Hq := (Entails.of_eq (show pers m K c = _ from rfl)) $$ Hpers
  unfold pers invs
  icases Hq with ⟨⟨#HIbar, #HIs0, #HIs1, #HIr0, #HIr1, #HIbarP, #HIr0P, #HIr1P⟩, #HrBP, #HrR0P, #HrR1P, #HrS0, #HrS1, #Hlev⟩
  unfold rPts1
  iapply (wp_load_rect 𝒱₀ (c : Thread nD τ) none Set.univ (m := rM) (r := q1) (by rw [racc_q1_set])) $$ Hl1; iintro Hl1
  iapply (wp_load 𝒱₀ (c : Thread nD τ) none Set.univ (m := oM) (by rw [View.set_whole]; exact Finset.subset_univ _)) $$ Hout; iintro Hout
  iapply (wp_store 𝒱₀ (c : Thread nD τ) none Set.univ (m := oM) (r := r1) (Mk := Finset.univ) (by rw [View.set_whole]; exact Finset.subset_univ _)) $$ Hout; iintro Hout
  -- the wait on send cell 0: slot 0 of the send buffer back
  iapply (Rounds.wp_wait_rest_token 𝒱₀ ER (sched m) (c : Thread nD τ) none (κ := K (c, 1))
      (wpE_waitDma2_eq 𝒱₀ (c : Thread nD τ) none Set.univ) (Set.mem_univ _) () (O := 0)
      (W := insert (SemLoc.dma rS1, ()) (insert (SemLoc.dma rS0, ()) (insert (SemLoc.reg barS, ()) W))) (R := 0) (m := 0) (T := ∅)
      (by rw [Nat.zero_add, expect_send0])) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hs0 := (Entails.of_eq (rest_send0 m c)) $$ Hpay
  -- the wait on send cell 1: slot 1 back
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma sS0, ()) (insert (SemLoc.dma rS1, ()) (insert (SemLoc.dma rS0, ()) (insert (SemLoc.reg barS, ()) W)))) (R := 0) (m := 0) (T := ∅)
      (by rw [Nat.zero_add, expect_send1])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hs1 := (Entails.of_eq (rest_send1 m c)) $$ Hpay
  -- the four own cells close: their counters at zero are the device's again
  imod (Rounds.cell_close ER (sched m) (Set.mem_univ (K (c, 1))) (fun h => h) (R := 0 + 1) (duties_later m (sendCell0 c))) $$ [HatS0] with HzS0
  · isplitr; · iexact HIs0
    iexact HatS0
  imod (Rounds.cell_close ER (sched m) (Set.mem_univ (K (c, 2))) (fun h => h) (R := 0 + 1) (duties_later m (sendCell1 c))) $$ [HatS1] with HzS1
  · isplitr; · iexact HIs1
    iexact HatS1
  imod (Rounds.cell_close ER (sched m) (Set.mem_univ (K (c, 3))) (fun h => h) (R := 1) (duties_later m (recvCell0 c))) $$ [HatR0] with HzR0
  · isplitr; · iexact HIr0
    iexact HatR0
  imod (Rounds.cell_close ER (sched m) (Set.mem_univ (K (c, 4))) (fun h => h) (R := 1) (duties_later m (recvCell1 c))) $$ [HatR1] with HzR1
  · isplitr; · iexact HIr1
    iexact HatR1
  rw [wp_ret]; imodintro
  -- the scratch buffers whole again
  unfold sendPay0 sendPay1
  ihave Hsnd := (snd_split c (sendBuf m c)).2 $$ [Hs0 Hs1]
  · isplitl [Hs0]; · iexact Hs0
    iexact Hs1
  ihave Hrcv := (rcv_split c (landBuf m c)).2 $$ [Hl0 Hl1]
  · isplitl [Hl0]; · iexact Hl0
    unfold rPts1; iexact Hl1
  iapply Hk
  unfold bodyPost Φ₁ Dat.owesAt Pipeline.owesWithin
  rw [show (dats m 0 c).owed t₀.succ = 0 from rfl]
  isplitl [Hsnd Hrcv HzS0 HzS1 HzR0 HzR1]
  · isplitl [Hsnd]; · iexists _; iexact Hsnd
    isplitl [Hrcv]; · iexists _; iexact Hrcv
    isplitl [HzS0]; · iexact HzS0
    isplitl [HzS1]; · iexact HzS1
    isplitl [HzR0]; · iexact HzR0
    iexact HzR1
  isplitl [HO]
  · iexists (insert (SemLoc.dma sS1, ()) (insert (SemLoc.dma sS0, ()) (insert (SemLoc.dma rS1, ()) (insert (SemLoc.dma rS0, ()) (insert (SemLoc.reg barS, ()) W)))))
    isplitr; · ipureintro; exact fun _ _ => Or.inl trivial
    iexact HO
  isplitl [Hx]
  · iexists _; isplitr; · (ipureintro; rfl)
    iapply (Entails.of_eq (whole_pts_eq c cc0_stg0_0 _).symm); iexact Hx
  iexists _; isplitr
  · ipureintro
    exact ((congrArg (fun v => (oM.access r1 : View sig .tc _ _ _).write (Elt F) ((oM.access r0 : View sig .tc _ _ _).write (Elt F) g1 (half0 m c) Finset.univ) v Finset.univ)
      (show k0_pay1 (a1 m c) ((rM : Memref sig .tc .vmem S2x128x256 .bf16).view.readAt (Elt F) q1.toLoadRect (landBuf m c)) = half1 m c from by
        unfold half1; rw [read_land1 m c (landBuf m c) (fun _ _ => rfl)])).trans (out_eq m c g1))
  iapply (Entails.of_eq (whole_pts_eq c cc0_stg1_0 _).symm); iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device \`c\`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (hstage0_0 0) (Memref.whole cc0_stg1_0) (hstage0_1 0)
      (Memref.whole cc0_scratch0) (Memref.isWhole_whole _) (Memref.whole cc0_scratch1) (Memref.isWhole_whole _) cc0_scratch2 cc0_scratch3) (fun _ => bodyPost m c)
  unfold bodyPre' Φ₀ start ghost
  iintro ⟨⟨⟨⟨%K, #HI, HatB, HatS0, HatS1, HatR0, HatR1, #HrBP, #HrR0P, #HrR1P, #HrS0, #HrS1, HtBP, HtR0P, HtR1P, HtS0, HtS1⟩, HcB, HcR0, HcR1, #Hlev⟩, Hsnd, Hrcv⟩, Ho, Hx, Hout⟩
  iapply (sound_body m K c fun _ => bodyPost m c)
  unfold bodyPre pers
  isplitr []
  · isplitr
    · isplitr; · iexact HI
      isplitr; · iexact HrBP
      isplitr; · iexact HrR0P
      isplitr; · iexact HrR1P
      isplitr; · iexact HrS0
      isplitr; · iexact HrS1
      iexact Hlev
    isplitl [HatB HatS0 HatS1 HatR0 HatR1]
    · isplitl [HatB]; · iexact HatB
      isplitl [HatS0]; · iexact HatS0
      isplitl [HatS1]; · iexact HatS1
      isplitl [HatR0]; · iexact HatR0
      iexact HatR1
    isplitl [HtBP HtR0P HtR1P HtS0 HtS1]
    · isplitl [HtBP]; · iexact HtBP
      isplitl [HtR0P]; · iexact HtR0P
      isplitl [HtR1P]; · iexact HtR1P
      isplitl [HtS0]; · iexact HtS0
      iexact HtS1
    isplitl [HcB HcR0 HcR1]
    · isplitl [HcB]; · iexact HcB
      isplitl [HcR0]; · iexact HcR0
      iexact HcR1
    isplitl [Hsnd]; · iexact Hsnd
    isplitl [Hrcv]; · iexact Hrcv
    isplitl [Ho]; · iexact Ho
    isplitl [Hx] <;> iassumption
  · iintro H; iexact H

/-- info: 'Cert.KernelIdeal.Proto.body_obligation' depends on axioms: [propext, Classical.choice, Quot.sound] -/
#guard_msgs in #print axioms body_obligation

end Cert.KernelIdeal.Proto

end
-- ==== Proof.Launch.lean ====
/-
  The launch of the exchange.

  Every device starts from zero counters. The launch element is split between the staging pipeline's cells and the
  exchange's five cells per device. Funding the exchange's half gives, per cell, its round state at counter zero, the
  mark that round 0 is reached, its owner's position, and the token of its one duty. Each device then allocates the
  invariants of its own five cells from their counters at zero, and the duty tokens are dealt around the involution
  peer: a device keeps the tokens of its own two send cells and takes those of its peer's barrier cell and two receive
  cells, the duties it pays. What every device owes at launch sums, cell by cell, to the credit its peer waits with.
  The result array ends as what the one write-back wrote over the whole of it; the input array is never written.
-/
import proofs.«900502_g7700000000000503_dist_ar_v7x_xyz2x2x2_y_m256_n256_bf16_1_alg».proof.Proof.Proto
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the kernel's own semaphores; the cells and tokens of the launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Each cell has one duty, in round 0. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg (fun x : GSem nD τ sig × ℕ × Unit => x.1) h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device c's own five cells. -/
def toks (c : Dev nD) : sProp 𝕄 :=
  iprop(dutyTok ER (barCell c) 0 () ∗ dutyTok ER (sendCell0 c) 0 () ∗ dutyTok ER (sendCell1 c) 0 ()
    ∗ dutyTok ER (recvCell0 c) 0 () ∗ dutyTok ER (recvCell1 c) 0 ())

/-- What the launch element deals device c. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the invariants allocated per device -/

/-- The four transfer semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell0 c) 0 ∗ semVal (sendCell1 c) 0 ∗ semVal (recvCell0 c) 0 ∗ semVal (recvCell1 c) 0) := by
  rw [Pipeline.ownSems0_eq_of_list c osem [0, 1, 2, 3] (by decide) (by decide)]; rfl
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3]; · iexact H3
  iexact H4

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 5 => iprop(∃ κ : ℕ, cellInv ER (sched m) κ (kcell (c, k))))
          ∗ (bigSep Finset.univ fun k : Fin 5 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k : Fin 5 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Regrouping: every device's ghost state from all the devices' allocations -/

def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device c pays: its peer's barrier duty, its peer's two receive duties, its own two send duties. -/
def payToks (c : Dev nD) : sProp 𝕄 :=
  iprop(dutyTok ER (barCell (peer c)) 0 () ∗ dutyTok ER (recvCell0 (peer c)) 0 () ∗ dutyTok ER (recvCell1 (peer c)) 0 ()
    ∗ dutyTok ER (sendCell0 c) 0 () ∗ dutyTok ER (sendCell1 c) 0 ())
/-- What stays with device c alone: its five positions and those tokens. -/
def linear (c : Dev nD) : sProp 𝕄 :=
  iprop((atPos ER (barCell c) 0 ∅ 0 ∗ atPos ER (sendCell0 c) 0 ∅ 0 ∗ atPos ER (sendCell1 c) 0 ∅ 0 ∗ atPos ER (recvCell0 c) 0 ∅ 0 ∗ atPos ER (recvCell1 c) 0 ∅ 0)
    ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaS0, HaS1, HaR0, HaR1⟩, HtB, HtR0, HtR1, HtS0, HtS1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [HaB]; · iexact HaB
  isplitl [HaS0]; · iexact HaS0
  isplitl [HaS1]; · iexact HaS1
  isplitl [HaR0]; · iexact HaR0
  isplitl [HaR1]; · iexact HaR1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitl [HtB]; · iexact HtB
  isplitl [HtR0]; · iexact HtR0
  isplitl [HtR1]; · iexact HtR1
  isplitl [HtS0]; · iexact HtS0
  iexact HtS1

theorem peerEquiv_apply (c : Dev nD) : peerEquiv c = peer c := rfl

/-- The tokens dealt around the involution: a device's barrier token and its two receive tokens go to its peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv peerEquiv (fun c : Dev nD => (dutyTok ER (barCell c) 0 () : sProp 𝕄)),
    bigSep_univ_equiv peerEquiv (fun c : Dev nD => (dutyTok ER (recvCell0 c) 0 () : sProp 𝕄)),
    bigSep_univ_equiv peerEquiv (fun c : Dev nD => (dutyTok ER (recvCell1 c) 0 () : sProp 𝕄))]
  simp only [peerEquiv_apply]
  iintro ⟨HB, HS0, HS1, HR0, HR1⟩
  isplitl [HB]; · iexact HB
  isplitl [HR0]; · iexact HR0
  isplitl [HR1]; · iexact HR1
  isplitl [HS0]; · iexact HS0
  iexact HS1

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 5 => iprop(∃ κ : ℕ, cellInv ER (sched m) κ (kcell (c, k))))
          ∗ (bigSep Finset.univ fun k : Fin 5 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices owe sums, at device c, to one unit on its barrier cell and the slot's credit on each receive cell:
    each is owed by its peer alone. -/
theorem creds (c : Dev nD) :
    (Pipeline.launchCred O₀ c : sProp 𝕄)
      ⊢ iprop(cred (tallyAt (barCell c) () 1) ∗ cred (tallyAt (recvCell0 c) () N) ∗ cred (tallyAt (recvCell1 c) () N)) := by
  have e1 : (Pipeline.launchCred O₀ c : sProp 𝕄)
      = iprop(Pipeline.launchCred O₂ c ∗ Pipeline.launchCred (fun d : Dev nD => (tallyAt (barCell (peer d)) () 1 : CellTallies nD τ sig Unit)) c) :=
    Pipeline.launchCred_add O₂ (fun d : Dev nD => (tallyAt (barCell (peer d)) () 1 : CellTallies nD τ sig Unit)) c
  have e2 : (Pipeline.launchCred O₂ c : sProp 𝕄)
      = iprop(Pipeline.launchCred (fun d : Dev nD => (tallyAt (recvCell1 (peer d)) () N : CellTallies nD τ sig Unit)) c
          ∗ Pipeline.launchCred (fun d : Dev nD => (tallyAt (recvCell0 (peer d)) () N : CellTallies nD τ sig Unit)) c) :=
    Pipeline.launchCred_add (fun d : Dev nD => (tallyAt (recvCell1 (peer d)) () N : CellTallies nD τ sig Unit))
      (fun d : Dev nD => (tallyAt (recvCell0 (peer d)) () N : CellTallies nD τ sig Unit)) c
  rw [e1, e2]
  iintro ⟨⟨H1, H0⟩, HB⟩
  isplitl [HB]; · iapply (Pipeline.launchCred_tallyAt (SemLoc.reg barS) peer peer peer_peer peer_peer () 1 c); iexact HB
  isplitl [H0]; · iapply (Pipeline.launchCred_tallyAt (SemLoc.dma rS0) peer peer peer_peer peer_peer () N c); iexact H0
  iapply (Pipeline.launchCred_tallyAt (SemLoc.dma rS1) peer peer peer_peer peer_peer () N c); iexact H1

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H0, H1⟩
  imodintro
  unfold start G'
  isplitl
  · isplitl [HG]; · iexact HG
    isplitl [HB]; · iexact HB
    isplitl [H0]; · iexact H0
    isplitl [H1]; · iexact H1
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr0, Hr1, HS0, HS1, HR0, HR1⟩
  isplitr; · iempintro
  isplitl [HS0 HS1 HR0 HR1]
  · isplitl [HS0]; · iexact HS0
    isplitl [HS1]; · iexact HS1
    isplitl [HR0]; · iexact HR0
    iexact HR1
  isplitl [Hr0]; · iexact Hr0
  iexact Hr1

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ## The final arrays -/

/-- The result array after the one point: the write-back writes the staged result over the whole array. -/
theorem final_out (c : Dev nD) : (dats m 0 c).arrAt (1 : Fin 2) cfg0.N = Spec.outVal m c := by
  have h := (dats m 0 c).arrAt_succ (1 : Fin 2) t₀
  rw [if_pos (flush0_1 t₀)] at h
  rw [cfg0_N]
  refine h.trans ?_
  exact Memref.write_access_unit_zero_univ (Elt F) main_v1 (funext fun a => Nat.zero_mul _) _ _ _

/-! ## The run -/

set_option maxRecDepth 8000 in
/-- At the compiled mesh of eight devices, for any float values, from any memory with zero counters: every weakly fair
    execution of @main terminates, and every final state has each device's result array at its block plus its peer's
    narrowed and widened, and its input array unchanged. -/
theorem run_main (hbody : ∀ c : Dev nD, BodyObligation (dats (F := F) m 0 c) (defs₀ (F := F)) 𝒱₀ () Set.univ) :
    θ_run (defs (F := F)) (onTc (τ := τ) (main (F := F))) ⟨m, fun _ => 0, ρ⟩
      (fun r => ∀ c : Dev nD,
        r.2.mem ((c.tc : Thread nD τ).loc main_v1) = Spec.outVal m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨((h c).1 1).trans (final_out m c), ((h c).1 0).trans ((dats (F := F) m 0 c).arrAt_in (0 : Fin 2) rfl _)⟩)

/-- info: 'Cert.KernelIdeal.Proto.run_main' depends on axioms: [propext, Classical.choice, Quot.sound] -/
#guard_msgs in #print axioms run_main

end Cert.KernelIdeal.Proto

end
-- ==== Proof.KernelSpec.lean ====
/-
  The mathematics of the kernel, free of any protocol.

  The eight devices form the mesh x = 2, y = 2, z = 2, device `c` at (c / 4, c / 2 % 2, c % 2); the input array
  f32[512, 256] is cut along its rows in two blocks by the y coordinate, so device `c` holds rows
  [256 (c / 2 % 2), 256 (c / 2 % 2) + 256). Each device exchanges its block, narrowed to bf16, with the one device that
  differs from it in the y coordinate alone (`peer`, an involution), and ends with its own block plus the block it
  received, widened back: on every device the sum of the two row blocks.
-/
import proofs.«900502_g7700000000000503_dist_ar_v7x_xyz2x2x2_y_m256_n256_bf16_1_alg».proof.Proof.Gen.Kernel

noncomputable section

namespace Cert.Kernel.Spec

open Cert.Kernel Cert.Kernel.Gen
open Idealize.ShloMosaic Idealize.ShloMosaic.TcCoe Idealize.SL.Sem

variable {F : FTy → Type} [FloatOps F]

/-- The device that differs from `c` in the y coordinate alone: `c` with bit 1 flipped. -/
def peer (c : Dev nD) : Dev nD :=
  ⟨(4 * (c.val / 4) + (c.val % 2) + 2) - 2 * ((c.val / 2) % 2), by have h : c.val < 8 := c.isLt; show _ < 8; omega⟩

theorem peer_peer (c : Dev nD) : peer (peer c) = c := by revert c; decide
theorem peer_ne (c : Dev nD) : peer c ≠ c := by revert c; decide

/-- The three device chains of the kernel all name the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

variable (m : (ℓ : Loc nD τ sig) → Buf (Elt F) ℓ)

/-- Device `c`'s block of the input, as launched. -/
def xarr (c : Dev nD) : Vec F S256x256 .f32 := m ((c : Thread nD τ).loc main_arg0)

/-- What device `c` ends with: its own block plus its peer's block narrowed to bf16 and widened back, entry by entry. -/
def outVal (c : Dev nD) : Vec F S256x256 .f32 :=
  addf (xarr m c) (extf .f32 (truncf .bf16 (xarr m (peer c)) bitsLt_bf16_f32) bitsLt_bf16_f32)

end Cert.Kernel.Spec

end
-- ==== Proof.KernelContents.lean ====
/-
  The buffers of one device's kernel and what they hold.

  A device stages its block of the input (256 rows) and its result, and has two scratch buffers of two slots of 128
  rows in bf16: the one it sends from and the one its peer's transfers land in. Slot k of the send buffer is rows
  [128 k, 128 k + 128) of the device's block narrowed to bf16; the peer's slot k lands in slot k of the landing
  buffer; half k of the result is half k of the block plus the landed slot k widened.
-/
import proofs.«900502_g7700000000000503_dist_ar_v7x_xyz2x2x2_y_m256_n256_bf16_1_alg».proof.Proof.KernelSpec
import proofs.«900502_g7700000000000503_dist_ar_v7x_xyz2x2x2_y_m256_n256_bf16_1_alg».proof.Proof.Gen.Kernel.Skeleton

noncomputable section

namespace Cert.Kernel.Proto

open Cert.Kernel Cert.Kernel.Gen Cert.Kernel.Spec
open Idealize.ShloMosaic Idealize.ShloMosaic.TcCoe Idealize.SL.Sem

variable {F : FTy → Type} [FloatOps F]

/-! ## The memrefs the body is called with, the two halves and the two slots -/

abbrev xM : Memref sig .tc .vmem S256x256 .f32 := Memref.whole cc0_stg0_0
abbrev oM : Memref sig .tc .vmem S256x256 .f32 := Memref.whole cc0_stg1_0
abbrev sM : Memref sig .tc .vmem S2x128x256 .bf16 := Memref.whole cc0_scratch0
abbrev rM : Memref sig .tc .vmem S2x128x256 .bf16 := Memref.whole cc0_scratch1

/-- Rows [0, 128) and rows [128, 256) of a staged block. -/
abbrev r0 : Rect S256x256 := Rect.unit (s := S256x256) ![0, 0] S128x256.size inb_S256x256_S128x256_0_0
abbrev r1 : Rect S256x256 := Rect.unit (s := S256x256) ![128, 0] S128x256.size inb_S256x256_S128x256_128_0
/-- Slot 0 and slot 1 of a scratch buffer. -/
abbrev q0 : Rect S2x128x256 := Rect.unit (s := S2x128x256) ![0, 0, 0] S1x128x256.size inb_S2x128x256_S1x128x256_0_0_0
abbrev q1 : Rect S2x128x256 := Rect.unit (s := S2x128x256) ![1, 0, 0] S1x128x256.size inb_S2x128x256_S1x128x256_1_0_0

/-- The transfers' ends: slot k of the send buffer, slot k of the landing buffer, as 128 x 256 memrefs. -/
abbrev src0 : Memref sig .tc .vmem S128x256 .bf16 := (sM.slice q0 (fun _ => rfl)).squeeze S128x256 squeezes_S1x128x256_S128x256
abbrev src1 : Memref sig .tc .vmem S128x256 .bf16 := (sM.slice q1 (fun _ => rfl)).squeeze S128x256 squeezes_S1x128x256_S128x256
abbrev dst0 : Memref sig .tc .vmem S128x256 .bf16 := (rM.slice q0 (fun _ => rfl)).squeeze S128x256 squeezes_S1x128x256_S128x256
abbrev dst1 : Memref sig .tc .vmem S128x256 .bf16 := (rM.slice q1 (fun _ => rfl)).squeeze S128x256 squeezes_S1x128x256_S128x256

/-! ## Contents -/

variable (m : (ℓ : Loc nD τ sig) → Buf (Elt F) ℓ)

/-- The staged block of device `c`: its block of the input as launched. -/
def xstg (c : Dev nD) : (cc0_stg0_0 : Ref sig .tc).ty.Contents (Elt F) :=
  (win0_0.blk (0 : Fin 1)).view.read (Elt F) (m ((c : Thread nD τ).loc main_arg0))

/-- Rows [0, 128) and rows [128, 256) of the staged block, as the body's loads read them. -/
def a0 (c : Dev nD) : Vec F S128x256 .f32 := (xM : Memref sig .tc .vmem S256x256 .f32).view.readAt (Elt F) r0.toLoadRect (xstg m c)
def a1 (c : Dev nD) : Vec F S128x256 .f32 := (xM : Memref sig .tc .vmem S256x256 .f32).view.readAt (Elt F) r1.toLoadRect (xstg m c)

/-- Some contents, to lay the two slots over. -/
def base0 : (cc0_scratch0 : Ref sig .tc).ty.Contents (Elt F) := fun _ => Classical.arbitrary _

/-- The send buffer of device `c` once both slots are written: slot k is half k of its block narrowed to bf16. -/
def sendBuf (c : Dev nD) : (cc0_scratch0 : Ref sig .tc).ty.Contents (Elt F) :=
  (sM.access q1 : View sig .tc _ _ _).write (Elt F)
    ((sM.access q0 : View sig .tc _ _ _).write (Elt F) base0 (k0_pay2 (a0 m c)) Finset.univ) (k0_pay3 (a1 m c)) Finset.univ

/-- The landing buffer of device `c` once both transfers have landed: its peer's send buffer. -/
def landBuf (c : Dev nD) : (cc0_scratch1 : Ref sig .tc).ty.Contents (Elt F) := sendBuf m (peer c)

/-- The two halves of the result of device `c`. -/
def half0 (c : Dev nD) : FVec F S128x256 .f32 := k0_pay4 (a0 m c) (k0_pay2 (a0 m (peer c)))
def half1 (c : Dev nD) : FVec F S128x256 .f32 := k0_pay1 (a1 m c) (k0_pay3 (a1 m (peer c)))

end Cert.Kernel.Proto

end
-- ==== Proof.KernelProto.lean ====
/-
  The protocol of the exchange, under the rounds discipline.

  Every device has five cells: the runtime's barrier semaphore (entry handshake), two send semaphores and two
  receive semaphores (one pair per slot). Each cell has ONE round of ONE duty:
  * the barrier cell of device `c` is paid one unit by its peer's signal, which hands `c` the peer's landing buffer,
    slot by slot: what `c`'s transfers into the peer need;
  * receive cell k of `c` is paid the slot's credit by the peer's transfer k, which hands `c` slot k of its landing
    buffer holding the peer's slot k;
  * send cell k of `c` is paid by `c`'s own transfer k, which hands slot k of the send buffer back.
  A device waits on its barrier cell owing only receive credit of its peer, and on its receive and send cells owing
  nothing: barrier cells sit at level 1, receive cells at level 2, everything else at level 0.
-/
import proofs.«900502_g7700000000000503_dist_ar_v7x_xyz2x2x2_y_m256_n256_bf16_1_alg».proof.Proof.KernelContents
import proofs.«900502_g7700000000000503_dist_ar_v7x_xyz2x2x2_y_m256_n256_bf16_1_alg».proof.Proof.Gen.Kernel.Launch
import proofs.«900502_g7700000000000503_dist_ar_v7x_xyz2x2x2_y_m256_n256_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, both with duties `Unit` -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

def peerEquiv : Dev nD ≃ Dev nD := ⟨peer, peer, peer_peer, peer_peer⟩

/-! ## The semaphores and the cells -/

/-- The runtime's barrier semaphore of collective id 0 (unscoped); the send and receive DMA semaphores of the two slots. -/
abbrev barS : Sem sig := (SemArray.scalar (sig.barrier 0 rfl) : Sems sig S_).sem
abbrev sS0 : DmaSem sig := ((cc0_scratch2.slice (Rect.unit (s := S2) ![0] S1.size inb_S2_S1_0)).squeeze S_ squeezes_S1_S_).sem
abbrev sS1 : DmaSem sig := ((cc0_scratch2.slice (Rect.unit (s := S2) ![1] S1.size inb_S2_S1_1)).squeeze S_ squeezes_S1_S_).sem
abbrev rS0 : DmaSem sig := ((cc0_scratch3.slice (Rect.unit (s := S2) ![0] S1.size inb_S2_S1_0)).squeeze S_ squeezes_S1_S_).sem
abbrev rS1 : DmaSem sig := ((cc0_scratch3.slice (Rect.unit (s := S2) ![1] S1.size inb_S2_S1_1)).squeeze S_ squeezes_S1_S_).sem

abbrev barCell (c : Dev nD) : GSem nD τ sig := ((c : Thread nD τ), .reg barS)
abbrev sendCell0 (c : Dev nD) : GSem nD τ sig := ((c : Thread nD τ), .dma sS0)
abbrev sendCell1 (c : Dev nD) : GSem nD τ sig := ((c : Thread nD τ), .dma sS1)
abbrev recvCell0 (c : Dev nD) : GSem nD τ sig := ((c : Thread nD τ), .dma rS0)
abbrev recvCell1 (c : Dev nD) : GSem nD τ sig := ((c : Thread nD τ), .dma rS1)

/-- The kernel's OWN (scoped) semaphores, as the launch theorem indexes them; -/
abbrev osem : Fin 4 → SemLoc sig := fun | 0 => .dma sS0 | 1 => .dma sS1 | 2 => .dma rS0 | 3 => .dma rS1
/-- all five of the exchange's, as this proof indexes them. -/
abbrev csem : Fin 5 → SemLoc sig := fun | 0 => .reg barS | 1 => .dma sS0 | 2 => .dma sS1 | 3 => .dma rS0 | 4 => .dma rS1
abbrev kcell (ck : Dev nD × Fin 5) : GSem nD τ sig := ((ck.1 : Thread nD τ), csem ck.2)

/-- The credit of one slot's transfer. -/
abbrev N : ℕ := (dst0 : Memref sig .tc .vmem S128x256 .bf16).view.dmaCredit
theorem N_pos : 0 < N := View.dmaCredit_pos _ (by decide)

/-! ## The points-to's of the slots -/

def sPts0 (c : Dev nD) (f : Buf (Elt F) ((src0 : Memref sig .tc .vmem S128x256 .bf16).view.loc (c : Thread nD τ))) : sProp 𝕄 :=
  (src0 : Memref sig .tc .vmem S128x256 .bf16).view.loc (c : Thread nD τ) ↦[(src0 : Memref sig .tc .vmem S128x256 .bf16).view.set]{fullShare} f
def sPts1 (c : Dev nD) (f : Buf (Elt F) ((src1 : Memref sig .tc .vmem S128x256 .bf16).view.loc (c : Thread nD τ))) : sProp 𝕄 :=
  (src1 : Memref sig .tc .vmem S128x256 .bf16).view.loc (c : Thread nD τ) ↦[(src1 : Memref sig .tc .vmem S128x256 .bf16).view.set]{fullShare} f
def rPts0 (c : Dev nD) (f : Buf (Elt F) ((dst0 : Memref sig .tc .vmem S128x256 .bf16).view.loc (c : Thread nD τ))) : sProp 𝕄 :=
  (dst0 : Memref sig .tc .vmem S128x256 .bf16).view.loc (c : Thread nD τ) ↦[(dst0 : Memref sig .tc .vmem S128x256 .bf16).view.set]{fullShare} f
def rPts1 (c : Dev nD) (f : Buf (Elt F) ((dst1 : Memref sig .tc .vmem S128x256 .bf16).view.loc (c : Thread nD τ))) : sProp 𝕄 :=
  (dst1 : Memref sig .tc .vmem S128x256 .bf16).view.loc (c : Thread nD τ) ↦[(dst1 : Memref sig .tc .vmem S128x256 .bf16).view.set]{fullShare} f

omit [FloatOps F] in
instance sPts0_storable (c : Dev nD) (f) : BI.Storable (upEmb : UEmb _ 𝕄) (sPts0 (F := F) c f) := by unfold sPts0; infer_instance
omit [FloatOps F] in
instance sPts1_storable (c : Dev nD) (f) : BI.Storable (upEmb : UEmb _ 𝕄) (sPts1 (F := F) c f) := by unfold sPts1; infer_instance
omit [FloatOps F] in
instance rPts0_storable (c : Dev nD) (f) : BI.Storable (upEmb : UEmb _ 𝕄) (rPts0 (F := F) c f) := by unfold rPts0; infer_instance
omit [FloatOps F] in
instance rPts1_storable (c : Dev nD) (f) : BI.Storable (upEmb : UEmb _ 𝕄) (rPts1 (F := F) c f) := by unfold rPts1; infer_instance

/-! ## The schedule -/

/-- What the peer's signal hands `c`: the peer's landing buffer, slot by slot. -/
def barPay (c : Dev nD) : sProp 𝕄 :=
  iprop((∃ f, rPts0 (peer c) f) ∗ (∃ f, rPts1 (peer c) f))
def sendPay0 (c : Dev nD) : sProp 𝕄 := sPts0 c (sendBuf m c)
def sendPay1 (c : Dev nD) : sProp 𝕄 := sPts1 c (sendBuf m c)
def recvPay0 (c : Dev nD) : sProp 𝕄 := rPts0 c (landBuf m c)
def recvPay1 (c : Dev nD) : sProp 𝕄 := rPts1 c (landBuf m c)

abbrev IsBar (g : GSem nD τ sig) : Prop := g.1.2 = .tc ∧ g.2 = .reg barS
abbrev IsXfer (g : GSem nD τ sig) : Prop := g.1.2 = .tc ∧ (g.2 = .dma sS0 ∨ g.2 = .dma sS1 ∨ g.2 = .dma rS0 ∨ g.2 = .dma rS1)

/-- One round, round 0, one duty a cell: a barrier cell one unit, a send or receive cell the slot's credit. -/
def sched : Rounds.Schedule (GSem nD τ sig) Unit 𝕄 where
  duties g r := if r = 0 ∧ (IsBar g ∨ IsXfer g) then {()} else ∅
  amount g _ _ := if g.2 = .reg barS then 1 else N
  payload g _ _ :=
    if g.2 = .reg barS then barPay g.1.1
    else if g.2 = .dma sS0 then sendPay0 m g.1.1
    else if g.2 = .dma sS1 then sendPay1 m g.1.1
    else if g.2 = .dma rS0 then recvPay0 m g.1.1
    else if g.2 = .dma rS1 then recvPay1 m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1
    else if g.2 = .dma sS0 then sendPay0 m g.1.1
    else if g.2 = .dma sS1 then sendPay1 m g.1.1
    else if g.2 = .dma rS0 then recvPay0 m g.1.1
    else if g.2 = .dma rS1 then recvPay1 m g.1.1
    else iprop(emp))
  unfold barPay sendPay0 sendPay1 recvPay0 recvPay1
  (repeat' split) <;> infer_instance

section Sched
variable (c : Dev nD)

theorem s0_ne_bar : (SemLoc.dma sS0 : SemLoc sig) ≠ .reg barS := fun h => by cases h
theorem s1_ne_bar : (SemLoc.dma sS1 : SemLoc sig) ≠ .reg barS := fun h => by cases h
theorem r0_ne_bar : (SemLoc.dma rS0 : SemLoc sig) ≠ .reg barS := fun h => by cases h
theorem r1_ne_bar : (SemLoc.dma rS1 : SemLoc sig) ≠ .reg barS := fun h => by cases h
theorem s1_ne_s0 : (SemLoc.dma sS1 : SemLoc sig) ≠ .dma sS0 := by decide
theorem r0_ne_s0 : (SemLoc.dma rS0 : SemLoc sig) ≠ .dma sS0 := by decide
theorem r0_ne_s1 : (SemLoc.dma rS0 : SemLoc sig) ≠ .dma sS1 := by decide
theorem r1_ne_s0 : (SemLoc.dma rS1 : SemLoc sig) ≠ .dma sS0 := by decide
theorem r1_ne_s1 : (SemLoc.dma rS1 : SemLoc sig) ≠ .dma sS1 := by decide
theorem r1_ne_r0 : (SemLoc.dma rS1 : SemLoc sig) ≠ .dma rS0 := by decide

theorem duties_bar : (sched (F := F) m).duties (barCell c) 0 = {()} := by dsimp only [sched]; exact if_pos ⟨rfl, .inl ⟨rfl, rfl⟩⟩
theorem duties_send0 : (sched (F := F) m).duties (sendCell0 c) 0 = {()} := by dsimp only [sched]; exact if_pos ⟨rfl, .inr ⟨rfl, .inl rfl⟩⟩
theorem duties_send1 : (sched (F := F) m).duties (sendCell1 c) 0 = {()} := by dsimp only [sched]; exact if_pos ⟨rfl, .inr ⟨rfl, .inr (.inl rfl)⟩⟩
theorem duties_recv0 : (sched (F := F) m).duties (recvCell0 c) 0 = {()} := by dsimp only [sched]; exact if_pos ⟨rfl, .inr ⟨rfl, .inr (.inr (.inl rfl))⟩⟩
theorem duties_recv1 : (sched (F := F) m).duties (recvCell1 c) 0 = {()} := by dsimp only [sched]; exact if_pos ⟨rfl, .inr ⟨rfl, .inr (.inr (.inr rfl))⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send0 (d : Unit) : (sched (F := F) m).amount (sendCell0 c) 0 d = N := by dsimp only [sched]; exact if_neg s0_ne_bar
theorem amount_send1 (d : Unit) : (sched (F := F) m).amount (sendCell1 c) 0 d = N := by dsimp only [sched]; exact if_neg s1_ne_bar
theorem amount_recv0 (d : Unit) : (sched (F := F) m).amount (recvCell0 c) 0 d = N := by dsimp only [sched]; exact if_neg r0_ne_bar
theorem amount_recv1 (d : Unit) : (sched (F := F) m).amount (recvCell1 c) 0 d = N := by dsimp only [sched]; exact if_neg r1_ne_bar

theorem expect_bar : (sched (F := F) m).expect (barCell c) 0 = 1 := by
  unfold Schedule.expect Schedule.amountOf; rw [duties_bar, Finset.sum_singleton, amount_bar]
theorem expect_send0 : (sched (F := F) m).expect (sendCell0 c) 0 = N := by
  unfold Schedule.expect Schedule.amountOf; rw [duties_send0, Finset.sum_singleton, amount_send0]
theorem expect_send1 : (sched (F := F) m).expect (sendCell1 c) 0 = N := by
  unfold Schedule.expect Schedule.amountOf; rw [duties_send1, Finset.sum_singleton, amount_send1]
theorem expect_recv0 : (sched (F := F) m).expect (recvCell0 c) 0 = N := by
  unfold Schedule.expect Schedule.amountOf; rw [duties_recv0, Finset.sum_singleton, amount_recv0]
theorem expect_recv1 : (sched (F := F) m).expect (recvCell1 c) 0 = N := by
  unfold Schedule.expect Schedule.amountOf; rw [duties_recv1, Finset.sum_singleton, amount_recv1]

theorem payload_bar (d : Unit) : (sched (F := F) m).payload (barCell c) 0 d = barPay c := by dsimp only [sched]; rw [if_pos rfl]
/-- The payload of the peer's barrier cell, which `c` pays: `c`'s own landing buffer. -/
theorem payload_bar_peer (d : Unit) : (sched (F := F) m).payload (barCell (peer c)) 0 d
    = iprop((∃ f, rPts0 c f) ∗ (∃ f, rPts1 c f)) := by
  rw [payload_bar]; unfold barPay; rw [peer_peer]
theorem payload_send0 (d : Unit) : (sched (F := F) m).payload (sendCell0 c) 0 d = sendPay0 m c := by
  dsimp only [sched]; rw [if_neg s0_ne_bar, if_pos rfl]
theorem payload_send1 (d : Unit) : (sched (F := F) m).payload (sendCell1 c) 0 d = sendPay1 m c := by
  dsimp only [sched]; rw [if_neg s1_ne_bar, if_neg s1_ne_s0, if_pos rfl]
theorem payload_recv0 (d : Unit) : (sched (F := F) m).payload (recvCell0 c) 0 d = recvPay0 m c := by
  dsimp only [sched]; rw [if_neg r0_ne_bar, if_neg r0_ne_s0, if_neg r0_ne_s1, if_pos rfl]
theorem payload_recv1 (d : Unit) : (sched (F := F) m).payload (recvCell1 c) 0 d = recvPay1 m c := by
  dsimp only [sched]; rw [if_neg r1_ne_bar, if_neg r1_ne_s0, if_neg r1_ne_s1, if_neg r1_ne_r0, if_pos rfl]

/-- The rest of a cell's round, no duty taken, is its one payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_send0 : bigSep ((sched (F := F) m).duties (sendCell0 c) 0 \ ∅) (fun d => (sched (F := F) m).payload (sendCell0 c) 0 d) = sendPay0 m c := by
  rw [Finset.sdiff_empty, duties_send0, bigSep_singleton, payload_send0]
theorem rest_send1 : bigSep ((sched (F := F) m).duties (sendCell1 c) 0 \ ∅) (fun d => (sched (F := F) m).payload (sendCell1 c) 0 d) = sendPay1 m c := by
  rw [Finset.sdiff_empty, duties_send1, bigSep_singleton, payload_send1]
theorem rest_recv0 : bigSep ((sched (F := F) m).duties (recvCell0 c) 0 \ ∅) (fun d => (sched (F := F) m).payload (recvCell0 c) 0 d) = recvPay0 m c := by
  rw [Finset.sdiff_empty, duties_recv0, bigSep_singleton, payload_recv0]
theorem rest_recv1 : bigSep ((sched (F := F) m).duties (recvCell1 c) 0 \ ∅) (fun d => (sched (F := F) m).payload (recvCell1 c) 0 d) = recvPay1 m c := by
  rw [Finset.sdiff_empty, duties_recv1, bigSep_singleton, payload_recv1]

end Sched

/-! ## What each device owes at launch; the levels -/

/-- Device `c` owes its peer's two receive cells the slot's credit each and its peer's barrier cell one unit. -/
def O₂ (c : Dev nD) : CellTallies nD τ sig Unit := tallyAt (recvCell1 (peer c)) () N + tallyAt (recvCell0 (peer c)) () N
def O₀ (c : Dev nD) : CellTallies nD τ sig Unit := O₂ c + tallyAt (barCell (peer c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma rS0 ∨ g.2 = .dma rS1 then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₂_pos {c : Dev nD} {g : GSem nD τ sig} {u : Unit} (h : 0 < O₂ c g u) :
    g = recvCell1 (peer c) ∨ g = recvCell0 (peer c) := by
  unfold O₂ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = recvCell1 (peer c) ∨ g = recvCell0 (peer c) ∨ g = barCell (peer c) := by
  unfold O₀ at h
  rw [Pi.add_apply, Finsupp.add_apply, tallyAt_apply] at h
  by_cases hb : g = barCell (peer c)
  · exact .inr (.inr hb)
  · rw [if_neg (fun h' => hb h'.1), Nat.add_zero] at h
    rcases O₂_pos h with h | h
    · exact .inl h
    · exact .inr (.inl h)

theorem lv_recv0 (c : Dev nD) (u : Unit) : lv (recvCell0 c) u = 2 := by
  dsimp only [lv]; rw [if_neg r0_ne_bar, if_pos (.inl rfl)]
theorem lv_recv1 (c : Dev nD) (u : Unit) : lv (recvCell1 c) u = 2 := by
  dsimp only [lv]; rw [if_neg r1_ne_bar, if_pos (.inr rfl)]
theorem lv_bar (c : Dev nD) (u : Unit) : lv (barCell c) u = 1 := by
  dsimp only [lv]; rw [if_pos rfl]

omit [FloatOps F] in
theorem mayWait_stage (c : Dev nD) (q : DmaSem sig) (hq0 : SemLoc.dma q ≠ .dma rS0) (hq1 : SemLoc.dma q ≠ .dma rS1)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => by rcases h with h | h; exact hq0 h; exact hq1 h)])
      (fun g u hg => by
        rcases O₀_pos hg with rfl | rfl | rfl
        · rw [lv_recv1]; decide
        · rw [lv_recv0]; decide
        · rw [lv_bar]; decide)
  · rw [MayWait_zero]; iintro -; iempintro

omit [FloatOps F] in
/-- At its barrier wait a device owes its peer's receive credit only: receive cells, above its barrier cell. -/
theorem mayWait_bar (c : Dev nD) :
    (levAts L lv : sProp 𝕄) ⊢ MayWait (c : Thread nD τ) (.reg barS) () (O₂ c) :=
  MayOwe.of_cut (L := L) (lev := lv) 1 (fun p hp => by rw [Finset.mem_singleton.mp hp, L_tc]; exact Finset.mem_singleton_self _)
    (fun g u hg => by rcases O₂_pos hg with rfl | rfl <;> exact Finset.mem_singleton_self _)
    (fun p hp => by rw [Finset.mem_singleton.mp hp]; dsimp only [lv]; rw [if_pos rfl])
    (fun g u hg => by
      rcases O₂_pos hg with rfl | rfl
      · rw [lv_recv1]; decide
      · rw [lv_recv0]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its block plus its peer's, narrowed and widened (`Spec.outVal`). -/
def outStg (c : Dev nD) : (cc0_stg1_0 : Ref sig .tc).ty.Contents (Elt F) := Spec.outVal m c

/-- The cells' invariants device `c`'s body opens, under the names `K` the launch allocated them at: its own five, its
    peer's barrier cell (its signal) and its peer's two receive cells (its transfers). -/
def invs (K : Dev nD × Fin 5 → ℕ) (c : Dev nD) : sProp 𝕄 :=
  iprop(cellInv ER (sched m) (K (c, 0)) (barCell c) ∗ cellInv ER (sched m) (K (c, 1)) (sendCell0 c) ∗ cellInv ER (sched m) (K (c, 2)) (sendCell1 c)
    ∗ cellInv ER (sched m) (K (c, 3)) (recvCell0 c) ∗ cellInv ER (sched m) (K (c, 4)) (recvCell1 c)
    ∗ cellInv ER (sched m) (K (peer c, 0)) (barCell (peer c))
    ∗ cellInv ER (sched m) (K (peer c, 3)) (recvCell0 (peer c)) ∗ cellInv ER (sched m) (K (peer c, 4)) (recvCell1 (peer c)))

instance invs_persistent (K : Dev nD × Fin 5 → ℕ) (c : Dev nD) : BI.Persistent (invs m K c) := by unfold invs; infer_instance

/-- The exchange's ghost state device `c` starts from: the invariants; its positions at round 0 of its five cells; the
    reached-marks of the cells it pays and of its own; the five duty tokens it pays with — its peer's barrier duty, its
    peer's two receive duties, its own two send duties. -/
def ghost (K : Dev nD × Fin 5 → ℕ) (c : Dev nD) : sProp 𝕄 :=
  iprop(invs m K c
    ∗ atPos ER (barCell c) 0 ∅ 0 ∗ atPos ER (sendCell0 c) 0 ∅ 0 ∗ atPos ER (sendCell1 c) 0 ∅ 0 ∗ atPos ER (recvCell0 c) 0 ∅ 0 ∗ atPos ER (recvCell1 c) 0 ∅ 0
    ∗ reached ER (barCell (peer c)) 0 ∗ reached ER (recvCell0 (peer c)) 0 ∗ reached ER (recvCell1 (peer c)) 0
    ∗ reached ER (sendCell0 c) 0 ∗ reached ER (sendCell1 c) 0
    ∗ dutyTok ER (barCell (peer c)) 0 () ∗ dutyTok ER (recvCell0 (peer c)) 0 () ∗ dutyTok ER (recvCell1 (peer c)) 0 ()
    ∗ dutyTok ER (sendCell0 c) 0 () ∗ dutyTok ER (sendCell1 c) 0 ())

/-- What device `c`'s body starts from: that at some names, its three credit tokens (its barrier's unit, its receive
    cells' credit) and the level facts. -/
def start (c : Dev nD) : sProp 𝕄 :=
  iprop((∃ K, ghost m K c) ∗ cred (tallyAt (barCell c) () 1) ∗ cred (tallyAt (recvCell0 c) () N) ∗ cred (tallyAt (recvCell1 c) () N) ∗ levAts L lv)

/-- Before the point: that and the two scratch buffers, at some contents. -/
def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the point: the two scratch buffers back, the four OWN cells at zero, closed (the barrier cell is the
    runtime's: nothing to hand back). -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ semVal (sendCell0 c) 0 ∗ semVal (sendCell1 c) 0 ∗ semVal (recvCell0 c) 0 ∗ semVal (recvCell1 c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outStg m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.Kernel.Proto

end
-- ==== Proof.KernelData.lean ====
import proofs.«900502_g7700000000000503_dist_ar_v7x_xyz2x2x2_y_m256_n256_bf16_1_alg».proof.Proof.KernelContents
import Idealize.ShloMosaic.Lib.Pipeline.Value

/-
  View and index algebra of one device's buffers. A scratch buffer of shape [2, 128, 256] is the disjoint union of its
  two slots; a slot seen as a 128 x 256 memref has the same elements as the slot's rectangle. A store through a slot
  fixes the contents on that slot whatever lay under it; a transfer between the same slot of two such buffers carries the
  contents over entry by entry; a load of a slot reads what was stored there. The result block [256, 256] is the disjoint
  union of its two halves of 128 rows, and the two half stores leave, entry by entry, the device's block plus its peer's
  block narrowed and widened back.
-/

noncomputable section

namespace Cert.Kernel.Proto

open Cert.Kernel Cert.Kernel.Gen Cert.Kernel.Spec
open Idealize.ShloMosaic Idealize.ShloMosaic.TcCoe Idealize.SL.Sem

variable {F : FTy → Type} [FloatOps F]
variable (m : (ℓ : Loc nD τ sig) → Buf (Elt F) ℓ)

theorem xstg_eq (c : Dev nD) : xstg m c = Spec.xarr m c :=
  Memref.read_access_unit_zero (Elt F) main_arg0 (funext fun _ => Nat.zero_mul _) _ _

/-! the element sets of the slots -/

/-- The two slots of a [2, 128, 256] shape cover it -/
private theorem q_union : (q0 : Rect S2x128x256).set ∪ (q1 : Rect S2x128x256).set = Finset.univ := by
  ext i
  have h0 : (i 0).val < 2 := (i 0).isLt
  have h1 : (i 1).val < 128 := (i 1).isLt
  have h2 : (i 2).val < 256 := (i 2).isLt
  simp only [Finset.mem_union, Finset.mem_univ, iff_true, Rect.mem_set_unit]
  by_cases h : (i 0).val = 0
  · refine Or.inl fun a => ?_
    match a with
    | ⟨0, _⟩ => exact ⟨Nat.zero_le _, by show (i 0).val < 0 + 1; omega⟩
    | ⟨1, _⟩ => exact ⟨Nat.zero_le _, by show (i 1).val < 0 + 128; omega⟩
    | ⟨2, _⟩ => exact ⟨Nat.zero_le _, by show (i 2).val < 0 + 256; omega⟩
  · refine Or.inr fun a => ?_
    match a with
    | ⟨0, _⟩ => exact ⟨by show 1 ≤ (i 0).val; omega, by show (i 0).val < 1 + 1; omega⟩
    | ⟨1, _⟩ => exact ⟨Nat.zero_le _, by show (i 1).val < 0 + 128; omega⟩
    | ⟨2, _⟩ => exact ⟨Nat.zero_le _, by show (i 2).val < 0 + 256; omega⟩

/-- and are disjoint: they differ on the leading axis. -/
private theorem q_disj : Disjoint (q0 : Rect S2x128x256).set (q1 : Rect S2x128x256).set :=
  Rect.unit_disjoint (0 : Fin S2x128x256.rank) (Or.inl (Nat.le_refl 1))

private theorem sacc_q0_rect : (sM.access q0 : View sig .tc _ _ _).set = (q0 : Rect S2x128x256).set := View.set_slice_whole cc0_scratch0 q0
private theorem sacc_q1_rect : (sM.access q1 : View sig .tc _ _ _).set = (q1 : Rect S2x128x256).set := View.set_slice_whole cc0_scratch0 q1
private theorem racc_q0_rect : (rM.access q0 : View sig .tc _ _ _).set = (q0 : Rect S2x128x256).set := View.set_slice_whole cc0_scratch1 q0
private theorem racc_q1_rect : (rM.access q1 : View sig .tc _ _ _).set = (q1 : Rect S2x128x256).set := View.set_slice_whole cc0_scratch1 q1

theorem sacc_q0_set : (sM.access q0 : View sig .tc _ _ _).set = (src0 : Memref sig .tc .vmem S128x256 .bf16).view.set :=
  (View.set_reshape (sM.access q0 : View sig .tc _ _ _) _).symm
theorem sacc_q1_set : (sM.access q1 : View sig .tc _ _ _).set = (src1 : Memref sig .tc .vmem S128x256 .bf16).view.set :=
  (View.set_reshape (sM.access q1 : View sig .tc _ _ _) _).symm
theorem racc_q0_set : (rM.access q0 : View sig .tc _ _ _).set = (dst0 : Memref sig .tc .vmem S128x256 .bf16).view.set :=
  (View.set_reshape (rM.access q0 : View sig .tc _ _ _) _).symm
theorem racc_q1_set : (rM.access q1 : View sig .tc _ _ _).set = (dst1 : Memref sig .tc .vmem S128x256 .bf16).view.set :=
  (View.set_reshape (rM.access q1 : View sig .tc _ _ _) _).symm
theorem src_union : (src0 : Memref sig .tc .vmem S128x256 .bf16).view.set ∪ (src1 : Memref sig .tc .vmem S128x256 .bf16).view.set = Finset.univ := by
  rw [← sacc_q0_set, ← sacc_q1_set, sacc_q0_rect, sacc_q1_rect]; exact q_union
theorem src_disj : Disjoint (src0 : Memref sig .tc .vmem S128x256 .bf16).view.set (src1 : Memref sig .tc .vmem S128x256 .bf16).view.set := by
  rw [← sacc_q0_set, ← sacc_q1_set, sacc_q0_rect, sacc_q1_rect]; exact q_disj
theorem dst_union : (dst0 : Memref sig .tc .vmem S128x256 .bf16).view.set ∪ (dst1 : Memref sig .tc .vmem S128x256 .bf16).view.set = Finset.univ := by
  rw [← racc_q0_set, ← racc_q1_set, racc_q0_rect, racc_q1_rect]; exact q_union
theorem dst_disj : Disjoint (dst0 : Memref sig .tc .vmem S128x256 .bf16).view.set (dst1 : Memref sig .tc .vmem S128x256 .bf16).view.set := by
  rw [← racc_q0_set, ← racc_q1_set, racc_q0_rect, racc_q1_rect]; exact q_disj

/-! what the slots hold -/

private theorem not_mem_q1_of_mem_q0 {i : (cc0_scratch0 : Ref sig .tc).ty.Idx}
    (hi : i ∈ (src0 : Memref sig .tc .vmem S128x256 .bf16).view.set) :
    i ∉ (sM.access q1 : View sig .tc _ _ _).setOn Finset.univ := by
  rw [View.setOn_univ, sacc_q1_set]
  exact Finset.disjoint_left.mp src_disj hi

theorem send0_agree (c : Dev nD) (f0 : (cc0_scratch0 : Ref sig .tc).ty.Contents (Elt F)) :
    ∀ i ∈ (src0 : Memref sig .tc .vmem S128x256 .bf16).view.set,
      (sM.access q0 : View sig .tc _ _ _).write (Elt F) f0 (k0_pay2 (a0 m c)) Finset.univ i = sendBuf m c i := by
  intro i hi
  unfold sendBuf
  rw [View.write_of_not_mem _ _ _ (not_mem_q1_of_mem_q0 hi)]
  refine View.write_congr (fun _ _ _ => rfl) fun hn => absurd ?_ hn
  rw [View.setOn_univ, sacc_q0_set]; exact hi

theorem send1_agree (c : Dev nD) (f1 : (cc0_scratch0 : Ref sig .tc).ty.Contents (Elt F)) :
    ∀ i ∈ (src1 : Memref sig .tc .vmem S128x256 .bf16).view.set,
      (sM.access q1 : View sig .tc _ _ _).write (Elt F) f1 (k0_pay3 (a1 m c)) Finset.univ i = sendBuf m c i := by
  intro i hi
  unfold sendBuf
  refine View.write_congr (fun _ _ _ => rfl) fun hn => absurd ?_ hn
  rw [View.setOn_univ, sacc_q1_set]; exact hi

/-- The same slot of the two scratch buffers: the same entry of the common shape. -/
private theorem dst0_emb (y : S128x256.Idx) :
    (dst0 : Memref sig .tc .vmem S128x256 .bf16).view.emb y = (src0 : Memref sig .tc .vmem S128x256 .bf16).view.emb y := rfl
private theorem dst1_emb (y : S128x256.Idx) :
    (dst1 : Memref sig .tc .vmem S128x256 .bf16).view.emb y = (src1 : Memref sig .tc .vmem S128x256 .bf16).view.emb y := rfl

theorem land0_agree (c : Dev nD) (fs : (cc0_scratch0 : Ref sig .tc).ty.Contents (Elt F)) (fd : (cc0_scratch1 : Ref sig .tc).ty.Contents (Elt F))
    (h : ∀ i ∈ (src0 : Memref sig .tc .vmem S128x256 .bf16).view.set, fs i = sendBuf m c i) :
    ∀ i ∈ (dst0 : Memref sig .tc .vmem S128x256 .bf16).view.set,
      (dst0 : Memref sig .tc .vmem S128x256 .bf16).view.write (Elt F) fd ((src0 : Memref sig .tc .vmem S128x256 .bf16).view.read (Elt F) fs) Finset.univ i = landBuf m (peer c) i := by
  intro i hi
  obtain ⟨y, rfl⟩ := View.exists_emb_of_mem_set _ hi
  rw [View.write_emb_of_mem _ _ (Finset.mem_univ y), View.read_apply, h _ (View.emb_mem_set _ y)]
  unfold landBuf
  rw [Spec.peer_peer, cast_cast, cast_eq, dst0_emb]

theorem land1_agree (c : Dev nD) (fs : (cc0_scratch0 : Ref sig .tc).ty.Contents (Elt F)) (fd : (cc0_scratch1 : Ref sig .tc).ty.Contents (Elt F))
    (h : ∀ i ∈ (src1 : Memref sig .tc .vmem S128x256 .bf16).view.set, fs i = sendBuf m c i) :
    ∀ i ∈ (dst1 : Memref sig .tc .vmem S128x256 .bf16).view.set,
      (dst1 : Memref sig .tc .vmem S128x256 .bf16).view.write (Elt F) fd ((src1 : Memref sig .tc .vmem S128x256 .bf16).view.read (Elt F) fs) Finset.univ i = landBuf m (peer c) i := by
  intro i hi
  obtain ⟨y, rfl⟩ := View.exists_emb_of_mem_set _ hi
  rw [View.write_emb_of_mem _ _ (Finset.mem_univ y), View.read_apply, h _ (View.emb_mem_set _ y)]
  unfold landBuf
  rw [Spec.peer_peer, cast_cast, cast_eq, dst1_emb]

/-- Slot 0 of the send buffer, read back: the first half narrowed. -/
private theorem read_send0 (c : Dev nD) :
    (sM.access q0 : View sig .tc _ _ _).read (Elt F) (sendBuf m c) = k0_pay2 (a0 m c) := by
  unfold sendBuf
  rw [View.read_slice_write_slice_of_disjoint (v := (sM : Memref sig .tc .vmem S2x128x256 .bf16).view) q0 q1 _ _ _
    (by rw [View.setOn_univ, sacc_q0_rect, sacc_q1_rect]; exact q_disj), View.read_write_univ]

/-- Slot 1 of the send buffer, read back: the second half narrowed. -/
private theorem read_send1 (c : Dev nD) :
    (sM.access q1 : View sig .tc _ _ _).read (Elt F) (sendBuf m c) = k0_pay3 (a1 m c) := by
  unfold sendBuf
  rw [View.read_write_univ]

theorem read_land0 (c : Dev nD) (g : (cc0_scratch1 : Ref sig .tc).ty.Contents (Elt F))
    (h : ∀ i ∈ (dst0 : Memref sig .tc .vmem S128x256 .bf16).view.set, g i = landBuf m c i) :
    (rM : Memref sig .tc .vmem S2x128x256 .bf16).view.readAt (Elt F) q0.toLoadRect g = k0_pay2 (a0 m (peer c)) := by
  rw [View.readAt_rect, View.read_congr (v := (rM.access q0 : View sig .tc _ _ _)) (g := landBuf m c) fun i hi => h i (by rw [← racc_q0_set]; exact hi)]
  exact read_send0 m (peer c)

theorem read_land1 (c : Dev nD) (g : (cc0_scratch1 : Ref sig .tc).ty.Contents (Elt F))
    (h : ∀ i ∈ (dst1 : Memref sig .tc .vmem S128x256 .bf16).view.set, g i = landBuf m c i) :
    (rM : Memref sig .tc .vmem S2x128x256 .bf16).view.readAt (Elt F) q1.toLoadRect g = k0_pay3 (a1 m (peer c)) := by
  rw [View.readAt_rect, View.read_congr (v := (rM.access q1 : View sig .tc _ _ _)) (g := landBuf m c) fun i hi => h i (by rw [← racc_q1_set]; exact hi)]
  exact read_send1 m (peer c)

/-! the result -/

/-- The two halves of a [256, 256] block cover it -/
private theorem r_union : (r0 : Rect S256x256).set ∪ (r1 : Rect S256x256).set = Finset.univ := by
  ext i
  have h0 : (i 0).val < 256 := (i 0).isLt
  have h1 : (i 1).val < 256 := (i 1).isLt
  simp only [Finset.mem_union, Finset.mem_univ, iff_true, Rect.mem_set_unit]
  by_cases h : (i 0).val < 128
  · refine Or.inl fun a => ?_
    match a with
    | ⟨0, _⟩ => exact ⟨Nat.zero_le _, by show (i 0).val < 0 + 128; omega⟩
    | ⟨1, _⟩ => exact ⟨Nat.zero_le _, by show (i 1).val < 0 + 256; omega⟩
  · refine Or.inr fun a => ?_
    match a with
    | ⟨0, _⟩ => exact ⟨by show 128 ≤ (i 0).val; omega, by show (i 0).val < 128 + 128; omega⟩
    | ⟨1, _⟩ => exact ⟨Nat.zero_le _, by show (i 1).val < 0 + 256; omega⟩

private theorem oacc_r0_rect : (oM.access r0 : View sig .tc _ _ _).set = (r0 : Rect S256x256).set := View.set_slice_whole cc0_stg1_0 r0
private theorem oacc_r1_rect : (oM.access r1 : View sig .tc _ _ _).set = (r1 : Rect S256x256).set := View.set_slice_whole cc0_stg1_0 r1

/-- The shape casts of the payloads cancel: half 0 of the result is the first half of the block plus the peer's first half
    narrowed and widened back, -/
private theorem half0_eq (c : Dev nD) :
    half0 m c = addf (a0 m c) (extf .f32 (truncf .bf16 (a0 m (peer c)) bitsLt_bf16_f32) bitsLt_bf16_f32) := by
  simp only [half0, k0_pay4, k0_pay2, shapeCast_self, shapeCast_shapeCast]

/-- and half 1 the same of the second halves. -/
private theorem half1_eq (c : Dev nD) :
    half1 m c = addf (a1 m c) (extf .f32 (truncf .bf16 (a1 m (peer c)) bitsLt_bf16_f32) bitsLt_bf16_f32) := by
  simp only [half1, k0_pay1, k0_pay3, shapeCast_self, shapeCast_shapeCast]

/-- A load of half k of the staged block reads the device's block at that half's entries. -/
private theorem a0_apply (c : Dev nD) (y : S128x256.Idx) : a0 m c y = Spec.xarr m c ((r0 : Rect S256x256).emb y) := by
  unfold a0; rw [xstg_eq]; rfl
private theorem a1_apply (c : Dev nD) (y : S128x256.Idx) : a1 m c y = Spec.xarr m c ((r1 : Rect S256x256).emb y) := by
  unfold a1; rw [xstg_eq]; rfl

private theorem half0_apply (c : Dev nD) (y : S128x256.Idx) : half0 m c y = Spec.outVal m c ((r0 : Rect S256x256).emb y) := by
  rw [half0_eq]
  simp only [Spec.outVal, addf, extf, truncf, a0_apply]
private theorem half1_apply (c : Dev nD) (y : S128x256.Idx) : half1 m c y = Spec.outVal m c ((r1 : Rect S256x256).emb y) := by
  rw [half1_eq]
  simp only [Spec.outVal, addf, extf, truncf, a1_apply]

theorem out_eq (c : Dev nD) (g : (cc0_stg1_0 : Ref sig .tc).ty.Contents (Elt F)) :
    (oM.access r1 : View sig .tc _ _ _).write (Elt F) ((oM.access r0 : View sig .tc _ _ _).write (Elt F) g (half0 m c) Finset.univ) (half1 m c) Finset.univ
      = Spec.outVal m c := by
  funext i
  by_cases hi : i ∈ (oM.access r1 : View sig .tc _ _ _).set
  · obtain ⟨y, rfl⟩ := View.exists_emb_of_mem_set _ hi
    rw [View.write_emb_of_mem _ _ (Finset.mem_univ y), half1_apply]
    rfl
  · rw [View.write_of_not_mem _ _ _ (by rw [View.setOn_univ]; exact hi)]
    have hi0 : i ∈ (oM.access r0 : View sig .tc _ _ _).set := by
      have hu := Finset.mem_univ i
      rw [← r_union, Finset.mem_union, ← oacc_r0_rect, ← oacc_r1_rect] at hu
      exact hu.resolve_right hi
    obtain ⟨y, rfl⟩ := View.exists_emb_of_mem_set _ hi0
    rw [View.write_emb_of_mem _ _ (Finset.mem_univ y), half0_apply]
    rfl

/-- info: 'Cert.Kernel.Proto.xstg_eq' depends on axioms: [propext, Classical.choice, Quot.sound] -/
#guard_msgs in #print axioms xstg_eq
/-- info: 'Cert.Kernel.Proto.sacc_q0_set' depends on axioms: [propext, Classical.choice, Quot.sound] -/
#guard_msgs in #print axioms sacc_q0_set
/-- info: 'Cert.Kernel.Proto.sacc_q1_set' depends on axioms: [propext, Classical.choice, Quot.sound] -/
#guard_msgs in #print axioms sacc_q1_set
/-- info: 'Cert.Kernel.Proto.racc_q0_set' depends on axioms: [propext, Classical.choice, Quot.sound] -/
#guard_msgs in #print axioms racc_q0_set
/-- info: 'Cert.Kernel.Proto.racc_q1_set' depends on axioms: [propext, Classical.choice, Quot.sound] -/
#guard_msgs in #print axioms racc_q1_set
/-- info: 'Cert.Kernel.Proto.src_union' depends on axioms: [propext, Classical.choice, Quot.sound] -/
#guard_msgs in #print axioms src_union
/-- info: 'Cert.Kernel.Proto.src_disj' depends on axioms: [propext, Classical.choice, Quot.sound] -/
#guard_msgs in #print axioms src_disj
/-- info: 'Cert.Kernel.Proto.dst_union' depends on axioms: [propext, Classical.choice, Quot.sound] -/
#guard_msgs in #print axioms dst_union
/-- info: 'Cert.Kernel.Proto.dst_disj' depends on axioms: [propext, Classical.choice, Quot.sound] -/
#guard_msgs in #print axioms dst_disj
/-- info: 'Cert.Kernel.Proto.send0_agree' depends on axioms: [propext, Classical.choice, Quot.sound] -/
#guard_msgs in #print axioms send0_agree
/-- info: 'Cert.Kernel.Proto.send1_agree' depends on axioms: [propext, Classical.choice, Quot.sound] -/
#guard_msgs in #print axioms send1_agree
/-- info: 'Cert.Kernel.Proto.land0_agree' depends on axioms: [propext, Classical.choice, Quot.sound] -/
#guard_msgs in #print axioms land0_agree
/-- info: 'Cert.Kernel.Proto.land1_agree' depends on axioms: [propext, Classical.choice, Quot.sound] -/
#guard_msgs in #print axioms land1_agree
/-- info: 'Cert.Kernel.Proto.read_land0' depends on axioms: [propext, Classical.choice, Quot.sound] -/
#guard_msgs in #print axioms read_land0
/-- info: 'Cert.Kernel.Proto.read_land1' depends on axioms: [propext, Classical.choice, Quot.sound] -/
#guard_msgs in #print axioms read_land1
/-- info: 'Cert.Kernel.Proto.out_eq' depends on axioms: [propext, Classical.choice, Quot.sound] -/
#guard_msgs in #print axioms out_eq

end Cert.Kernel.Proto

end
-- ==== Proof.KernelBody.lean ====
/-
  One device's body, stepped once at a symbolic device `c`.

  In program order: the signal to the peer's barrier cell (handing over the landing buffer, slot by slot); half 0 of the
  block narrowed into slot 0 of the send buffer; the wait on the own barrier cell (the peer's landing buffer comes with
  it); transfer 0 of slot 0 into the peer's slot 0; half 1 narrowed into slot 1 while transfer 0 reads slot 0; transfer
  1; the wait on receive cell 0 and half 0 of the result; the wait on receive cell 1 and half 1 of the result; the two
  waits on the send cells, which hand the send buffer's slots back. The body is cut where the printed program is cut.
-/
import proofs.«900502_g7700000000000503_dist_ar_v7x_xyz2x2x2_y_m256_n256_bf16_1_alg».proof.Proof.KernelProto
import proofs.«900502_g7700000000000503_dist_ar_v7x_xyz2x2x2_y_m256_n256_bf16_1_alg».proof.Proof.KernelData

noncomputable section

namespace Cert.Kernel.Proto

open Cert.Kernel Cert.Kernel.Gen Cert.Kernel.Spec

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Buffers held whole, and slot by slot -/

/-- A whole buffer `b` of device `c` at contents `f`, through the whole memref's view. -/
abbrev wPts (c : Dev nD) (b : Ref sig .tc) (f : Buf (Elt F) ((c : Thread nD τ).loc b)) : sProp 𝕄 :=
  (Memref.whole b : Memref sig .tc _ _ _).view.loc (c : Thread nD τ) ↦[(Memref.whole b : Memref sig .tc _ _ _).view.set]{fullShare} f

omit [FloatOps F] in
theorem whole_pts_eq (c : Dev nD) (b : Ref sig .tc) (f : Buf (Elt F) ((c : Thread nD τ).loc b)) :
    ((((c : Thread nD τ).loc b) ↦{fullShare} f) : sProp 𝕄) = wPts c b f := by
  unfold wPts; rw [View.set_whole]

omit [FloatOps F] in
/-- The landing buffer held whole is its two slots. -/
theorem rcv_split (c : Dev nD) (f : Buf (Elt F) ((c : Thread nD τ).loc cc0_scratch1)) :
    ((((c : Thread nD τ).loc cc0_scratch1) ↦{fullShare} f) : sProp 𝕄) ⊣⊢ iprop(rPts0 c f ∗ rPts1 c f) := by
  unfold rPts0 rPts1
  have h := pointsTo_union (Val := Elt F) (Ix := Unit) (Name := ℕ) (U := UU) (Lvl := ℕ)
    (ℓ := (dst0 : Memref sig .tc .vmem S128x256 .bf16).view.loc (c : Thread nD τ)) (q := fullShare) (f := f) dst_disj
  rw [dst_union] at h
  exact h

omit [FloatOps F] in
/-- The send buffer held whole is its two slots. -/
theorem snd_split (c : Dev nD) (f : Buf (Elt F) ((c : Thread nD τ).loc cc0_scratch0)) :
    ((((c : Thread nD τ).loc cc0_scratch0) ↦{fullShare} f) : sProp 𝕄) ⊣⊢ iprop(sPts0 c f ∗ sPts1 c f) := by
  unfold sPts0 sPts1
  have h := pointsTo_union (Val := Elt F) (Ix := Unit) (Name := ℕ) (U := UU) (Lvl := ℕ)
    (ℓ := (src0 : Memref sig .tc .vmem S128x256 .bf16).view.loc (c : Thread nD τ)) (q := fullShare) (f := f) src_disj
  rw [src_union] at h
  exact h

/-! ## What every stage keeps: the invariants, the rounds reached, the levels -/

def pers (K : Dev nD × Fin 5 → ℕ) (c : Dev nD) : sProp 𝕄 :=
  iprop(invs m K c ∗ reached ER (barCell (peer c)) 0 ∗ reached ER (recvCell0 (peer c)) 0 ∗ reached ER (recvCell1 (peer c)) 0
    ∗ reached ER (sendCell0 c) 0 ∗ reached ER (sendCell1 c) 0 ∗ levAts L lv)

instance pers_persistent (K : Dev nD × Fin 5 → ℕ) (c : Dev nD) : BI.Persistent (pers m K c) := by unfold pers; infer_instance

/-! ## Statements 1 to 60: the signal, slot 0 written, the barrier wait -/

theorem payload_bar_peer' (c : Dev nD) (d : Unit) : (sched (F := F) m).payload (barCell (peer c)) 0 d
    = iprop((∃ f, ((dst0 : Memref sig .tc .vmem S128x256 .bf16).view.loc (c : Thread nD τ) ↦[(dst0 : Memref sig .tc .vmem S128x256 .bf16).view.set]{fullShare} f))
        ∗ (∃ f, ((dst1 : Memref sig .tc .vmem S128x256 .bf16).view.loc (c : Thread nD τ) ↦[(dst1 : Memref sig .tc .vmem S128x256 .bf16).view.set]{fullShare} f))) := by
  rw [payload_bar_peer]; rfl

section Part1

attribute [local sl_canon] dev1_eq dev2_eq dev3_eq
attribute [local sl_rounds] duties_bar amount_bar expect_bar payload_bar_peer'

set_option maxHeartbeats 1600000 in
theorem run_part1 (K : Dev nD × Fin 5 → ℕ) (c : Dev nD) (W : Waits sig Unit)
    (fs0 : Buf (Elt F) ((c : Thread nD τ).loc cc0_scratch0)) (fr0 : Buf (Elt F) ((c : Thread nD τ).loc cc0_scratch1))
    (Kt : (Σ' (d0 : Dev nD) (v2 : BitVec 32) (v8 : BitVec 32), BitVec 32) → sProp 𝕄) :
    iprop(pers m K c
        ∗ atPos ER (barCell c) 0 ∅ 0 ∗ dutyTok ER (barCell (peer c)) 0 () ∗ cred (tallyAt (barCell c) () 1)
        ∗ wPts c cc0_scratch0 fs0 ∗ rPts0 c fr0 ∗ rPts1 c fr0 ∗ wPts c cc0_stg0_0 (xstg m c)
        ∗ owes (c : Thread nD τ) (tallyAt (recvCell1 (peer c)) () N + tallyAt (recvCell0 (peer c)) () N + tallyAt (barCell (peer c)) () 1) W
        ∗ (∀ v2 v8 v9, iprop(wPts c cc0_scratch0 ((sM.access q0 : View sig .tc _ _ _).write (Elt F) fs0 (k0_pay2 (a0 m c)) Finset.univ)
              ∗ barPay (F := F) c ∗ wPts c cc0_stg0_0 (xstg m c)
              ∗ owes (c : Thread nD τ) (tallyAt (recvCell1 (peer c)) () N + tallyAt (recvCell0 (peer c)) () N) (insert (SemLoc.reg barS, ()) W))
            -∗ Kt ⟨c, v2, v8, v9⟩))
      ⊢ wp frame (wpE (defs₀ (F := F)) 𝒱₀ c none) Set.univ
          (k0_part1 (Memref.whole cc0_stg0_0) (hstage0_0 0) (Memref.whole cc0_stg1_0) (hstage0_1 0)
            (Memref.whole cc0_scratch0) (Memref.isWhole_whole _) (Memref.whole cc0_scratch1) (Memref.isWhole_whole _) cc0_scratch2 cc0_scratch3) Kt := by
  unfold pers invs rPts0 rPts1
  iintro ⟨⟨⟨#HIbar, #HIs0, #HIs1, #HIr0, #HIr1, #HIbarP, #HIr0P, #HIr1P⟩, #HrBP, #HrR0P, #HrR1P, #HrS0, #HrS1, #Hlev⟩,
    HatB, HtBP, HcB, Hsnd, Hr0, Hr1, Hx, HO, Hk⟩
  sl_unfold [k0_part1]
  sl_exec (disch := simp only [dev1_eq, dev2_eq, dev3_eq])
  -- the wait on the own barrier cell, owing the peer's receive credit only: the peer's landing buffer comes with it
  have hmw := mayWait_bar (F := F) c
  unfold O₂ at hmw
  iapply (Rounds.wp_wait_rest_token 𝒱₀ ER (sched m) (c : Thread nD τ) none (κ := K (c, 0))
      (wpE_semWait_eq 𝒱₀ (c : Thread nD τ) none Set.univ) (Set.mem_univ _) ()
      (O := tallyAt (recvCell1 (peer c)) () N + tallyAt (recvCell0 (peer c)) () N) (W := W) (R := 0) (m := 0) (T := ∅)
      (by rw [expect_bar]; rfl)) $$ [HcB HO HatB]
  · isplitr; · iexact HIbar
    isplitl [HcB]; · iexact HcB
    isplitl [HO]; · iexact HO
    isplitr; · iapply hmw; iexact Hlev
    iexact HatB
  iintro ⟨HO, HatB, -, Hpay⟩
  ihave Hp := (Entails.of_eq (rest_bar m c)) $$ Hpay
  simp only [wp_ret, Prog.pure_eq_ret]
  imodintro; imodintro
  iapply Hk
  isplitl [Hsnd]; · iexact Hsnd
  isplitl [Hp]; · iexact Hp
  isplitl [Hx]; · iexact Hx
  iexact HO

end Part1

/-! ## The two transfers, at the exchange's cells

The transfer of slot k is addressed to a device \`n\` the program computes; that it is the peer is substituted, not
rewritten (the transfer's evidence depends on the device). The source may hold anything that agrees with the send
buffer's contents on slot k; what lands agrees with the peer's landing contents on slot k. -/

theorem wp_send0 (K : Dev nD × Fin 5 → ℕ) (c n : Dev nD) (hn : n = peer c)
    {hsc : (dst0 : Memref sig (Dev.tc n : Thread nD τ).2.kind .vmem S128x256 .bf16).view.ref.isScScratch = false}
    {hsrc : (src0 : Memref sig .tc .vmem S128x256 .bf16).view.WordExact} {hdst : (dst0 : Memref sig .tc .vmem S128x256 .bf16).view.WordExact}
    {hsem : DmaTarget.Typed .vmem (.dma rS0) (.remote (Dev.tc n : Thread nD τ) (dst0 : Memref sig .tc .vmem S128x256 .bf16) (.dma sS0) hsc)}
    {α : Type} {Q : α → sProp 𝕄} {k : PUnit → Prog (TpuEff nD τ sig (Elt F) Λ₀ .tc) α}
    (fs : Buf (Elt F) ((src0 : Memref sig .tc .vmem S128x256 .bf16).view.loc (c : Thread nD τ)))
    (fd : Buf (Elt F) ((dst0 : Memref sig .tc .vmem S128x256 .bf16).view.loc (peer c : Thread nD τ)))
    (h0 : ∀ i ∈ (src0 : Memref sig .tc .vmem S128x256 .bf16).view.set, fs i = sendBuf m c i)
    (O : CellTallies nD τ sig Unit) (W : Waits sig Unit) :
    iprop(cellInv ER (sched m) (K (c, 1)) (sendCell0 c) ∗ cellInv ER (sched m) (K (peer c, 3)) (recvCell0 (peer c))
        ∗ sPts0 c fs ∗ rPts0 (peer c) fd
        ∗ owes (c : Thread nD τ) (O + tallyAt (recvCell0 (peer c)) () N) W
        ∗ dutyTok ER (sendCell0 c) 0 () ∗ reached ER (sendCell0 c) 0
        ∗ dutyTok ER (recvCell0 (peer c)) 0 () ∗ reached ER (recvCell0 (peer c)) 0)
      ⊢ iprop(((cred (tallyAt (sendCell0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src0 (.remote (Dev.tc n : Thread nD τ) dst0 (.dma sS0) hsc) (.dma rS0) hsrc hdst hsem) k) Q) := by
  subst hn
  unfold sPts0 rPts0
  exact Rounds.wp_send_pointsTo 𝒱₀ ER (sched m) (c : Thread nD τ) none (κ₁ := K (c, 1)) (κ₂ := K (peer c, 3))
    (r₁ := 0) (r₂ := 0) (d₁ := ()) (d₂ := ()) (fd := fd)
    (by rw [duties_send0]; exact Finset.mem_singleton_self _) (by rw [duties_recv0]; exact Finset.mem_singleton_self _)
    () () N rfl (amount_send0 m c ()) (amount_recv0 m (peer c) ()) O rfl (W := W)
    (by rw [payload_send0]; unfold sendPay0 sPts0; exact Entails.of_eq (pointsTo_congr h0))
    (by rw [payload_recv0]; unfold recvPay0 rPts0; exact Entails.of_eq (pointsTo_congr (land0_agree m c fs fd h0)))

theorem wp_send1 (K : Dev nD × Fin 5 → ℕ) (c n : Dev nD) (hn : n = peer c)
    {hsc : (dst1 : Memref sig (Dev.tc n : Thread nD τ).2.kind .vmem S128x256 .bf16).view.ref.isScScratch = false}
    {hsrc : (src1 : Memref sig .tc .vmem S128x256 .bf16).view.WordExact} {hdst : (dst1 : Memref sig .tc .vmem S128x256 .bf16).view.WordExact}
    {hsem : DmaTarget.Typed .vmem (.dma rS1) (.remote (Dev.tc n : Thread nD τ) (dst1 : Memref sig .tc .vmem S128x256 .bf16) (.dma sS1) hsc)}
    {α : Type} {Q : α → sProp 𝕄} {k : PUnit → Prog (TpuEff nD τ sig (Elt F) Λ₀ .tc) α}
    (fs : Buf (Elt F) ((src1 : Memref sig .tc .vmem S128x256 .bf16).view.loc (c : Thread nD τ)))
    (fd : Buf (Elt F) ((dst1 : Memref sig .tc .vmem S128x256 .bf16).view.loc (peer c : Thread nD τ)))
    (h1 : ∀ i ∈ (src1 : Memref sig .tc .vmem S128x256 .bf16).view.set, fs i = sendBuf m c i)
    (O : CellTallies nD τ sig Unit) (W : Waits sig Unit) :
    iprop(cellInv ER (sched m) (K (c, 2)) (sendCell1 c) ∗ cellInv ER (sched m) (K (peer c, 4)) (recvCell1 (peer c))
        ∗ sPts1 c fs ∗ rPts1 (peer c) fd
        ∗ owes (c : Thread nD τ) (O + tallyAt (recvCell1 (peer c)) () N) W
        ∗ dutyTok ER (sendCell1 c) 0 () ∗ reached ER (sendCell1 c) 0
        ∗ dutyTok ER (recvCell1 (peer c)) 0 () ∗ reached ER (recvCell1 (peer c)) 0)
      ⊢ iprop(((cred (tallyAt (sendCell1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src1 (.remote (Dev.tc n : Thread nD τ) dst1 (.dma sS1) hsc) (.dma rS1) hsrc hdst hsem) k) Q) := by
  subst hn
  unfold sPts1 rPts1
  exact Rounds.wp_send_pointsTo 𝒱₀ ER (sched m) (c : Thread nD τ) none (κ₁ := K (c, 2)) (κ₂ := K (peer c, 4))
    (r₁ := 0) (r₂ := 0) (d₁ := ()) (d₂ := ()) (fd := fd)
    (by rw [duties_send1]; exact Finset.mem_singleton_self _) (by rw [duties_recv1]; exact Finset.mem_singleton_self _)
    () () N rfl (amount_send1 m c ()) (amount_recv1 m (peer c) ()) O rfl (W := W)
    (by rw [payload_send1]; unfold sendPay1 sPts1; exact Entails.of_eq (pointsTo_congr h1))
    (by rw [payload_recv1]; unfold recvPay1 rPts1; exact Entails.of_eq (pointsTo_congr (land1_agree m c fs fd h1)))

/-! ## Statements 61 to 120: transfer 0, slot 1 written, transfer 1 -/

set_option maxHeartbeats 1600000 in
theorem run_part2 (K : Dev nD × Fin 5 → ℕ) (c : Dev nD) (W : Waits sig Unit)
    (fs1 : Buf (Elt F) ((c : Thread nD τ).loc cc0_scratch0))
    (h0 : ∀ i ∈ (src0 : Memref sig .tc .vmem S128x256 .bf16).view.set, fs1 i = sendBuf m c i)
    (v2 v8 v9 : BitVec 32) (Kt : BitVec 32 → sProp 𝕄) :
    iprop(pers m K c
        ∗ dutyTok ER (sendCell0 c) 0 () ∗ dutyTok ER (sendCell1 c) 0 () ∗ dutyTok ER (recvCell0 (peer c)) 0 () ∗ dutyTok ER (recvCell1 (peer c)) 0 ()
        ∗ wPts c cc0_scratch0 fs1 ∗ barPay (F := F) c ∗ wPts c cc0_stg0_0 (xstg m c)
        ∗ owes (c : Thread nD τ) (tallyAt (recvCell1 (peer c)) () N + tallyAt (recvCell0 (peer c)) () N) W
        ∗ (∀ v58, iprop(cred (tallyAt (sendCell0 c) () N) ∗ cred (tallyAt (sendCell1 c) () N) ∗ wPts c cc0_stg0_0 (xstg m c)
              ∗ owes (c : Thread nD τ) 0 W)
            -∗ Kt v58))
      ⊢ wp frame (wpE (defs₀ (F := F)) 𝒱₀ c none) Set.univ
          (k0_part2 (Memref.whole cc0_stg0_0) (hstage0_0 0) (Memref.whole cc0_stg1_0) (hstage0_1 0)
            (Memref.whole cc0_scratch0) (Memref.isWhole_whole _) (Memref.whole cc0_scratch1) (Memref.isWhole_whole _) cc0_scratch2 cc0_scratch3
            c v2 v8 v9) Kt := by
  rw [k0_part2_eq_skeleton]; unfold k0_part2_skel
  simp only [Prog.lift, Prog.bind_op, Prog.bind_ret, Prog.pure_eq_ret]
  unfold pers invs barPay
  iintro ⟨⟨⟨#HIbar, #HIs0, #HIs1, #HIr0, #HIr1, #HIbarP, #HIr0P, #HIr1P⟩, #HrBP, #HrR0P, #HrR1P, #HrS0, #HrS1, #Hlev⟩,
    HtS0, HtS1, HtR0P, HtR1P, Hsnd, ⟨⟨%fd0, Hd0⟩, ⟨%fd1, Hd1⟩⟩, Hx, HO, Hk⟩
  -- the send buffer, slot by slot
  ihave Hsnd := (Entails.of_eq (whole_pts_eq c cc0_scratch0 fs1).symm) $$ Hsnd
  ihave Hsnd := (snd_split c fs1).1 $$ Hsnd
  icases Hsnd with ⟨Hs0, Hs1⟩
  -- TRANSFER 0: slot 0 into the peer's slot 0
  iapply (wp_send0 m K c _ (dev2_eq c) fs1 fd0 h0 (tallyAt (recvCell1 (peer c)) () N) W) $$ [Hs0 Hd0 HO HtS0 HtR0P]
  · isplitr; · iexact HIs0
    isplitr; · iexact HIr0P
    isplitl [Hs0]; · iexact Hs0
    isplitl [Hd0]; · iexact Hd0
    isplitl [HO]; · iexact HO
    isplitl [HtS0]; · iexact HtS0
    isplitr; · iexact HrS0
    isplitl [HtR0P]; · iexact HtR0P
    iexact HrR0P
  iintro ⟨HcS0, HO⟩
  -- half 1 of the block, narrowed, into slot 1 (slot 0 is being read by transfer 0)
  iapply (wp_load 𝒱₀ (c : Thread nD τ) none Set.univ (m := xM) (by rw [View.set_whole]; exact Finset.subset_univ _)) $$ Hx; iintro Hx
  unfold sPts1
  iapply (wp_load_rect 𝒱₀ (c : Thread nD τ) none Set.univ (m := sM) (r := q1) (by rw [sacc_q1_set])) $$ Hs1; iintro Hs1
  iapply (wp_store 𝒱₀ (c : Thread nD τ) none Set.univ (m := sM) (r := q1) (Mk := Finset.univ) (by rw [← sacc_q1_set]; exact subset_rfl)) $$ Hs1; iintro Hs1
  -- TRANSFER 1: slot 1 into the peer's slot 1
  iapply (wp_send1 m K c _ (dev3_eq c) ((sM.access q1 : View sig .tc _ _ _).write (Elt F) fs1 (k0_pay3 (a1 m c)) Finset.univ) fd1
      (send1_agree m c fs1) 0 W) $$ [Hs1 Hd1 HO HtS1 HtR1P]
  · isplitr; · iexact HIs1
    isplitr; · iexact HIr1P
    isplitl [Hs1]; · unfold sPts1 a1; iexact Hs1
    isplitl [Hd1]; · iexact Hd1
    isplitl [HO]; · rw [zero_add]; iexact HO
    isplitl [HtS1]; · iexact HtS1
    isplitr; · iexact HrS1
    isplitl [HtR1P]; · iexact HtR1P
    iexact HrR1P
  iintro ⟨HcS1, HO⟩
  rw [wp_ret]; imodintro
  iapply Hk
  isplitl [HcS0]; · iexact HcS0
  isplitl [HcS1]; · iexact HcS1
  isplitl [Hx]; · iexact Hx
  iexact HO

/-! ## Statements 121 to 180: the two receive waits, half 0 of the result -/

set_option maxHeartbeats 1600000 in
theorem run_part3 (K : Dev nD × Fin 5 → ℕ) (c : Dev nD) (W : Waits sig Unit)
    (g1 : Buf (Elt F) ((c : Thread nD τ).loc cc0_stg1_0))
    (v2 v8 v9 v58 : BitVec 32) (Kt : Vec F S128x256 .f32 → sProp 𝕄) :
    iprop(pers m K c
        ∗ atPos ER (recvCell0 c) 0 ∅ 0 ∗ atPos ER (recvCell1 c) 0 ∅ 0
        ∗ cred (tallyAt (recvCell0 c) () N) ∗ cred (tallyAt (recvCell1 c) () N)
        ∗ wPts c cc0_stg0_0 (xstg m c) ∗ wPts c cc0_stg1_0 g1
        ∗ owes (c : Thread nD τ) 0 W
        ∗ (iprop(rPts0 c (landBuf m c) ∗ rPts1 c (landBuf m c)
              ∗ atPos ER (recvCell0 c) 1 ∅ 0 ∗ atPos ER (recvCell1 c) 1 ∅ 0
              ∗ wPts c cc0_stg0_0 (xstg m c)
              ∗ wPts c cc0_stg1_0 ((oM.access r0 : View sig .tc _ _ _).write (Elt F) g1 (half0 m c) Finset.univ)
              ∗ owes (c : Thread nD τ) 0 (insert (SemLoc.dma rS1, ()) (insert (SemLoc.dma rS0, ()) W)))
            -∗ Kt (a1 m c)))
      ⊢ wp frame (wpE (defs₀ (F := F)) 𝒱₀ c none) Set.univ
          (k0_part3 (Memref.whole cc0_stg0_0) (hstage0_0 0) (Memref.whole cc0_stg1_0) (hstage0_1 0)
            (Memref.whole cc0_scratch0) (Memref.isWhole_whole _) (Memref.whole cc0_scratch1) (Memref.isWhole_whole _) cc0_scratch2 cc0_scratch3
            v2 v8 v9 v58) Kt := by
  rw [k0_part3_eq_skeleton]; unfold k0_part3_skel
  simp only [Prog.lift, Prog.bind_op, Prog.bind_ret, Prog.pure_eq_ret]
  unfold pers invs
  iintro ⟨⟨⟨#HIbar, #HIs0, #HIs1, #HIr0, #HIr1, #HIbarP, #HIr0P, #HIr1P⟩, #HrBP, #HrR0P, #HrR1P, #HrS0, #HrS1, #Hlev⟩,
    HatR0, HatR1, HcR0, HcR1, Hx, Hout, HO, Hk⟩
  -- the wait on receive cell 0: slot 0 of the landing buffer, holding the peer's slot 0
  iapply (Rounds.wp_wait_rest_token 𝒱₀ ER (sched m) (c : Thread nD τ) none (κ := K (c, 3))
      (wpE_waitDma2_eq 𝒱₀ (c : Thread nD τ) none Set.univ) (Set.mem_univ _) () (O := 0) (W := W) (R := 0) (m := 0) (T := ∅)
      (by rw [Nat.zero_add, expect_recv0])) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hl0 := (Entails.of_eq (rest_recv0 m c)) $$ Hpay
  unfold recvPay0
  -- half 0 of the result: half 0 of the block plus the landed slot 0 widened
  iapply (wp_load 𝒱₀ (c : Thread nD τ) none Set.univ (m := xM) (by rw [View.set_whole]; exact Finset.subset_univ _)) $$ Hx; iintro Hx
  unfold rPts0
  iapply (wp_load_rect 𝒱₀ (c : Thread nD τ) none Set.univ (m := rM) (r := q0) (by rw [racc_q0_set])) $$ Hl0; iintro Hl0
  iapply (wp_load 𝒱₀ (c : Thread nD τ) none Set.univ (m := oM) (by rw [View.set_whole]; exact Finset.subset_univ _)) $$ Hout; iintro Hout
  iapply (wp_store 𝒱₀ (c : Thread nD τ) none Set.univ (m := oM) (r := r0) (Mk := Finset.univ) (by rw [View.set_whole]; exact Finset.subset_univ _)) $$ Hout; iintro Hout
  -- the wait on receive cell 1
  iapply (Rounds.wp_wait_rest_token 𝒱₀ ER (sched m) (c : Thread nD τ) none (κ := K (c, 4))
      (wpE_waitDma2_eq 𝒱₀ (c : Thread nD τ) none Set.univ) (Set.mem_univ _) () (O := 0) (W := insert (SemLoc.dma rS0, ()) W) (R := 0) (m := 0) (T := ∅)
      (by rw [Nat.zero_add, expect_recv1])) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hl1 := (Entails.of_eq (rest_recv1 m c)) $$ Hpay
  unfold recvPay1
  iapply (wp_load 𝒱₀ (c : Thread nD τ) none Set.univ (m := xM) (by rw [View.set_whole]; exact Finset.subset_univ _)) $$ Hx; iintro Hx
  rw [wp_ret]; imodintro
  have ha0 : (xM : Memref sig .tc .vmem S256x256 .f32).view.readAt (Elt F) r0.toLoadRect (xstg m c) = a0 m c := rfl
  have hl0 := read_land0 m c (landBuf m c) (fun _ _ => rfl)
  unfold a1
  iapply Hk
  isplitl [Hl0]; · iexact Hl0
  isplitl [Hl1]; · iexact Hl1
  isplitl [HatR0]; · iexact HatR0
  isplitl [HatR1]; · iexact HatR1
  isplitl [Hx]; · iexact Hx
  isplitl [Hout]
  · unfold half0; rw [← hl0, ← ha0]
    iexact Hout
  iexact HO

/-! ## The whole body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from, regrouped: what every stage keeps; the positions; the tokens of the duties the device
    pays; its launch credit; the two scratch buffers; what it owes; the two staged blocks. -/
def bodyPre (K : Dev nD × Fin 5 → ℕ) (c : Dev nD) : sProp 𝕄 :=
  iprop(pers m K c
    ∗ (atPos ER (barCell c) 0 ∅ 0 ∗ atPos ER (sendCell0 c) 0 ∅ 0 ∗ atPos ER (sendCell1 c) 0 ∅ 0 ∗ atPos ER (recvCell0 c) 0 ∅ 0 ∗ atPos ER (recvCell1 c) 0 ∅ 0)
    ∗ (dutyTok ER (barCell (peer c)) 0 () ∗ dutyTok ER (recvCell0 (peer c)) 0 () ∗ dutyTok ER (recvCell1 (peer c)) 0 ()
        ∗ dutyTok ER (sendCell0 c) 0 () ∗ dutyTok ER (sendCell1 c) 0 ())
    ∗ (cred (tallyAt (barCell c) () 1) ∗ cred (tallyAt (recvCell0 c) () N) ∗ cred (tallyAt (recvCell1 c) () N))
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outStg m c))

set_option maxHeartbeats 1600000 in
/-- The body, from \`bodyPre\` to \`bodyPost\`: the three printed parts, then half 1 of the result and the two send waits. -/
theorem sound_body (K : Dev nD × Fin 5 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (hstage0_0 0) (Memref.whole cc0_stg1_0) (hstage0_1 0)
            (Memref.whole cc0_scratch0) (Memref.isWhole_whole _) (Memref.whole cc0_scratch1) (Memref.isWhole_whole _) cc0_scratch2 cc0_scratch3) Kt := by
  rw [cc0_body_eq_skeleton]; unfold cc0_body_skel
  unfold bodyPre
  iintro ⟨⟨#Hpers, ⟨HatB, HatS0, HatS1, HatR0, HatR1⟩, ⟨HtBP, HtR0P, HtR1P, HtS0, HtS1⟩, ⟨HcB, HcR0, HcR1⟩, ⟨%fs0, Hsnd⟩, ⟨%fr0, Hrcv⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀ O₂
  -- the buffers through their memrefs' views; the landing buffer slot by slot
  ihave Hx := (Entails.of_eq (whole_pts_eq c cc0_stg0_0 _)) $$ Hx
  ihave Hout := (Entails.of_eq (whole_pts_eq c cc0_stg1_0 _)) $$ Hout
  ihave Hsnd := (Entails.of_eq (whole_pts_eq c cc0_scratch0 _)) $$ Hsnd
  ihave Hrcv := (rcv_split c fr0).1 $$ Hrcv
  icases Hrcv with ⟨Hr0, Hr1⟩
  -- statements 1 to 60
  rw [wp_bind]
  iapply (run_part1 m K c W fs0 fr0 _)
  isplitr; · iexact Hpers
  isplitl [HatB]; · iexact HatB
  isplitl [HtBP]; · iexact HtBP
  isplitl [HcB]; · iexact HcB
  isplitl [Hsnd]; · iexact Hsnd
  isplitl [Hr0]; · iexact Hr0
  isplitl [Hr1]; · iexact Hr1
  isplitl [Hx]; · iexact Hx
  isplitl [HO]; · iexact HO
  iintro %v2 %v8 %v9 ⟨Hsnd, Hbp, Hx, HO⟩
  -- statements 61 to 120
  dsimp only
  rw [wp_bind]
  iapply (run_part2 m K c (insert (SemLoc.reg barS, ()) W) _ (send0_agree m c fs0) v2 v8 v9 _)
  isplitr; · iexact Hpers
  isplitl [HtS0]; · iexact HtS0
  isplitl [HtS1]; · iexact HtS1
  isplitl [HtR0P]; · iexact HtR0P
  isplitl [HtR1P]; · iexact HtR1P
  isplitl [Hsnd]; · iexact Hsnd
  isplitl [Hbp]; · iexact Hbp
  isplitl [Hx]; · iexact Hx
  isplitl [HO]; · iexact HO
  iintro %v58 ⟨HcS0, HcS1, Hx, HO⟩
  -- statements 121 to 180
  rw [wp_bind]
  iapply (run_part3 m K c (insert (SemLoc.reg barS, ()) W) g1 v2 v8 v9 v58 _)
  isplitr; · iexact Hpers
  isplitl [HatR0]; · iexact HatR0
  isplitl [HatR1]; · iexact HatR1
  isplitl [HcR0]; · iexact HcR0
  isplitl [HcR1]; · iexact HcR1
  isplitl [Hx]; · iexact Hx
  isplitl [Hout]; · iexact Hout
  isplitl [HO]; · iexact HO
  iintro ⟨Hl0, Hl1, HatR0, HatR1, Hx, Hout, HO⟩
  -- half 1 of the result: half 1 of the block plus the landed slot 1 widened
  simp only [Prog.lift, Prog.bind_op, Prog.bind_ret, Prog.pure_eq_ret]
  ihave Hq := (Entails.of_eq (show pers m K c = _ from rfl)) $$ Hpers
  unfold pers invs
  icases Hq with ⟨⟨#HIbar, #HIs0, #HIs1, #HIr0, #HIr1, #HIbarP, #HIr0P, #HIr1P⟩, #HrBP, #HrR0P, #HrR1P, #HrS0, #HrS1, #Hlev⟩
  unfold rPts1
  iapply (wp_load_rect 𝒱₀ (c : Thread nD τ) none Set.univ (m := rM) (r := q1) (by rw [racc_q1_set])) $$ Hl1; iintro Hl1
  iapply (wp_load 𝒱₀ (c : Thread nD τ) none Set.univ (m := oM) (by rw [View.set_whole]; exact Finset.subset_univ _)) $$ Hout; iintro Hout
  iapply (wp_store 𝒱₀ (c : Thread nD τ) none Set.univ (m := oM) (r := r1) (Mk := Finset.univ) (by rw [View.set_whole]; exact Finset.subset_univ _)) $$ Hout; iintro Hout
  -- the wait on send cell 0: slot 0 of the send buffer back
  iapply (Rounds.wp_wait_rest_token 𝒱₀ ER (sched m) (c : Thread nD τ) none (κ := K (c, 1))
      (wpE_waitDma2_eq 𝒱₀ (c : Thread nD τ) none Set.univ) (Set.mem_univ _) () (O := 0)
      (W := insert (SemLoc.dma rS1, ()) (insert (SemLoc.dma rS0, ()) (insert (SemLoc.reg barS, ()) W))) (R := 0) (m := 0) (T := ∅)
      (by rw [Nat.zero_add, expect_send0])) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hs0 := (Entails.of_eq (rest_send0 m c)) $$ Hpay
  -- the wait on send cell 1: slot 1 back
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma sS0, ()) (insert (SemLoc.dma rS1, ()) (insert (SemLoc.dma rS0, ()) (insert (SemLoc.reg barS, ()) W)))) (R := 0) (m := 0) (T := ∅)
      (by rw [Nat.zero_add, expect_send1])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hs1 := (Entails.of_eq (rest_send1 m c)) $$ Hpay
  -- the four own cells close: their counters at zero are the device's again
  imod (Rounds.cell_close ER (sched m) (Set.mem_univ (K (c, 1))) (fun h => h) (R := 0 + 1) (duties_later m (sendCell0 c))) $$ [HatS0] with HzS0
  · isplitr; · iexact HIs0
    iexact HatS0
  imod (Rounds.cell_close ER (sched m) (Set.mem_univ (K (c, 2))) (fun h => h) (R := 0 + 1) (duties_later m (sendCell1 c))) $$ [HatS1] with HzS1
  · isplitr; · iexact HIs1
    iexact HatS1
  imod (Rounds.cell_close ER (sched m) (Set.mem_univ (K (c, 3))) (fun h => h) (R := 1) (duties_later m (recvCell0 c))) $$ [HatR0] with HzR0
  · isplitr; · iexact HIr0
    iexact HatR0
  imod (Rounds.cell_close ER (sched m) (Set.mem_univ (K (c, 4))) (fun h => h) (R := 1) (duties_later m (recvCell1 c))) $$ [HatR1] with HzR1
  · isplitr; · iexact HIr1
    iexact HatR1
  rw [wp_ret]; imodintro
  -- the scratch buffers whole again
  unfold sendPay0 sendPay1
  ihave Hsnd := (snd_split c (sendBuf m c)).2 $$ [Hs0 Hs1]
  · isplitl [Hs0]; · iexact Hs0
    iexact Hs1
  ihave Hrcv := (rcv_split c (landBuf m c)).2 $$ [Hl0 Hl1]
  · isplitl [Hl0]; · iexact Hl0
    unfold rPts1; iexact Hl1
  iapply Hk
  unfold bodyPost Φ₁ Dat.owesAt Pipeline.owesWithin
  rw [show (dats m 0 c).owed t₀.succ = 0 from rfl]
  isplitl [Hsnd Hrcv HzS0 HzS1 HzR0 HzR1]
  · isplitl [Hsnd]; · iexists _; iexact Hsnd
    isplitl [Hrcv]; · iexists _; iexact Hrcv
    isplitl [HzS0]; · iexact HzS0
    isplitl [HzS1]; · iexact HzS1
    isplitl [HzR0]; · iexact HzR0
    iexact HzR1
  isplitl [HO]
  · iexists (insert (SemLoc.dma sS1, ()) (insert (SemLoc.dma sS0, ()) (insert (SemLoc.dma rS1, ()) (insert (SemLoc.dma rS0, ()) (insert (SemLoc.reg barS, ()) W)))))
    isplitr; · ipureintro; exact fun _ _ => Or.inl trivial
    iexact HO
  isplitl [Hx]
  · iexists _; isplitr; · (ipureintro; rfl)
    iapply (Entails.of_eq (whole_pts_eq c cc0_stg0_0 _).symm); iexact Hx
  iexists _; isplitr
  · ipureintro
    exact ((congrArg (fun v => (oM.access r1 : View sig .tc _ _ _).write (Elt F) ((oM.access r0 : View sig .tc _ _ _).write (Elt F) g1 (half0 m c) Finset.univ) v Finset.univ)
      (show k0_pay1 (a1 m c) ((rM : Memref sig .tc .vmem S2x128x256 .bf16).view.readAt (Elt F) q1.toLoadRect (landBuf m c)) = half1 m c from by
        unfold half1; rw [read_land1 m c (landBuf m c) (fun _ _ => rfl)])).trans (out_eq m c g1))
  iapply (Entails.of_eq (whole_pts_eq c cc0_stg1_0 _).symm); iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The library's body obligation on device \`c\`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (hstage0_0 0) (Memref.whole cc0_stg1_0) (hstage0_1 0)
      (Memref.whole cc0_scratch0) (Memref.isWhole_whole _) (Memref.whole cc0_scratch1) (Memref.isWhole_whole _) cc0_scratch2 cc0_scratch3) (fun _ => bodyPost m c)
  unfold bodyPre' Φ₀ start ghost
  iintro ⟨⟨⟨⟨%K, #HI, HatB, HatS0, HatS1, HatR0, HatR1, #HrBP, #HrR0P, #HrR1P, #HrS0, #HrS1, HtBP, HtR0P, HtR1P, HtS0, HtS1⟩, HcB, HcR0, HcR1, #Hlev⟩, Hsnd, Hrcv⟩, Ho, Hx, Hout⟩
  iapply (sound_body m K c fun _ => bodyPost m c)
  unfold bodyPre pers
  isplitr []
  · isplitr
    · isplitr; · iexact HI
      isplitr; · iexact HrBP
      isplitr; · iexact HrR0P
      isplitr; · iexact HrR1P
      isplitr; · iexact HrS0
      isplitr; · iexact HrS1
      iexact Hlev
    isplitl [HatB HatS0 HatS1 HatR0 HatR1]
    · isplitl [HatB]; · iexact HatB
      isplitl [HatS0]; · iexact HatS0
      isplitl [HatS1]; · iexact HatS1
      isplitl [HatR0]; · iexact HatR0
      iexact HatR1
    isplitl [HtBP HtR0P HtR1P HtS0 HtS1]
    · isplitl [HtBP]; · iexact HtBP
      isplitl [HtR0P]; · iexact HtR0P
      isplitl [HtR1P]; · iexact HtR1P
      isplitl [HtS0]; · iexact HtS0
      iexact HtS1
    isplitl [HcB HcR0 HcR1]
    · isplitl [HcB]; · iexact HcB
      isplitl [HcR0]; · iexact HcR0
      iexact HcR1
    isplitl [Hsnd]; · iexact Hsnd
    isplitl [Hrcv]; · iexact Hrcv
    isplitl [Ho]; · iexact Ho
    isplitl [Hx] <;> iassumption
  · iintro H; iexact H

/-- info: 'Cert.Kernel.Proto.body_obligation' depends on axioms: [propext, Classical.choice, Quot.sound] -/
#guard_msgs in #print axioms body_obligation

end Cert.Kernel.Proto

end
-- ==== Proof.KernelLaunch.lean ====
/-
  The launch of the exchange.

  Every device starts from zero counters. The launch element is split between the staging pipeline's cells and the
  exchange's five cells per device. Funding the exchange's half gives, per cell, its round state at counter zero, the
  mark that round 0 is reached, its owner's position, and the token of its one duty. Each device then allocates the
  invariants of its own five cells from their counters at zero, and the duty tokens are dealt around the involution
  peer: a device keeps the tokens of its own two send cells and takes those of its peer's barrier cell and two receive
  cells, the duties it pays. What every device owes at launch sums, cell by cell, to the credit its peer waits with.
  The result array ends as what the one write-back wrote over the whole of it; the input array is never written.
-/
import proofs.«900502_g7700000000000503_dist_ar_v7x_xyz2x2x2_y_m256_n256_bf16_1_alg».proof.Proof.KernelProto
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Spec

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the kernel's own semaphores; the cells and tokens of the launch element -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Each cell has one duty, in round 0. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg (fun x : GSem nD τ sig × ℕ × Unit => x.1) h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device c's own five cells. -/
def toks (c : Dev nD) : sProp 𝕄 :=
  iprop(dutyTok ER (barCell c) 0 () ∗ dutyTok ER (sendCell0 c) 0 () ∗ dutyTok ER (sendCell1 c) 0 ()
    ∗ dutyTok ER (recvCell0 c) 0 () ∗ dutyTok ER (recvCell1 c) 0 ())

/-- What the launch element deals device c. -/
def G (c : Dev nD) : sProp 𝕄 :=
  iprop((bigSep Finset.univ fun k : Fin 5 => roundState ER (sched m) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 5 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin5]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the invariants allocated per device -/

/-- The four transfer semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell0 c) 0 ∗ semVal (sendCell1 c) 0 ∗ semVal (recvCell0 c) 0 ∗ semVal (recvCell1 c) 0) := by
  rw [Pipeline.ownSems0_eq_of_list c osem [0, 1, 2, 3] (by decide) (by decide)]; rfl
/-- the barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, HB⟩
  isplitl [HB]; · iexact HB
  isplitl [H1]; · iexact H1
  isplitl [H2]; · iexact H2
  isplitl [H3]; · iexact H3
  iexact H4

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 5 => iprop(∃ κ : ℕ, cellInv ER (sched m) κ (kcell (c, k))))
          ∗ (bigSep Finset.univ fun k : Fin 5 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (sched m) (kcell (c, k)) 0)
      ⊢ (|={Set.univ}=> bigSep Finset.univ fun k : Fin 5 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Regrouping: every device's ghost state from all the devices' allocations -/

def records (K : Dev nD × Fin 5 → ℕ) : sProp 𝕄 :=
  iprop((bigSep Finset.univ fun ck : Dev nD × Fin 5 => cellInv ER (sched m) (K ck) (kcell ck))
    ∗ bigSep Finset.univ fun ck : Dev nD × Fin 5 => reached ER (kcell ck) 0)

instance records_persistent (K : Dev nD × Fin 5 → ℕ) : BI.Persistent (records m K) := by unfold records; infer_instance

theorem inv_at (K : Dev nD × Fin 5 → ℕ) (ck : Dev nD × Fin 5) :
    (bigSep Finset.univ fun ck : Dev nD × Fin 5 => (cellInv ER (sched m) (K ck) (kcell ck) : sProp 𝕄)) ⊢ cellInv ER (sched m) (K ck) (kcell ck) :=
  bigSep_elim (Finset.mem_univ ck)
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device c pays: its peer's barrier duty, its peer's two receive duties, its own two send duties. -/
def payToks (c : Dev nD) : sProp 𝕄 :=
  iprop(dutyTok ER (barCell (peer c)) 0 () ∗ dutyTok ER (recvCell0 (peer c)) 0 () ∗ dutyTok ER (recvCell1 (peer c)) 0 ()
    ∗ dutyTok ER (sendCell0 c) 0 () ∗ dutyTok ER (sendCell1 c) 0 ())
/-- What stays with device c alone: its five positions and those tokens. -/
def linear (c : Dev nD) : sProp 𝕄 :=
  iprop((atPos ER (barCell c) 0 ∅ 0 ∗ atPos ER (sendCell0 c) 0 ∅ 0 ∗ atPos ER (sendCell1 c) 0 ∅ 0 ∗ atPos ER (recvCell0 c) 0 ∅ 0 ∗ atPos ER (recvCell1 c) 0 ∅ 0)
    ∗ payToks c)

theorem ghost_intro (K : Dev nD × Fin 5 → ℕ) (c : Dev nD) : iprop(records m K ∗ linear c) ⊢ G' m c := by
  unfold records linear payToks G' ghost invs
  iintro ⟨⟨#HI, #HR⟩, ⟨HaB, HaS0, HaS1, HaR0, HaR1⟩, HtB, HtR0, HtR1, HtS0, HtS1⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (c, 4)); iexact HI
    isplitr; · iapply (inv_at m K (peer c, 0)); iexact HI
    isplitr; · iapply (inv_at m K (peer c, 3)); iexact HI
    iapply (inv_at m K (peer c, 4)); iexact HI
  isplitl [HaB]; · iexact HaB
  isplitl [HaS0]; · iexact HaS0
  isplitl [HaS1]; · iexact HaS1
  isplitl [HaR0]; · iexact HaR0
  isplitl [HaR1]; · iexact HaR1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitl [HtB]; · iexact HtB
  isplitl [HtR0]; · iexact HtR0
  isplitl [HtR1]; · iexact HtR1
  isplitl [HtS0]; · iexact HtS0
  iexact HtS1

theorem peerEquiv_apply (c : Dev nD) : peerEquiv c = peer c := rfl

/-- The tokens dealt around the involution: a device's barrier token and its two receive tokens go to its peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv peerEquiv (fun c : Dev nD => (dutyTok ER (barCell c) 0 () : sProp 𝕄)),
    bigSep_univ_equiv peerEquiv (fun c : Dev nD => (dutyTok ER (recvCell0 c) 0 () : sProp 𝕄)),
    bigSep_univ_equiv peerEquiv (fun c : Dev nD => (dutyTok ER (recvCell1 c) 0 () : sProp 𝕄))]
  simp only [peerEquiv_apply]
  iintro ⟨HB, HS0, HS1, HR0, HR1⟩
  isplitl [HB]; · iexact HB
  isplitl [HR0]; · iexact HR0
  isplitl [HR1]; · iexact HR1
  isplitl [HS0]; · iexact HS0
  iexact HS1

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 5 => iprop(∃ κ : ℕ, cellInv ER (sched m) κ (kcell (c, k))))
          ∗ (bigSep Finset.univ fun k : Fin 5 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 5 => iprop(∃ κ : ℕ, cellInv ER (sched m) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What the devices owe sums, at device c, to one unit on its barrier cell and the slot's credit on each receive cell:
    each is owed by its peer alone. -/
theorem creds (c : Dev nD) :
    (Pipeline.launchCred O₀ c : sProp 𝕄)
      ⊢ iprop(cred (tallyAt (barCell c) () 1) ∗ cred (tallyAt (recvCell0 c) () N) ∗ cred (tallyAt (recvCell1 c) () N)) := by
  have e1 : (Pipeline.launchCred O₀ c : sProp 𝕄)
      = iprop(Pipeline.launchCred O₂ c ∗ Pipeline.launchCred (fun d : Dev nD => (tallyAt (barCell (peer d)) () 1 : CellTallies nD τ sig Unit)) c) :=
    Pipeline.launchCred_add O₂ (fun d : Dev nD => (tallyAt (barCell (peer d)) () 1 : CellTallies nD τ sig Unit)) c
  have e2 : (Pipeline.launchCred O₂ c : sProp 𝕄)
      = iprop(Pipeline.launchCred (fun d : Dev nD => (tallyAt (recvCell1 (peer d)) () N : CellTallies nD τ sig Unit)) c
          ∗ Pipeline.launchCred (fun d : Dev nD => (tallyAt (recvCell0 (peer d)) () N : CellTallies nD τ sig Unit)) c) :=
    Pipeline.launchCred_add (fun d : Dev nD => (tallyAt (recvCell1 (peer d)) () N : CellTallies nD τ sig Unit))
      (fun d : Dev nD => (tallyAt (recvCell0 (peer d)) () N : CellTallies nD τ sig Unit)) c
  rw [e1, e2]
  iintro ⟨⟨H1, H0⟩, HB⟩
  isplitl [HB]; · iapply (Pipeline.launchCred_tallyAt (SemLoc.reg barS) peer peer peer_peer peer_peer () 1 c); iexact HB
  isplitl [H0]; · iapply (Pipeline.launchCred_tallyAt (SemLoc.dma rS0) peer peer peer_peer peer_peer () N c); iexact H0
  iapply (Pipeline.launchCred_tallyAt (SemLoc.dma rS1) peer peer peer_peer peer_peer () N c); iexact H1

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H0, H1⟩
  imodintro
  unfold start G'
  isplitl
  · isplitl [HG]; · iexact HG
    isplitl [HB]; · iexact HB
    isplitl [H0]; · iexact H0
    isplitl [H1]; · iexact H1
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr0, Hr1, HS0, HS1, HR0, HR1⟩
  isplitr; · iempintro
  isplitl [HS0 HS1 HR0 HR1]
  · isplitl [HS0]; · iexact HS0
    isplitl [HS1]; · iexact HS1
    isplitl [HR0]; · iexact HR0
    iexact HR1
  isplitl [Hr0]; · iexact Hr0
  iexact Hr1

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ## The final arrays -/

/-- The result array after the one point: the write-back writes the staged result over the whole array. -/
theorem final_out (c : Dev nD) : (dats m 0 c).arrAt (1 : Fin 2) cfg0.N = Spec.outVal m c := by
  have h := (dats m 0 c).arrAt_succ (1 : Fin 2) t₀
  rw [if_pos (flush0_1 t₀)] at h
  rw [cfg0_N]
  refine h.trans ?_
  exact Memref.write_access_unit_zero_univ (Elt F) main_v1 (funext fun a => Nat.zero_mul _) _ _ _

/-! ## The run -/

set_option maxRecDepth 8000 in
/-- At the compiled mesh of eight devices, for any float values, from any memory with zero counters: every weakly fair
    execution of @main terminates, and every final state has each device's result array at its block plus its peer's
    narrowed and widened, and its input array unchanged. -/
theorem run_main (hbody : ∀ c : Dev nD, BodyObligation (dats (F := F) m 0 c) (defs₀ (F := F)) 𝒱₀ () Set.univ) :
    θ_run (defs (F := F)) (onTc (τ := τ) (main (F := F))) ⟨m, fun _ => 0, ρ⟩
      (fun r => ∀ c : Dev nD,
        r.2.mem ((c.tc : Thread nD τ).loc main_v1) = Spec.outVal m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨((h c).1 1).trans (final_out m c), ((h c).1 0).trans ((dats (F := F) m 0 c).arrAt_in (0 : Fin 2) rfl _)⟩)

/-- info: 'Cert.Kernel.Proto.run_main' depends on axioms: [propext, Classical.choice, Quot.sound] -/
#guard_msgs in #print axioms run_main

end Cert.Kernel.Proto

end
-- ==== Proof.Value.lean ====
import proofs.«900502_g7700000000000503_dist_ar_v7x_xyz2x2x2_y_m256_n256_bf16_1_alg».proof.Defs
import proofs.«900502_g7700000000000503_dist_ar_v7x_xyz2x2x2_y_m256_n256_bf16_1_alg».proof.Proof.Spec
import proofs.«900502_g7700000000000503_dist_ar_v7x_xyz2x2x2_y_m256_n256_bf16_1_alg».proof.Proof.Gen.ReferenceIdeal.Run
import proofs.«900502_g7700000000000503_dist_ar_v7x_xyz2x2x2_y_m256_n256_bf16_1_alg».proof.Proof.Gen.ReferenceIdeal.Read
import proofs.«900502_g7700000000000503_dist_ar_v7x_xyz2x2x2_y_m256_n256_bf16_1_alg».proof.Proof.Gen.Pre_finite_inputs_Kernel
import proofs.«900502_g7700000000000503_dist_ar_v7x_xyz2x2x2_y_m256_n256_bf16_1_alg».proof.Proof.Gen.Pre_finite_inputs_ReferenceIdeal
import Idealize.ShloMosaic.Lib.Layout
import Idealize.ShloMosaic.PureOps.Ideal.Laws

/-
  The value side of the claim. The whole input X : f32[512, 256] is cut in two row blocks along the
  y coordinate of the mesh; a device with y coordinate y holds rows [256 y, 256 y + 256). Every device
  ends with its own block plus the block of the device that differs from it in y alone, so with
  X[i, j] + X[256 + i, j] in one order or the other: addition of extended reals is commutative, and
  that is the reference's sum over axis 0 of X reshaped to [2, 256, 256] (initial value zero).
-/

noncomputable section

namespace Cert.KernelIdeal.ValueBridge

open Idealize.ShloMosaic Idealize.ShloMosaic.TcCoe Idealize.SL.Sem

/-! ## The reference runs and leaves its argument unchanged -/

theorem frame_ref : Cert.frame_ReferenceIdeal := fun m ρ _ =>
  (θ_run Cert.ReferenceIdeal.defs _ _).mono (fun _ h c => (h c).2) (Cert.ReferenceIdeal.Value.run (F := Ideal) m ρ)

/-! ## Indices: a row block of the whole array -/

/-- Entry (i₀, i₁) of row block `y`: row `256 y + i₀`, column `i₁` of the whole array. -/
def row (y : Fin 2) (i : Cert.ReferenceIdeal.S256x256.Idx) : Cert.ReferenceIdeal.S512x256.Idx := fun a => match a with
  | ⟨0, _⟩ => ⟨y.val * 256 + (i 0).val, by
      have hy : y.val < 2 := y.isLt
      have h0 : (i 0).val < 256 := (i 0).isLt
      show y.val * 256 + (i 0).val < 512
      omega⟩
  | ⟨1, _⟩ => ⟨(i 1).val, (i 1).isLt⟩

/-- A device's coordinate on the mesh axis y (the middle one of three axes of size two). -/
def ycoord (c : Dev Cert.KernelIdeal.nD) : Fin 2 := ⟨(c.val / 2) % 2, Nat.mod_lt _ (by decide)⟩

/-- The block coordinate along the rows is the y coordinate. -/
theorem meshLin_rows (c : Dev Cert.KernelIdeal.nD) : Layout.meshLin [2, 2, 2] c.val [1] = (ycoord c).val := by
  revert c; decide

/-- A device and its peer have the two different y coordinates. -/
theorem ycoord_cases (c : Dev Cert.KernelIdeal.nD) :
    (ycoord c = 0 ∧ ycoord (Spec.peer c) = 1) ∨ (ycoord c = 1 ∧ ycoord (Spec.peer c) = 0) := by
  revert c; decide

/-- Device `c`'s block of an array cut in two along its rows by the y coordinate, read at an index. -/
theorem block_apply {α : Type} (c : Dev Cert.KernelIdeal.nD) (X : Cert.ReferenceIdeal.S512x256.Idx → α)
    (i : Cert.ReferenceIdeal.S256x256.Idx) :
    (Layout.blockN ⟨2, ![256, 256]⟩ ⟨2, ![512, 256]⟩ (Layout.meshBlock [2, 2, 2] ![[1], []] c) X) i
      = X (row (ycoord c) i) := by
  rw [Layout.blockN_apply]
  refine congrArg X (funext fun a => Fin.ext ?_)
  match a with
  | ⟨0, _⟩ =>
    show Layout.meshLin [2, 2, 2] c.val [1] * 256 + (i 0).val = (ycoord c).val * 256 + (i 0).val
    rw [meshLin_rows]
  | ⟨1, _⟩ =>
    show Layout.meshLin [2, 2, 2] c.val [] * 256 + (i 1).val = (i 1).val
    show 0 * 256 + (i 1).val = (i 1).val
    omega

/-- Slice `k` of the whole array reshaped to [2, 256, 256] is row block `k`. -/
theorem ref_idx (i : Cert.ReferenceIdeal.S256x256.Idx) (k : Fin 2) :
    Cert.ReferenceIdeal.Read.idx_main_v0 (Cert.ReferenceIdeal.Read.idx_main_v1 i k) = row k i := by
  have hk : k.val < 2 := k.isLt
  have h0 : (i 0).val < 256 := (i 0).isLt
  have h1 : (i 1).val < 256 := (i 1).isLt
  refine funext fun a => Fin.ext ?_
  match a with
  | ⟨0, _⟩ =>
    show ((k.val * 256 + (i 0).val) * 256 + (i 1).val) / 256 = k.val * 256 + (i 0).val
    omega
  | ⟨1, _⟩ =>
    show ((k.val * 256 + (i 0).val) * 256 + (i 1).val) % 256 = (i 1).val
    omega

/-! ## The value -/

/-- The reference's result at an index: the two row blocks' entries added to zero. -/
theorem ref_apply (X : (⟨Cert.ReferenceIdeal.S512x256, .f32⟩ : BufTy).Contents (Elt Ideal))
    (i : Cert.ReferenceIdeal.S256x256.Idx) :
    Cert.ReferenceIdeal.Read.val_main_v1 (F := Ideal) X i
      = (show EReal from X (row 0 i)) + (show EReal from X (row 1 i)) := by
  rw [Cert.ReferenceIdeal.Read.val_main_v1_apply, Fin.sum_univ_two,
    Cert.ReferenceIdeal.Read.val_main_v0_apply, Cert.ReferenceIdeal.Read.val_main_v0_apply, ref_idx, ref_idx,
    Cert.ReferenceIdeal.Read.val_main_cst_apply, Ideal.ofBits_def, Ideal.ofBits_zero_f32]
  exact zero_add _

/-- What a device ends with is the reference's result, when every device holds its block of the whole array. -/
theorem outVal_eq (m : (ℓ : Loc Cert.KernelIdeal.nD Cert.KernelIdeal.τ Cert.KernelIdeal.sig) → Buf (Elt Ideal) ℓ)
    (X : (⟨Cert.ReferenceIdeal.S512x256, .f32⟩ : BufTy).Contents (Elt Ideal))
    (hblk : ∀ c : Dev Cert.KernelIdeal.nD,
      m ((c.tc : Thread Cert.KernelIdeal.nD Cert.KernelIdeal.τ).loc Cert.KernelIdeal.main_arg0)
        = Layout.blockN ⟨2, ![256, 256]⟩ ⟨2, ![512, 256]⟩ (Layout.meshBlock [2, 2, 2] ![[1], []] c) X)
    (c : Dev Cert.KernelIdeal.nD) :
    Spec.outVal (F := Ideal) m c = Cert.ReferenceIdeal.Read.val_main_v1 (F := Ideal) X := by
  funext i
  have hout : Spec.outVal (F := Ideal) m c i
      = (show EReal from X (row (ycoord c) i)) + (show EReal from X (row (ycoord (Spec.peer c)) i)) := by
    unfold Spec.outVal Spec.xarr
    simp only [addf, extf, truncf, Ideal.addf_def, Ideal.extf_def, Ideal.truncf_def]
    rw [hblk c, hblk (Spec.peer c), block_apply, block_apply]
  rw [hout, ref_apply]
  rcases ycoord_cases c with ⟨h0, h1⟩ | ⟨h0, h1⟩
  · rw [h0, h1]
  · rw [h0, h1]; exact add_comm (G := EReal) _ _

/-! ## The claim, from the kernel's run -/

theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1) = Cert.KernelIdeal.Spec.outVal (F := Ideal) m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))) :
    Cert.algebraic_KernelIdeal_ReferenceIdeal := by
  intro m g m' g' _ hblk
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (outVal_eq m _ hblk c), (h c).2⟩) (hrun m g)
  · exact (θ_run Cert.ReferenceIdeal.defs _ _).mono
      (fun _ h => ⟨(h 0).1.trans (Cert.ReferenceIdeal.Read.val_main_v1_eq _), (h 0).2⟩)
      (Cert.ReferenceIdeal.Value.run (F := Ideal) m' g')

/-- info: 'Cert.KernelIdeal.ValueBridge.frame_ref' depends on axioms: [propext, Classical.choice, Quot.sound] -/
#guard_msgs in #print axioms frame_ref
/-- info: 'Cert.KernelIdeal.ValueBridge.algebraic_of_run' depends on axioms: [propext, Classical.choice, Quot.sound] -/
#guard_msgs in #print axioms algebraic_of_run

end Cert.KernelIdeal.ValueBridge

end
-- ==== Proof.lean ====
/-
  The certificate: a two-slot exchange between peers on a mesh of eight devices, against the sum of the two row blocks.

  The input f32[512, 256] is cut along its rows in two blocks by one mesh coordinate; each device narrows its block to
  bf16, exchanges it with the device that differs in that coordinate alone (two transfers of 128 rows each, after an
  entry handshake on the runtime's barrier semaphore), and adds what it received, widened back, to its own block. Over
  the extended reals narrowing and widening change nothing and addition is commutative, so every device ends with the
  sum of the two blocks: the reference's sum over the leading axis of the array reshaped to [2, 256, 256].

  The run of all eight kernels (termination on every fair interleaving, no fault, the result named, the argument
  unchanged) is proved once, generically in the float instance: the mathematics free of protocol (Spec), the buffers'
  contents (Contents, Data), the protocol under the rounds discipline (Proto), one device's body (Body) and the launch
  (Launch). The two frames of the kernel are that run at the two instances with the result dropped; the reference's
  frame is its generated run; nothing was rewritten by the ideal pass; and the equivalence is the run at the ideal
  instance joined to the reference's value (Value).
-/
import proofs.«900502_g7700000000000503_dist_ar_v7x_xyz2x2x2_y_m256_n256_bf16_1_alg».proof.Defs
import proofs.«900502_g7700000000000503_dist_ar_v7x_xyz2x2x2_y_m256_n256_bf16_1_alg».proof.Proof.Gen.Kernel
import proofs.«900502_g7700000000000503_dist_ar_v7x_xyz2x2x2_y_m256_n256_bf16_1_alg».proof.Proof.Gen.KernelIdeal
import proofs.«900502_g7700000000000503_dist_ar_v7x_xyz2x2x2_y_m256_n256_bf16_1_alg».proof.Proof.Gen.ReferenceIdeal
import proofs.«900502_g7700000000000503_dist_ar_v7x_xyz2x2x2_y_m256_n256_bf16_1_alg».proof.Proof.Gen.Pre_finite_inputs_Kernel
import proofs.«900502_g7700000000000503_dist_ar_v7x_xyz2x2x2_y_m256_n256_bf16_1_alg».proof.Proof.Gen.Pre_finite_inputs_ReferenceIdeal
import proofs.«900502_g7700000000000503_dist_ar_v7x_xyz2x2x2_y_m256_n256_bf16_1_alg».proof.Proof.Body
import proofs.«900502_g7700000000000503_dist_ar_v7x_xyz2x2x2_y_m256_n256_bf16_1_alg».proof.Proof.Launch
import proofs.«900502_g7700000000000503_dist_ar_v7x_xyz2x2x2_y_m256_n256_bf16_1_alg».proof.Proof.KernelBody
import proofs.«900502_g7700000000000503_dist_ar_v7x_xyz2x2x2_y_m256_n256_bf16_1_alg».proof.Proof.KernelLaunch
import proofs.«900502_g7700000000000503_dist_ar_v7x_xyz2x2x2_y_m256_n256_bf16_1_alg».proof.Proof.Value
import Idealize.ShloMosaic.Adequacy
import Idealize.ShloMosaic.Init

noncomputable section

namespace Cert.Proof

open Idealize.ShloMosaic Idealize.SL.Sem

/-- The word-level kernel runs and leaves its argument as it was: the run, the result's value dropped. -/
theorem frame_k : Cert.frame_Kernel := fun m ρ _ =>
  (θ_run (Cert.Kernel.defs (F := Bits)) _ _).mono (fun _ h c => (h c).2)
    (Cert.Kernel.Proto.run_main (F := Bits) m ρ (Cert.Kernel.Proto.body_obligation m))

/-- The idealized kernel likewise. -/
theorem frame_ki : Cert.frame_KernelIdeal := fun m ρ _ =>
  (θ_run (Cert.KernelIdeal.defs (F := Ideal)) _ _).mono (fun _ h c => (h c).2)
    (Cert.KernelIdeal.Proto.run_main (F := Ideal) m ρ (Cert.KernelIdeal.Proto.body_obligation m))

/-- The ideal pass rewrote nothing: there is nothing to preserve. -/
theorem preserves : Cert.preserves_Kernel_KernelIdeal := trivial

/-- Every device's result is the sum of the two row blocks, the reference's value. -/
theorem algebraic : Cert.algebraic_KernelIdeal_ReferenceIdeal :=
  Cert.KernelIdeal.ValueBridge.algebraic_of_run fun m ρ =>
    Cert.KernelIdeal.Proto.run_main (F := Ideal) m ρ (Cert.KernelIdeal.Proto.body_obligation m)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.KernelIdeal.ValueBridge.frame_ref, preserves, algebraic⟩

end Cert.Proof

end
